-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x16384 : Shape := ⟨2, ![16384, 16384]⟩
abbrev S256x128 : Shape := ⟨2, ![256, 128]⟩
abbrev S128x64 : Shape := ⟨2, ![128, 64]⟩
abbrev S64x64 : Shape := ⟨2, ![64, 64]⟩
abbrev S64 : Shape := ⟨1, ![64]⟩
abbrev S16384x64 : Shape := ⟨2, ![16384, 64]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S16384x64 : S_.BroadcastsInDim S16384x64 (![] : Fin 0 → Fin S16384x64.rank)
  reducesTo_S16384x64_S_d0_1 : S16384x64.ReducesTo [0, 1] S_

variable [Facts]

def fn_part2 {F : FTy → Type} [FloatOps F] (main_arg7 : FVec F S16384x64 .f32) (main_v33 : IVec S_ 1) : IVec S_ 1 :=
  let main_v34 : FVec F S16384x64 .f32 := Host.absf main_arg7
  let main_cst_12 : FVec F S_ .f32 := constant S_ .f32 0x7F800000#32
  let main_v35 : FVec F S16384x64 .f32 := broadcastInDim S16384x64 ![] bcast_S_S16384x64 main_cst_12
  let main_v36 : IVec S16384x64 1 := cmpf .olt main_v34 main_v35
  let main_c_13 : IVec S_ 1 := constantI S_ 1 1#1
  let main_v37 : IVec S_ 1 := (fun x v => Host.reduce IntOp.andi x v reducesTo_S16384x64_S_d0_1 h_S_) main_v36 main_c_13
  let main_v38 : IVec S_ 1 := andi main_v33 main_v37
  main_v38

def fn_part1 {F : FTy → Type} [FloatOps F] (main_arg4 : FVec F S128x64 .f32) (main_arg5 : FVec F S64x64 .f32) (main_arg6 : FVec F S64 .f32) (main_arg7 : FVec F S16384x64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S16384x256 .f32) (main_arg1 : FVec F S16384x16384 .f32) (main_arg2 : FVec F S256x128 .f32) (main_arg3 : FVec F S128x64 .f32) (main_arg4 : FVec F S128x64 .f32) (main_arg5 : FVec F S64x64 .f32) (main_arg6 : FVec F S64 .f32) (main_arg7 : FVec F S16384x64 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_v13 main_v16
-- ==== Kernel.lean ====
abbrev S16384x256 : Shape := ⟨2, ![16384, 256]⟩
abbrev S16384x16384 : Shape := ⟨2, ![16384, 16384]⟩
abbrev S256x128 : Shape := ⟨2, ![256, 128]⟩
abbrev S128x64 : Shape := ⟨2, ![128, 64]⟩
abbrev S64x64 : Shape := ⟨2, ![64, 64]⟩
abbrev S64 : Shape := ⟨1, ![64]⟩
abbrev S16384x64 : Shape := ⟨2, ![16384, 64]⟩
abbrev S16384x128 : Shape := ⟨2, ![16384, 128]⟩
abbrev S1024x256 : Shape := ⟨2, ![1024, 256]⟩
abbrev S1024x128 : Shape := ⟨2, ![1024, 128]⟩
abbrev S1024x2048 : Shape := ⟨2, ![1024, 2048]⟩
abbrev S2048x128 : Shape := ⟨2, ![2048, 128]⟩
abbrev S128x128 : Shape := ⟨2, ![128, 128]⟩
abbrev S1x64 : Shape := ⟨2, ![1, 64]⟩
abbrev S1024x64 : Shape := ⟨2, ![1024, 64]⟩

abbrev nBuf : Space → Nat
  | .hbm => 14
  | .vmem => 28
  | .smem => 0
  | _ => 0

abbrev bufTy : (tb : Table) → Fin (tcTables nBuf tb) → BufTy
  | .hbm, ⟨0, _⟩ => ⟨S16384x256, .f32⟩
  | .hbm, ⟨1, _⟩ => ⟨S16384x16384, .f32⟩
  | .hbm, ⟨2, _⟩ => ⟨S256x128, .f32⟩
  | .hbm, ⟨3, _⟩ => ⟨S128x64, .f32⟩
  | .hbm, ⟨4, _⟩ => ⟨S128x64, .f32⟩
  | .hbm, ⟨5, _⟩ => ⟨S64x64, .f32⟩
  | .hbm, ⟨6, _⟩ => ⟨S64, .f32⟩
  | .hbm, ⟨7, _⟩ => ⟨S16384x64, .f32⟩
  | .hbm, ⟨8, _⟩ => ⟨S16384x128, .f32⟩
  | .hbm, ⟨9, _⟩ => ⟨S16384x128, .f32⟩
  | .hbm, ⟨10, _⟩ => ⟨S128x128, .f32⟩
  | .hbm, ⟨11, _⟩ => ⟨S16384x128, .f32⟩
  | .hbm, ⟨12, _⟩ => ⟨S1x64, .f32⟩
  | .hbm, ⟨13, _⟩ => ⟨S16384x64, .f32⟩
  | .local _ .vmem, ⟨0, _⟩ => ⟨S1024x256, .f32⟩
  | .local _ .vmem, ⟨1, _⟩ => ⟨S1024x256, .f32⟩
  | .local _ .vmem, ⟨2, _⟩ => ⟨S256x128, .f32⟩
  | .local _ .vmem, ⟨3, _⟩ => ⟨S1024x128, .f32⟩
  | .local _ .vmem, ⟨4, _⟩ => ⟨S1024x128, .f32⟩
  | .local _ .vmem, ⟨5, _⟩ => ⟨S1024x2048, .f32⟩
  | .local _ .vmem, ⟨6, _⟩ => ⟨S1024x2048, .f32⟩
  | .local _ .vmem, ⟨7, _⟩ => ⟨S2048x128, .f32⟩
  | .local _ .vmem, ⟨8, _⟩ => ⟨S2048x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S128x128, .f32⟩
  | .local _ .vmem, ⟨15, _⟩ => ⟨S1024x128, .f32⟩
  | .local _ .vmem, ⟨16, _⟩ => ⟨S1024x128, .f32⟩
  | .local _ .vmem, ⟨17, _⟩ => ⟨S1024x2048, .f32⟩
  | .local _ .vmem, ⟨18, _⟩ => ⟨S1024x2048, .f32⟩
  | .local _ .vmem, ⟨19, _⟩ => ⟨S2048x128, .f32⟩
  | .local _ .vmem, ⟨20, _⟩ => ⟨S2048x128, .f32⟩
  | .local _ .vmem, ⟨21, _⟩ => ⟨S64x64, .f32⟩
  | .local _ .vmem, ⟨22, _⟩ => ⟨S1x64, .f32⟩
  | .local _ .vmem, ⟨23, _⟩ => ⟨S1024x64, .f32⟩
  | .local _ .vmem, ⟨24, _⟩ => ⟨S1024x64, .f32⟩
  | .local _ .vmem, ⟨25, _⟩ => ⟨S1024x64, .f32⟩
  | .local _ .vmem, ⟨26, _⟩ => ⟨S1024x64, .f32⟩
  | .local _ .vmem, ⟨27, _⟩ => ⟨S1024x128, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg4_1 : Ref sig .tc := ⟨.vmem, 24, rfl⟩
abbrev cc3_stg5_0 : Ref sig .tc := ⟨.vmem, 25, rfl⟩
abbrev cc3_stg5_1 : Ref sig .tc := ⟨.vmem, 26, rfl⟩
abbrev cc3_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem3_0 : DmaSem sig := 21
abbrev cc3_sem4_0 : DmaSem sig := 22
abbrev cc3_sem4_1 : DmaSem sig := 23
abbrev cc3_sem5_0 : DmaSem sig := 24
abbrev cc3_sem5_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![16, 8], ![false, false]⟩

def k3_cond2 (i : grid3.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S1024x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S1024x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  concatenates_S128x64_S128x64_S128x128_d1 : Shape.Concatenates [S128x64, S128x64] S128x128 1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S64_S1x64 : S64.ShapeCasts S1x64
  slices_S1024x128_o0_0_S1024x64 : S1024x128.Slices ![0, 0] S1024x64
  slices_S1024x128_o0_64_S1024x64 : S1024x128.Slices ![0, 64] S1024x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  dot_S1024x256_S256x128_S1024x128_1_0_0_1_n_n_wf : DotDims.WF S1024x256 S256x128 S1024x128 [1] [0] [0] [1] [] []
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  dot_S1024x64_S64x64_S1024x64_1_0_0_1_n_n_wf : DotDims.WF S1024x64 S64x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .f32 = 32 ∨ (Rect.block (s := S16384x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S16384x128.size a
  hwx0_2 : ∀ i : grid0.Coords, EltTy.bits .f32 = 32 ∨ (Rect.block (s := S16384x128) S1024x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S16384x128.size a
  hwx1_1 : ∀ i : grid1.Coords, EltTy.bits .f32 = 32 ∨ (Rect.block (s := S16384x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S16384x128.size a
  hwx1_2 : ∀ i : grid1.Coords, EltTy.bits .f32 = 32 ∨ (Rect.block (s := S16384x128) S1024x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S16384x128.size a
  hwx2_0 : ∀ i : grid2.Coords, EltTy.bits .f32 = 32 ∨ (Rect.block (s := S16384x128) S1024x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S16384x128.size a
  hwx2_2 : ∀ i : grid2.Coords, EltTy.bits .f32 = 32 ∨ (Rect.block (s := S16384x128) S1024x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S16384x16384.size a
  hwx3_0 : ∀ i : grid3.Coords, EltTy.bits .f32 = 32 ∨ (Rect.block (s := S16384x16384) S1024x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S16384x128.size a
  hwx3_1 : ∀ i : grid3.Coords, EltTy.bits .f32 = 32 ∨ (Rect.block (s := S16384x128) S2048x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x64.size a ≤ S16384x64.size a
  hwx3_4 : ∀ i : grid3.Coords, EltTy.bits .f32 = 32 ∨ (Rect.block (s := S16384x64) S1024x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x64.size a ≤ S16384x64.size a
  hwx3_5 : ∀ i : grid3.Coords, EltTy.bits .f32 = 32 ∨ (Rect.block (s := S16384x64) S1024x64.size (cc3_transform_5 i) (hinb3_5 i)).WholeWords (EltTy.packing .f32)

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v1) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg1) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v4) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg7) S1024x64.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v5) S1024x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

class Facts : Prop extends Facts₀ where

variable [Facts]
-- ==== ReferenceIdeal.lean ====
abbrev S16384x256 : Shape := ⟨2, ![16384, 256]⟩
abbrev S16384x16384 : Shape := ⟨2, ![16384, 16384]⟩
abbrev S256x128 : Shape := ⟨2, ![256, 128]⟩
abbrev S128x64 : Shape := ⟨2, ![128, 64]⟩
abbrev S64x64 : Shape := ⟨2, ![64, 64]⟩
abbrev S64 : Shape := ⟨1, ![64]⟩
abbrev S16384x64 : Shape := ⟨2, ![16384, 64]⟩
abbrev S16384x128 : Shape := ⟨2, ![16384, 128]⟩
abbrev S_ : Shape := ⟨0, ![]⟩
abbrev S1x64 : Shape := ⟨2, ![1, 64]⟩

abbrev nBuf : Space → Nat
  | .hbm => 27
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x16384, .f32⟩
  | .hbm, ⟨2, _⟩ => ⟨S256x128, .f32⟩
  | .hbm, ⟨3, _⟩ => ⟨S128x64, .f32⟩
  | .hbm, ⟨4, _⟩ => ⟨S128x64, .f32⟩
  | .hbm, ⟨5, _⟩ => ⟨S64x64, .f32⟩
  | .hbm, ⟨6, _⟩ => ⟨S64, .f32⟩
  | .hbm, ⟨7, _⟩ => ⟨S16384x64, .f32⟩
  | .hbm, ⟨8, _⟩ => ⟨S16384x128, .f32⟩
  | .hbm, ⟨9, _⟩ => ⟨S16384x128, .f32⟩
  | .hbm, ⟨10, _⟩ => ⟨S_, .f32⟩
  | .hbm, ⟨11, _⟩ => ⟨S16384x128, .f32⟩
  | .hbm, ⟨12, _⟩ => ⟨S16384x128, .f32⟩
  | .hbm, ⟨13, _⟩ => ⟨S16384x64, .f32⟩
  | .hbm, ⟨14, _⟩ => ⟨S16384x64, .f32⟩
  | .hbm, ⟨15, _⟩ => ⟨S16384x64, .f32⟩
  | .hbm, ⟨16, _⟩ => ⟨S1x64, .f32⟩
  | .hbm, ⟨17, _⟩ => ⟨S16384x64, .f32⟩
  | .hbm, ⟨18, _⟩ => ⟨S16384x64, .f32⟩
  | .hbm, ⟨19, _⟩ => ⟨S16384x64, .f32⟩
  | .hbm, ⟨20, _⟩ => ⟨S16384x64, .f32⟩
  | .hbm, ⟨21, _⟩ => ⟨S_, .f32⟩
  | .hbm, ⟨22, _⟩ => ⟨S16384x64, .f32⟩
  | .hbm, ⟨23, _⟩ => ⟨S16384x64, .f32⟩
  | .hbm, ⟨24, _⟩ => ⟨S16384x64, .f32⟩
  | .hbm, ⟨25, _⟩ => ⟨S16384x64, .f32⟩
  | .hbm, ⟨26, _⟩ => ⟨S16384x64, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_cst : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S16384x128 : S_.BroadcastsInDim S16384x128 (![] : Fin 0 → Fin S16384x128.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  dot_S16384x256_S256x128_S16384x128_1_0_0_1_n_n_wf : DotDims.WF S16384x256 S256x128 S16384x128 [1] [0] [0] [1] [] []
  dot_S16384x16384_S16384x128_S16384x128_1_0_0_1_n_n_wf : DotDims.WF S16384x16384 S16384x128 S16384x128 [1] [0] [0] [1] [] []
  dot_S16384x128_S128x64_S16384x64_1_0_0_1_n_n_wf : DotDims.WF S16384x128 S128x64 S16384x64 [1] [0] [0] [1] [] []
  dot_S16384x16384_S16384x64_S16384x64_1_0_0_1_n_n_wf : DotDims.WF S16384x16384 S16384x64 S16384x64 [1] [0] [0] [1] [] []
  dot_S16384x64_S64x64_S16384x64_1_0_0_1_n_n_wf : DotDims.WF S16384x64 S64x64 S16384x64 [1] [0] [0] [1] [] []

variable [Facts₀]

def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf

class Facts : Prop extends Facts₀ where

variable [Facts]
-- ==== Proof.R0.lean ====
/-
  The first pallas_call: a row block of 1024 rows of the left operand times the whole right operand,
  one block per grid point, no accumulation.  For any contents `V` of the core's buffers when the call
  is entered: what each window's staging buffer holds at each grid point, the body's triple, the
  proof data of the pipeline and its body obligation.  Valid at every float instance.
-/
import proofs.«178931_j89567247991228_1_alg».proof.Proof.Gen.KernelIdeal.Launch
import proofs.«178931_j89567247991228_1_alg».proof.Proof.Gen.KernelIdeal.Skeleton
import proofs.«178931_j89567247991228_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off the array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the left operand is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand, fetched once, is in its staging buffer at every point: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_a : Rect S1024x256 := Rect.unit (s := S1024x256) ![0, 0] S1024x256.size inb_S1024x256_S1024x256_0_0
abbrev r0_b : Rect S256x128 := Rect.unit (s := S256x128) ![0, 0] S256x128.size inb_S256x128_S256x128_0_0
abbrev r0_o : Rect S1024x128 := Rect.unit (s := S1024x128) ![0, 0] S1024x128.size inb_S1024x128_S1024x128_0_0

/-- The output block after the body: the product of the two loaded blocks, stored whole. -/
def out0_2 (x0 : Vec F S1024x256 .f32) (x1 : Vec F S256x128 .f32) : Vec F S1024x128 .f32 :=
  View.canon [⟨r0_o, k0_pay1 (View.ld x0 r0_a) (View.ld x1 r0_b)⟩]

/-- The one store covers the output block. -/
theorem cover0_2 (p0 : Vec F S1024x128 .f32) (y : S1024x128.Idx) :
    ∃ pc ∈ ([⟨r0_o, p0⟩] : List (View.Piece (Elt F) S1024x128 .f32)), y ∈ pc.1.set :=
  View.cover_of_tiled [⟨r0_o, p0⟩] S1024x128.size (by rfl) y

/-! ## The body's triple -/

set_option maxHeartbeats 1000000 in
/-- On whole staging buffers holding the two input blocks, the body ends with the inputs as they were and the
    output buffer at the product. -/
theorem sound_kernel0 (c : Dev nD) (E : Set ℕ) (i : grid0.Coords)
    (arg1 : Memref sig .tc .vmem S1024x256 .f32) (harg1 : arg1.IsWhole) (arg2 : Memref sig .tc .vmem S256x128 .f32) (harg2 : arg2.IsWhole)
    (arg3 : Memref sig .tc .vmem S1024x128 .f32) (harg3 : arg3.IsWhole)
    (x0 : Vec F S1024x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- Arrays as the call finds them; each input's buffer keeps its block, the output's holds the product of the
    point's blocks; nothing owed, full shares, the invariant the scoped rest and the generator register. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.R1Runs.lean ====
/-
  The second pallas_call: for each of 16 row blocks, eight steps along the contracted axis accumulate
  a 1024×2048 block of the left operand times a 2048×128 block of the right operand into a scratch
  accumulator (reset at step 0), and the last step stores the accumulator's maximum with zero.
  Here: the branch conditions over the grid, where the output window is idle, and the body's run in
  each of the three cases (first step, middle step, last step), the pieces each buffer ends with found
  by the run itself.  Valid at every float instance.
-/
import proofs.«178931_j89567247991228_1_alg».proof.Proof.Gen.KernelIdeal.Launch
import proofs.«178931_j89567247991228_1_alg».proof.Proof.Gen.KernelIdeal.Skeleton
import proofs.«178931_j89567247991228_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The branch conditions -/

/-- "this is step 0 of the contracted axis" -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "this is step 7, the last" -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The staging and scratch memrefs -/

abbrev VO1_2 : View sig .tc .vmem S1024x128 .f32 := (Memref.whole cc1_stg2_0 : Memref sig .tc .vmem S1024x128 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S1024x128 .f32 := Memref.whole cc1_scratch0
abbrev VS1 : View sig .tc .vmem S1024x128 .f32 := scM1.view

/-! ## The body's run, case by case -/

set_option maxHeartbeats 4000000 in
/-- FIRST STEP (reset, then accumulate; no output store): the accumulator, at anything before, ends with the
    pieces the run finds; the output buffer is handed back untouched. -/
noncomputable def kernelRun1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i)
    (x0 : Vec F S1024x2048 .f32) (x1 : Vec F S2048x128 .f32) :
    { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- MIDDLE STEP (accumulate only): the accumulator holds `xs0` before. -/
noncomputable def kernelRun1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i)
    (x0 : Vec F S1024x2048 .f32) (x1 : Vec F S2048x128 .f32) (xs0 : Vec F S1024x128 .f32) :
    { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- LAST STEP (accumulate, then store the maximum with zero into the output block): the accumulator holds
    `xs0` before; the output buffer, at anything before, ends with its pieces. -/
noncomputable def kernelRun1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1024x2048 .f32) (x1 : Vec F S2048x128 .f32) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Frame

end
-- ==== Proof.R1.lean ====
/-
  The second pallas_call, continued: what the accumulator and the output block hold after every grid
  point (a recursion on the point: the first step of each row block starts from zero, every other step
  from what the step before left), the invariant that carries the accumulator between points, the
  proof data of the pipeline and its body obligation.  Valid at every float instance.
-/
import proofs.«178931_j89567247991228_1_alg».proof.Proof.Gen.KernelIdeal.Launch
import proofs.«178931_j89567247991228_1_alg».proof.Proof.Gen.KernelIdeal.Skeleton
import proofs.«178931_j89567247991228_1_alg».proof.Proof.Gen.KernelIdeal.Points
import proofs.«178931_j89567247991228_1_alg».proof.Proof.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves: the pieces cover their buffers -/

theorem scover1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i) (x0 : Vec F S1024x2048 .f32) (x1 : Vec F S2048x128 .f32) (y : S1024x128.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S1024x128.size (by sl_kernel_rfl) y

/-- The accumulator after a first step. -/
def sout1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i) (x0 : Vec F S1024x2048 .f32) (x1 : Vec F S2048x128 .f32) : Vec F S1024x128 .f32 :=
  VS1.read (Elt F) (VS1.writes (Elt F) VS1.junk (kernelRun1_A c i arg2 harg2 arg3 harg3 arg4 harg4 arg5 harg5 hc0 hc1 x0 x1).1)

theorem scover1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i) (x0 : Vec F S1024x2048 .f32) (x1 : Vec F S2048x128 .f32) (xs0 : Vec F S1024x128 .f32) (y : S1024x128.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S1024x128.size (by sl_kernel_rfl) y

/-- The accumulator after a middle step. -/
def sout1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i) (x0 : Vec F S1024x2048 .f32) (x1 : Vec F S2048x128 .f32) (xs0 : Vec F S1024x128 .f32) : Vec F S1024x128 .f32 :=
  VS1.read (Elt F) (VS1.writes (Elt F) VS1.junk (kernelRun1_B c i arg2 harg2 arg3 harg3 arg4 harg4 arg5 harg5 hc0 hc1 x0 x1 xs0).1)

theorem cover1_C_2 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i) (x0 : Vec F S1024x2048 .f32) (x1 : Vec F S2048x128 .f32) (xs0 : Vec F S1024x128 .f32) (y : S1024x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x128.size (by sl_kernel_rfl) y

/-- The output block after a last step. -/
def out1_C_2 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i) (x0 : Vec F S1024x2048 .f32) (x1 : Vec F S2048x128 .f32) (xs0 : Vec F S1024x128 .f32) : Vec F S1024x128 .f32 :=
  VO1_2.read (Elt F) (VO1_2.writes (Elt F) VO1_2.junk (kernelRun1_C c i arg2 harg2 arg3 harg3 arg4 harg4 arg5 harg5 hc0 hc1 x0 x1 xs0).1)

theorem scover1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i) (x0 : Vec F S1024x2048 .f32) (x1 : Vec F S2048x128 .f32) (xs0 : Vec F S1024x128 .f32) (y : S1024x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x128.size (by sl_kernel_rfl) y

/-- The accumulator after a last step. -/
def sout1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i) (x0 : Vec F S1024x2048 .f32) (x1 : Vec F S2048x128 .f32) (xs0 : Vec F S1024x128 .f32) : Vec F S1024x128 .f32 :=
  VS1.read (Elt F) (VS1.writes (Elt F) VS1.junk (kernelRun1_C c i arg2 harg2 arg3 harg3 arg4 harg4 arg5 harg5 hc0 hc1 x0 x1 xs0).2.1)

/-- A placeholder for the output buffer at the steps that store nothing into it: nothing consults it. -/
def idleOut1 : Vec F S1024x128 .f32 := VO1_2.read (Elt F) VO1_2.junk

/-! ## What the buffers hold after each point -/

/-- (output block, accumulator) after the body at position `n`. -/
def outsAt1 (c : Dev nD) : (n : ℕ) → n < cfg1.N → Vec F S1024x128 .f32 × Vec F S1024x128 .f32
  | 0, hn => (idleOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (idleOut1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (idleOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (idleOut1, sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (idleOut1, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- The core's other scoped buffers (the staging buffers and scratch of the other calls), each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc3_stg5_0), ((c : Thread nD τ).loc cc3_stg5_0) ↦{fullShare} f) ∗ (∃ f : Buf (Elt F) ((c : Thread nD τ).loc cc3_stg5_1), ((c : Thread nD τ).loc cc3_stg5_1) ↦{fullShare} f) ∗ (∃ f : Buf (Elt F) ((c : Thread nD τ).loc cc3_scratch0), ((c : Thread nD τ).loc cc3_scratch0) ↦{fullShare} f))

/-- The scoped buffers no window of this call stages: the accumulator and the others. -/
theorem scopedRest1_out (c : Dev nD) :
    (Pipeline.scopedRest (Ix := Unit) (Name := ℕ) (U := UR sig nD τ) (Lvl := ℕ) (Val := Elt F) spec1 c : sProp 𝕄)
      ⊢ iprop((∃ d, owns (c : Thread nD τ) scM1 fullShare d) ∗ rest1 c) := by
  rw [scopedRest1_eq]; unfold rest1; simp only [scM1, owns_whole]
  iintro ⟨H1, H2, H3, H4, H5, H6, H7, H8, H9, H10, H11, H12, H13, H14, H15, H16, H17, H18, H19, H20, H21, H22⟩
  iframe

theorem scopedRest1_in (c : Dev nD) :
    iprop((∃ d, owns (c : Thread nD τ) scM1 fullShare d) ∗ rest1 c)
      ⊢ (Pipeline.scopedRest (Ix := Unit) (Name := ℕ) (U := UR sig nD τ) (Lvl := ℕ) (Val := Elt F) spec1 c : sProp 𝕄) := by
  rw [scopedRest1_eq]; unfold rest1; simp only [scM1, owns_whole]
  iintro ⟨H6, H1, H2, H3, H4, H5, H7, H8, H9, H10, H11, H12, H13, H14, H15, H16, H17, H18, H19, H20, H21, H22⟩
  iframe

/-- Before the first point the class's invariant; afterwards the accumulator at what the point before left, the
    other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 c) ∗ (∃ r, prngReg c r)) := by
  cases n with
  | zero => exact absurd rfl hz
  | succ n => rfl

theorem PhiA1_out (c : Dev nD) :
    (Pipeline.ΦA spec1 c : sProp 𝕄) ⊢ iprop(iprop((∃ d, owns (c : Thread nD τ) scM1 fullShare d) ∗ rest1 c) ∗ (∃ r, prngReg c r)) := by
  unfold Pipeline.ΦA
  iintro ⟨Hs, Hg⟩
  isplitl [Hs]
  · iapply (scopedRest1_out c); iexact Hs
  iexact Hg

theorem PhiA1_in (c : Dev nD) :
    iprop(iprop((∃ d, owns (c : Thread nD τ) scM1 fullShare d) ∗ rest1 c) ∗ (∃ r, prngReg c r)) ⊢ (Pipeline.ΦA spec1 c : sProp 𝕄) := by
  unfold Pipeline.ΦA
  iintro ⟨Hs, Hg⟩
  isplitl [Hs]
  · iapply (scopedRest1_in c); iexact Hs
  iexact Hg

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS1_castSucc V c t, PhiS1_zero V c _ _ hz]
      iintro ⟨HΦ, Ho, ⟨%d0, H0⟩, ⟨%d1, H1⟩, ⟨%d2, H2⟩⟩
      ihave HΦ' := (PhiA1_out c) $$ HΦ
      icases HΦ' with ⟨⟨HS0, Hrest⟩, Hg⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A c _ _ _ _ _ _ _ _ _ _ _ _ _)
          iexact Hrest
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := by intro h; rw [h] at h0; exact h0 (Nat.zero_mod _)
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_C c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B c _ _ _ _ _ _ _ _ _ _ _ _ _ _)
          iexact Hrest
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-! ## The invariant at the two ends -/

theorem hin1 (c : Dev nD) : Pipeline.ΦA spec1 c ⊢ (dat1 V c).Φ 0 := by
  rw [show (dat1 V c).Φ 0 = PhiS1 V c 0 (Nat.zero_le _) from rfl, PhiS1_zero V c 0 _ rfl]

theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl, PhiS1_pos V c _ _ hne]
  iintro ⟨⟨HS0, Hrest⟩, Hg⟩
  iapply (PhiA1_in c)
  isplitl [HS0 Hrest]
  · isplitl [HS0]; · iexists _; iexact HS0
    iexact Hrest
  iexact Hg

end Cert.KernelIdeal.Frame

end
-- ==== Proof.R2.lean ====
/-
  The third pallas_call: a row block of 1024 rows of the left operand times the whole right operand,
  one block per grid point, no accumulation.  For any contents `V` of the core's buffers when the call
  is entered: what each window's staging buffer holds at each grid point, the body's triple, the
  proof data of the pipeline and its body obligation.  Valid at every float instance.
-/
import proofs.«178931_j89567247991228_1_alg».proof.Proof.Gen.KernelIdeal.Launch
import proofs.«178931_j89567247991228_1_alg».proof.Proof.Gen.KernelIdeal.Skeleton
import proofs.«178931_j89567247991228_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off the array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block of the left operand is in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right operand, fetched once, is in its staging buffer at every point: its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_a : Rect S1024x128 := Rect.unit (s := S1024x128) ![0, 0] S1024x128.size inb_S1024x128_S1024x128_0_0
abbrev r2_b : Rect S128x128 := Rect.unit (s := S128x128) ![0, 0] S128x128.size inb_S128x128_S128x128_0_0
abbrev r2_o : Rect S1024x128 := Rect.unit (s := S1024x128) ![0, 0] S1024x128.size inb_S1024x128_S1024x128_0_0

/-- The output block after the body: the product of the two loaded blocks, stored whole. -/
def out2_2 (x0 : Vec F S1024x128 .f32) (x1 : Vec F S128x128 .f32) : Vec F S1024x128 .f32 :=
  View.canon [⟨r2_o, k2_pay1 (View.ld x0 r2_a) (View.ld x1 r2_b)⟩]

/-- The one store covers the output block. -/
theorem cover2_2 (p0 : Vec F S1024x128 .f32) (y : S1024x128.Idx) :
    ∃ pc ∈ ([⟨r2_o, p0⟩] : List (View.Piece (Elt F) S1024x128 .f32)), y ∈ pc.1.set :=
  View.cover_of_tiled [⟨r2_o, p0⟩] S1024x128.size (by rfl) y

/-! ## The body's triple -/

set_option maxHeartbeats 1000000 in
/-- On whole staging buffers holding the two input blocks, the body ends with the inputs as they were and the
    output buffer at the product. -/
theorem sound_kernel2 (c : Dev nD) (E : Set ℕ) (i : grid2.Coords)
    (arg1 : Memref sig .tc .vmem S1024x128 .f32) (harg1 : arg1.IsWhole) (arg2 : Memref sig .tc .vmem S128x128 .f32) (harg2 : arg2.IsWhole)
    (arg3 : Memref sig .tc .vmem S1024x128 .f32) (harg3 : arg3.IsWhole)
    (x0 : Vec F S1024x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- Arrays as the call finds them; each input's buffer keeps its block, the output's holds the product of the
    point's blocks; nothing owed, full shares, the invariant the scoped rest and the generator register. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.R3Runs.lean ====
/-
  The fourth pallas_call: for each of 16 row blocks, eight steps along the contracted axis accumulate
  a 1024×2048 block of the adjacency times a 2048×128 block of the stacked features into a scratch
  accumulator (reset at step 0); the last step splits the accumulator into its left and right 64
  columns, multiplies the left by the projection and adds the bias, clamps the right at ten,
  exponentiates, scales by the noise block, adds, and stores the 1024×64 result block.
  Here: the branch conditions over the grid, where the output window is idle, and the body's run in
  each of the three cases, the pieces each buffer ends with found by the run itself.
  Valid at every float instance.
-/
import proofs.«178931_j89567247991228_1_alg».proof.Proof.Gen.KernelIdeal.Launch
import proofs.«178931_j89567247991228_1_alg».proof.Proof.Gen.KernelIdeal.Skeleton
import proofs.«178931_j89567247991228_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The branch conditions -/

/-- "this is step 0 of the contracted axis" -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)

/-- "this is step 7, the last" -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem idleAt3_5 : ∀ t : Fin cfg3.N, ¬cond3_1 (grid3.coords t) → cfg3.idle 5 (grid3.coords t) = true := by decide +kernel
theorem noFlush3_5 : ∀ t : Fin cfg3.N, ¬cond3_1 (grid3.coords t) → (cfg3.win 5).flush t = false := by decide +kernel
theorem liveAt3_5 : ∀ t : Fin cfg3.N, cond3_1 (grid3.coords t) → cfg3.idle 5 (grid3.coords t) = false := by decide +kernel

/-! ## The staging and scratch memrefs -/

abbrev VO3_5 : View sig .tc .vmem S1024x64 .f32 := (Memref.whole cc3_stg5_0 : Memref sig .tc .vmem S1024x64 .f32).view
abbrev ms3_0 (t : Fin cfg3.N) : Memref sig .tc .vmem S1024x2048 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S64x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x64 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1024x64 .f32 := win3_5.stage (cfg3.slots t 5)
abbrev hs3_5 (t : Fin cfg3.N) : (ms3_5 t).IsWhole := hstage3_5 ((cfg3.slots t 5).cast nbuf3_5)
/-- The accumulator: a whole scoped buffer of the kernel's own. -/
abbrev scM3 : Memref sig .tc .vmem S1024x128 .f32 := Memref.whole cc3_scratch0
abbrev VS3 : View sig .tc .vmem S1024x128 .f32 := scM3.view

/-! ## The body's run, case by case -/

set_option maxHeartbeats 4000000 in
/-- FIRST STEP (reset, then accumulate): only the two block operands and the accumulator are touched. -/
noncomputable def kernelRun3_A (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x128 .f32) (harg8 : arg8.IsWhole) (hc0 : cond3_0 i) (hc1 : ¬cond3_1 i)
    (x0 : Vec F S1024x2048 .f32) (x1 : Vec F S2048x128 .f32) :
    { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg8 fullShare d)
            ∗ (iprop(owns (c : Thread nD τ) arg2 fullShare x0 ∗ owns (c : Thread nD τ) arg3 fullShare x1 ∗ (∃ f, arg8.view.loc (c : Thread nD τ) ↦[arg8.view.set]{fullShare} arg8.view.writes (Elt F) f LS0)) -∗ K ⟨⟩))
          ⊢ wp frame (wpE (defs₀ (F := F)) Variants.none c none) E (cc3_kernel i arg2 harg2 arg3 harg3 arg4 harg4 arg5 harg5 arg6 harg6 arg7 harg7 arg8 harg8) K } := by
  refine ⟨?_, fun E K => ?run⟩
  case run =>
    simp only [cc3_kernel_eq_skeleton]; unfold cc3_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 4000000 in
/-- MIDDLE STEP (accumulate only): the accumulator holds `xs0` before. -/
noncomputable def kernelRun3_B (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x128 .f32) (harg8 : arg8.IsWhole) (hc0 : ¬cond3_0 i) (hc1 : ¬cond3_1 i)
    (x0 : Vec F S1024x2048 .f32) (x1 : Vec F S2048x128 .f32) (xs0 : Vec F S1024x128 .f32) :
    { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg8 fullShare xs0
            ∗ (iprop(owns (c : Thread nD τ) arg2 fullShare x0 ∗ owns (c : Thread nD τ) arg3 fullShare x1 ∗ (∃ f, arg8.view.loc (c : Thread nD τ) ↦[arg8.view.set]{fullShare} arg8.view.writes (Elt F) f LS0)) -∗ K ⟨⟩))
          ⊢ wp frame (wpE (defs₀ (F := F)) Variants.none c none) E (cc3_kernel i arg2 harg2 arg3 harg3 arg4 harg4 arg5 harg5 arg6 harg6 arg7 harg7 arg8 harg8) K } := by
  refine ⟨?_, fun E K => ?run⟩
  case run =>
    simp only [cc3_kernel_eq_skeleton]; unfold cc3_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 8000000 in
/-- LAST STEP (accumulate, then the epilogue into the output block): the accumulator holds `xs0` before; the
    projection, the bias row and the noise block are read; the output buffer, at anything before, ends with its pieces. -/
noncomputable def kernelRun3_C (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x128 .f32) (harg8 : arg8.IsWhole) (hc0 : ¬cond3_0 i) (hc1 : cond3_1 i)
    (x0 : Vec F S1024x2048 .f32) (x1 : Vec F S2048x128 .f32) (x2 : Vec F S64x64 .f32) (x3 : Vec F S1x64 .f32) (x4 : Vec F S1024x64 .f32) (xs0 : Vec F S1024x128 .f32) :
    Σ' (L5 : List (View.Piece (Elt F) S1024x64 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc3_kernel i arg2 harg2 arg3 harg3 arg4 harg4 arg5 harg5 arg6 harg6 arg7 harg7 arg8 harg8) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Frame

end
-- ==== Proof.R3.lean ====
/-
  The fourth pallas_call, continued: what the accumulator and the result block hold after every grid
  point (a recursion on the point: the first step of each row block starts from zero, every other step
  from what the step before left), the invariant that carries the accumulator between points, the
  proof data of the pipeline and its body obligation.  Valid at every float instance.
-/
import proofs.«178931_j89567247991228_1_alg».proof.Proof.Gen.KernelIdeal.Launch
import proofs.«178931_j89567247991228_1_alg».proof.Proof.Gen.KernelIdeal.Skeleton
import proofs.«178931_j89567247991228_1_alg».proof.Proof.Gen.KernelIdeal.Points
import proofs.«178931_j89567247991228_1_alg».proof.Proof.R3Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## What each case leaves: the pieces cover their buffers -/

theorem scover3_A (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x128 .f32) (harg8 : arg8.IsWhole) (hc0 : cond3_0 i) (hc1 : ¬cond3_1 i) (x0 : Vec F S1024x2048 .f32) (x1 : Vec F S2048x128 .f32) (y : S1024x128.Idx) :
    ∃ pc ∈ (kernelRun3_A c i arg2 harg2 arg3 harg3 arg4 harg4 arg5 harg5 arg6 harg6 arg7 harg7 arg8 harg8 hc0 hc1 x0 x1).1, y ∈ pc.1.set :=
  View.cover_of_tiledL (kernelRun3_A c i arg2 harg2 arg3 harg3 arg4 harg4 arg5 harg5 arg6 harg6 arg7 harg7 arg8 harg8 hc0 hc1 x0 x1).1 S1024x128.size (by sl_kernel_rfl) y

/-- The accumulator after a first step. -/
def sout3_A (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x128 .f32) (harg8 : arg8.IsWhole) (hc0 : cond3_0 i) (hc1 : ¬cond3_1 i) (x0 : Vec F S1024x2048 .f32) (x1 : Vec F S2048x128 .f32) : Vec F S1024x128 .f32 :=
  VS3.read (Elt F) (VS3.writes (Elt F) VS3.junk (kernelRun3_A c i arg2 harg2 arg3 harg3 arg4 harg4 arg5 harg5 arg6 harg6 arg7 harg7 arg8 harg8 hc0 hc1 x0 x1).1)

theorem scover3_B (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x128 .f32) (harg8 : arg8.IsWhole) (hc0 : ¬cond3_0 i) (hc1 : ¬cond3_1 i) (x0 : Vec F S1024x2048 .f32) (x1 : Vec F S2048x128 .f32) (xs0 : Vec F S1024x128 .f32) (y : S1024x128.Idx) :
    ∃ pc ∈ (kernelRun3_B c i arg2 harg2 arg3 harg3 arg4 harg4 arg5 harg5 arg6 harg6 arg7 harg7 arg8 harg8 hc0 hc1 x0 x1 xs0).1, y ∈ pc.1.set :=
  View.cover_of_tiledL (kernelRun3_B c i arg2 harg2 arg3 harg3 arg4 harg4 arg5 harg5 arg6 harg6 arg7 harg7 arg8 harg8 hc0 hc1 x0 x1 xs0).1 S1024x128.size (by sl_kernel_rfl) y

/-- The accumulator after a middle step. -/
def sout3_B (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x128 .f32) (harg8 : arg8.IsWhole) (hc0 : ¬cond3_0 i) (hc1 : ¬cond3_1 i) (x0 : Vec F S1024x2048 .f32) (x1 : Vec F S2048x128 .f32) (xs0 : Vec F S1024x128 .f32) : Vec F S1024x128 .f32 :=
  VS3.read (Elt F) (VS3.writes (Elt F) VS3.junk (kernelRun3_B c i arg2 harg2 arg3 harg3 arg4 harg4 arg5 harg5 arg6 harg6 arg7 harg7 arg8 harg8 hc0 hc1 x0 x1 xs0).1)

theorem cover3_C_5 (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x128 .f32) (harg8 : arg8.IsWhole) (hc0 : ¬cond3_0 i) (hc1 : cond3_1 i) (x0 : Vec F S1024x2048 .f32) (x1 : Vec F S2048x128 .f32) (x2 : Vec F S64x64 .f32) (x3 : Vec F S1x64 .f32) (x4 : Vec F S1024x64 .f32) (xs0 : Vec F S1024x128 .f32) (y : S1024x64.Idx) :
    ∃ pc ∈ (kernelRun3_C c i arg2 harg2 arg3 harg3 arg4 harg4 arg5 harg5 arg6 harg6 arg7 harg7 arg8 harg8 hc0 hc1 x0 x1 x2 x3 x4 xs0).1, y ∈ pc.1.set :=
  View.cover_of_tiledL (kernelRun3_C c i arg2 harg2 arg3 harg3 arg4 harg4 arg5 harg5 arg6 harg6 arg7 harg7 arg8 harg8 hc0 hc1 x0 x1 x2 x3 x4 xs0).1 S1024x64.size (by sl_kernel_rfl) y

/-- The result block after a last step. -/
def out3_C_5 (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x128 .f32) (harg8 : arg8.IsWhole) (hc0 : ¬cond3_0 i) (hc1 : cond3_1 i) (x0 : Vec F S1024x2048 .f32) (x1 : Vec F S2048x128 .f32) (x2 : Vec F S64x64 .f32) (x3 : Vec F S1x64 .f32) (x4 : Vec F S1024x64 .f32) (xs0 : Vec F S1024x128 .f32) : Vec F S1024x64 .f32 :=
  VO3_5.read (Elt F) (VO3_5.writes (Elt F) VO3_5.junk (kernelRun3_C c i arg2 harg2 arg3 harg3 arg4 harg4 arg5 harg5 arg6 harg6 arg7 harg7 arg8 harg8 hc0 hc1 x0 x1 x2 x3 x4 xs0).1)

theorem scover3_C (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x128 .f32) (harg8 : arg8.IsWhole) (hc0 : ¬cond3_0 i) (hc1 : cond3_1 i) (x0 : Vec F S1024x2048 .f32) (x1 : Vec F S2048x128 .f32) (x2 : Vec F S64x64 .f32) (x3 : Vec F S1x64 .f32) (x4 : Vec F S1024x64 .f32) (xs0 : Vec F S1024x128 .f32) (y : S1024x128.Idx) :
    ∃ pc ∈ (kernelRun3_C c i arg2 harg2 arg3 harg3 arg4 harg4 arg5 harg5 arg6 harg6 arg7 harg7 arg8 harg8 hc0 hc1 x0 x1 x2 x3 x4 xs0).2.1, y ∈ pc.1.set :=
  View.cover_of_tiledL (kernelRun3_C c i arg2 harg2 arg3 harg3 arg4 harg4 arg5 harg5 arg6 harg6 arg7 harg7 arg8 harg8 hc0 hc1 x0 x1 x2 x3 x4 xs0).2.1 S1024x128.size (by sl_kernel_rfl) y

/-- The accumulator after a last step. -/
def sout3_C (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x128 .f32) (harg8 : arg8.IsWhole) (hc0 : ¬cond3_0 i) (hc1 : cond3_1 i) (x0 : Vec F S1024x2048 .f32) (x1 : Vec F S2048x128 .f32) (x2 : Vec F S64x64 .f32) (x3 : Vec F S1x64 .f32) (x4 : Vec F S1024x64 .f32) (xs0 : Vec F S1024x128 .f32) : Vec F S1024x128 .f32 :=
  VS3.read (Elt F) (VS3.writes (Elt F) VS3.junk (kernelRun3_C c i arg2 harg2 arg3 harg3 arg4 harg4 arg5 harg5 arg6 harg6 arg7 harg7 arg8 harg8 hc0 hc1 x0 x1 x2 x3 x4 xs0).2.1)

/-- A placeholder for the result buffer at the steps that store nothing into it: nothing consults it. -/
def idleOut3 : Vec F S1024x64 .f32 := VO3_5.read (Elt F) VO3_5.junk

/-! ## What the buffers hold after each point -/

/-- (result block, accumulator) after the body at position `n`. -/
def outsAt3 (c : Dev nD) : (n : ℕ) → n < cfg3.N → Vec F S1024x64 .f32 × Vec F S1024x128 .f32
  | 0, hn => (idleOut3, sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h0 : (n + 1) % 8 = 0 then
      if h1 : (n + 1) % 8 = 7 then
        False.elim (by omega)
      else
        (idleOut3, sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 8 = 7 then
        (out3_C_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2,
         sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2)
      else
        (idleOut3, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

theorem outsAt3_A (c : Dev nD) (t : Fin cfg3.N) (h0 : t.val % 8 = 0) (h1 : ¬t.val % 8 = 7) :
    outsAt3 V c t.val t.isLt = (idleOut3, sout3_A c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

theorem outsAt3_B (c : Dev nD) (t : Fin cfg3.N) (h0 : ¬t.val % 8 = 0) (h1 : ¬t.val % 8 = 7) :
    outsAt3 V c t.val t.isLt = (idleOut3, sout3_B c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 8 = 0) (h1 : t.val % 8 = 7) :
    outsAt3 V c t.val t.isLt = (out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2,
      sout3_C c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- The core's other scoped buffers (the staging buffers and scratch of the other calls), each whole at some contents. -/
def rest3 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))

theorem scopedRest3_out (c : Dev nD) :
    (Pipeline.scopedRest (Ix := Unit) (Name := ℕ) (U := UR sig nD τ) (Lvl := ℕ) (Val := Elt F) spec3 c : sProp 𝕄)
      ⊢ iprop((∃ d, owns (c : Thread nD τ) scM3 fullShare d) ∗ rest3 c) := by
  rw [scopedRest3_eq]; unfold rest3; simp only [scM3, owns_whole]
  iintro ⟨H1, H2, H3, H4, H5, H6, H7, H8, H9, H10, H11, H12, H13, H14, H15, H16, H17, H18⟩
  iframe

theorem scopedRest3_in (c : Dev nD) :
    iprop((∃ d, owns (c : Thread nD τ) scM3 fullShare d) ∗ rest3 c)
      ⊢ (Pipeline.scopedRest (Ix := Unit) (Name := ℕ) (U := UR sig nD τ) (Lvl := ℕ) (Val := Elt F) spec3 c : sProp 𝕄) := by
  rw [scopedRest3_eq]; unfold rest3; simp only [scM3, owns_whole]
  iintro ⟨H18, H1, H2, H3, H4, H5, H6, H7, H8, H9, H10, H11, H12, H13, H14, H15, H16, H17⟩
  iframe

def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ rest3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare ((outsAt3 V c n hn).2) ∗ rest3 c) ∗ (∃ r, prngReg c r)) := rfl

theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ rest3 c) ∗ (∃ r, prngReg c r)) := by
  cases n with
  | zero => exact absurd rfl hz
  | succ n => rfl

theorem PhiA3_out (c : Dev nD) :
    (Pipeline.ΦA spec3 c : sProp 𝕄) ⊢ iprop(iprop((∃ d, owns (c : Thread nD τ) scM3 fullShare d) ∗ rest3 c) ∗ (∃ r, prngReg c r)) := by
  unfold Pipeline.ΦA
  iintro ⟨Hs, Hg⟩
  isplitl [Hs]
  · iapply (scopedRest3_out c); iexact Hs
  iexact Hg

theorem PhiA3_in (c : Dev nD) :
    iprop(iprop((∃ d, owns (c : Thread nD τ) scM3 fullShare d) ∗ rest3 c) ∗ (∃ r, prngReg c r)) ⊢ (Pipeline.ΦA spec3 c : sProp 𝕄) := by
  unfold Pipeline.ΦA
  iintro ⟨Hs, Hg⟩
  isplitl [Hs]
  · iapply (scopedRest3_in c); iexact Hs
  iexact Hg

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 8000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  have hN : t.val < 128 := lt_of_lt_of_eq t.isLt (show cfg3.N = 128 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  by_cases h0 : t.val % 8 = 0
  · have h1 : ¬t.val % 8 = 7 := by omega
    rw [Dat.leavesExact_idle (dat3 V c) 5 t (idleAt3_5 t (fun h => h1 ((hcond3_1 t).mp h))) (noFlush3_5 t (fun h => h1 ((hcond3_1 t).mp h)))]
    rw [outsAt3_A V c t h0 h1]
    unfold sout3_A; (try dsimp only)
    by_cases hz : t.val = 0
    · rw [PhiS3_castSucc V c t, PhiS3_zero V c _ _ hz]
      iintro ⟨HΦ, Ho, ⟨%d0, H0⟩, ⟨%d1, H1⟩, ⟨%d2, H2⟩, ⟨%d3, H3⟩, ⟨%d4, H4⟩, ⟨%d5, H5⟩⟩
      ihave HΦ' := (PhiA3_out c) $$ HΦ
      icases HΦ' with ⟨⟨HS0, Hrest⟩, Hg⟩
      iapply ((kernelRun3_A c (grid3.coords t) _ _ _ _ _ _ _ _ _ _ _ _ _ _ ((hcond3_0 t).mpr h0) (fun h => h1 ((hcond3_1 t).mp h)) (iblk3 V c 0 t) (iblk3 V c 1 t)).2 Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_A c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun3_A c (grid3.coords t) _ _ _ _ _ _ _ _ _ _ _ _ _ _ ((hcond3_0 t).mpr h0) (fun h => h1 ((hcond3_1 t).mp h)) (iblk3 V c 0 t) (iblk3 V c 1 t)).2 Set.univ _)
      isplitl [H0]; · iexact H0
      isplitl [H1]; · iexact H1
      isplitl [HS0]; · iexists _; iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_A c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by intro h; rw [h] at h0; exact h0 (Nat.zero_mod _)
    by_cases h1 : t.val % 8 = 7
    · rw [show (dat3 V c).leavesExact 5 t = owns (c : Thread nD τ) (ms3_5 t) fullShare ((dat3 V c).after 5 t) from by
        unfold Dat.leavesExact; rw [liveAt3_5 t ((hcond3_1 t).mpr h1)], after3_5]
      rw [outsAt3_C V c t h0 h1]
      unfold out3_C_5 sout3_C; (try dsimp only)
      rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun3_C c (grid3.coords t) _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_C c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover3_C_5 c _ _ _ _ _ _ _ _ _ _ _ _ _ _ _ _ _ _ _ _ _ _ _)
    · rw [Dat.leavesExact_idle (dat3 V c) 5 t (idleAt3_5 t (fun h => h1 ((hcond3_1 t).mp h))) (noFlush3_5 t (fun h => h1 ((hcond3_1 t).mp h)))]
      rw [outsAt3_B V c t h0 h1]
      unfold sout3_B; (try dsimp only)
      rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun3_B c (grid3.coords t) _ _ _ _ _ _ _ _ _ _ _ _ _ _ (fun h => h0 ((hcond3_0 t).mp h)) (fun h => h1 ((hcond3_1 t).mp h)) (iblk3 V c 0 t) (iblk3 V c 1 t) _).2 Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_B c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation3 (c : Dev nD) : BodyObligation (dat3 (F := F) V c) (defs₀ (F := F)) Variants.none () Set.univ := fun t => by
  rw [bigSep_W3, bigSep_W3]
  exact sound_body3 V c t

/-! ## The invariant at the two ends -/

theorem hin3 (c : Dev nD) : Pipeline.ΦA spec3 c ⊢ (dat3 V c).Φ 0 := by
  rw [show (dat3 V c).Φ 0 = PhiS3 V c 0 (Nat.zero_le _) from rfl, PhiS3_zero V c 0 _ rfl]

theorem hout3 (c : Dev nD) : (dat3 V c).Φ (Fin.last cfg3.N) ⊢ Pipeline.ΦA spec3 c := by
  have hne : (Fin.last cfg3.N).val ≠ 0 := by rw [Fin.val_last]; have : cfg3.N = 128 := N_3; omega
  rw [show (dat3 V c).Φ (Fin.last cfg3.N) = PhiS3 V c (Fin.last cfg3.N).val (Nat.le_of_lt_succ (Fin.last cfg3.N).isLt) from rfl, PhiS3_pos V c _ _ hne]
  iintro ⟨⟨HS0, Hrest⟩, Hg⟩
  iapply (PhiA3_in c)
  isplitl [HS0 Hrest]
  · isplitl [HS0]; · iexists _; iexact HS0
    iexact Hrest
  iexact Hg

end Cert.KernelIdeal.Frame

end
-- ==== Proof.Run.lean ====
/-
  The whole program's run: four pallas_calls with two host lines between them (the two branch weights
  set side by side; the bias reshaped to a row).  The contents of the core's buffers at each of the
  seven boundaries as a fold from the launch memory — a call replaces its arrays by what its write-backs
  leave, a host line adds its result —, every call's proof data at its entry contents, each call and
  each host line as a segment, and the run: every weakly fair execution terminates with every unscoped
  buffer at the last boundary's contents.  Valid at every float instance.
-/
import proofs.«178931_j89567247991228_1_alg».proof.Proof.Gen.KernelIdeal.Launch
import proofs.«178931_j89567247991228_1_alg».proof.Proof.Gen.KernelIdeal.Skeleton
import proofs.«178931_j89567247991228_1_alg».proof.Proof.Gen.KernelIdeal.Points
import proofs.«178931_j89567247991228_1_alg».proof.Proof.Gen.KernelIdeal.Regions
import proofs.«178931_j89567247991228_1_alg».proof.Proof.R0
import proofs.«178931_j89567247991228_1_alg».proof.Proof.R1
import proofs.«178931_j89567247991228_1_alg».proof.Proof.R2
import proofs.«178931_j89567247991228_1_alg».proof.Proof.R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
abbrev V0r : (c : Dev nD) → (b : Ref sig .tc) → Buf (Elt F) ((c : Thread nD τ).loc b) := fun c b => W0 m ρ c b

/-- After call 0: its arrays at what the write-backs leave, every other buffer as entered. -/
def W1 (c : Dev nD) : Valuation τ sig (Elt F) :=
  Pipeline.withArrays spec0 c (W0 m ρ c) fun w => (dat0 (V0r m ρ) c).arrAt w cfg0.N
theorem W1_arr (c : Dev nD) (w : Fin cfg0.W) :
    W1 m ρ c (Proc.devRef .tc (Pipeline.arrRef spec0 w)) = (dat0 (V0r m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- An input array of call 0 leaves it as it entered. -/
theorem W1_in (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans (((dat0 (V0r m ρ) c).arrAt_in w hw _).trans (A_eq0 (V0r m ρ) c w))
abbrev V1r : (c : Dev nD) → (b : Ref sig .tc) → Buf (Elt F) ((c : Thread nD τ).loc b) := fun c b => W1 m ρ c b
theorem hF0 (c : Dev nD) (w : Fin cfg0.W) : (dat0 (V0r m ρ) c).arrAt w cfg0.N = V1r m ρ c (Pipeline.arrRef spec0 w) :=
  (W1_arr m ρ c w).symm
theorem hrest0 (c : Dev nD) : ∀ b, b ∉ Finset.univ.image (Pipeline.arrRef spec0) → V1r m ρ c b = V0r m ρ c b :=
  fun b hb => W1_of_ne m ρ c b fun w e => hb (Finset.mem_image.mpr ⟨w, Finset.mem_univ _, e⟩)

/-- After call 1: its arrays at what the write-backs leave, every other buffer as entered. -/
def W2 (c : Dev nD) : Valuation τ sig (Elt F) :=
  Pipeline.withArrays spec1 c (W1 m ρ c) fun w => (dat1 (V1r m ρ) c).arrAt w cfg1.N
theorem W2_arr (c : Dev nD) (w : Fin cfg1.W) :
    W2 m ρ c (Proc.devRef .tc (Pipeline.arrRef spec1 w)) = (dat1 (V1r m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- An input array of call 1 leaves it as it entered. -/
theorem W2_in (c : Dev nD) (w : Fin cfg1.W) (hw : (cfg1.win w).isOut = false) :
    W2 m ρ c (Proc.devRef .tc (Pipeline.arrRef spec1 w)) = W1 m ρ c (Proc.devRef .tc (Pipeline.arrRef spec1 w)) :=
  (W2_arr m ρ c w).trans (((dat1 (V1r m ρ) c).arrAt_in w hw _).trans (A_eq1 (V1r m ρ) c w))
abbrev V2r : (c : Dev nD) → (b : Ref sig .tc) → Buf (Elt F) ((c : Thread nD τ).loc b) := fun c b => W2 m ρ c b
theorem hF1 (c : Dev nD) (w : Fin cfg1.W) : (dat1 (V1r m ρ) c).arrAt w cfg1.N = V2r m ρ c (Pipeline.arrRef spec1 w) :=
  (W2_arr m ρ c w).symm
theorem hrest1 (c : Dev nD) : ∀ b, b ∉ Finset.univ.image (Pipeline.arrRef spec1) → V2r m ρ c b = V1r m ρ c b :=
  fun b hb => W2_of_ne m ρ c b fun w e => hb (Finset.mem_image.mpr ⟨w, Finset.mem_univ _, e⟩)

/-- After the host line that sets the two branch weights side by side. -/
abbrev W3 : Dev nD → Valuation τ sig (Elt F) := fun c => StableHlo.after hostOps2 (W2 m ρ c)
abbrev V3r : (c : Dev nD) → (b : Ref sig .tc) → Buf (Elt F) ((c : Thread nD τ).loc b) := fun c b => W3 m ρ c b
theorem W3_of (c : Dev nD) (r : Ref sig .tc) (h : r ∉ hostOps2_W) : W3 m ρ c r = W2 m ρ c r :=
  StableHlo.after_of_writes_sub hostOps2 _ hostOps2_writes h

/-- After call 2: its arrays at what the write-backs leave, every other buffer as entered. -/
def W4 (c : Dev nD) : Valuation τ sig (Elt F) :=
  Pipeline.withArrays spec2 c (W3 m ρ c) fun w => (dat2 (V3r m ρ) c).arrAt w cfg2.N
theorem W4_arr (c : Dev nD) (w : Fin cfg2.W) :
    W4 m ρ c (Proc.devRef .tc (Pipeline.arrRef spec2 w)) = (dat2 (V3r m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- An input array of call 2 leaves it as it entered. -/
theorem W4_in (c : Dev nD) (w : Fin cfg2.W) (hw : (cfg2.win w).isOut = false) :
    W4 m ρ c (Proc.devRef .tc (Pipeline.arrRef spec2 w)) = W3 m ρ c (Proc.devRef .tc (Pipeline.arrRef spec2 w)) :=
  (W4_arr m ρ c w).trans (((dat2 (V3r m ρ) c).arrAt_in w hw _).trans (A_eq2 (V3r m ρ) c w))
abbrev V4r : (c : Dev nD) → (b : Ref sig .tc) → Buf (Elt F) ((c : Thread nD τ).loc b) := fun c b => W4 m ρ c b
theorem hF2 (c : Dev nD) (w : Fin cfg2.W) : (dat2 (V3r m ρ) c).arrAt w cfg2.N = V4r m ρ c (Pipeline.arrRef spec2 w) :=
  (W4_arr m ρ c w).symm
theorem hrest2 (c : Dev nD) : ∀ b, b ∉ Finset.univ.image (Pipeline.arrRef spec2) → V4r m ρ c b = V3r m ρ c b :=
  fun b hb => W4_of_ne m ρ c b fun w e => hb (Finset.mem_image.mpr ⟨w, Finset.mem_univ _, e⟩)

/-- After the host line that reshapes the bias to a row. -/
abbrev W5 : Dev nD → Valuation τ sig (Elt F) := fun c => StableHlo.after hostOps3 (W4 m ρ c)
abbrev V5r : (c : Dev nD) → (b : Ref sig .tc) → Buf (Elt F) ((c : Thread nD τ).loc b) := fun c b => W5 m ρ c b
theorem W5_of (c : Dev nD) (r : Ref sig .tc) (h : r ∉ hostOps3_W) : W5 m ρ c r = W4 m ρ c r :=
  StableHlo.after_of_writes_sub hostOps3 _ hostOps3_writes h

/-- After call 3: its arrays at what the write-backs leave, every other buffer as entered. -/
def W6 (c : Dev nD) : Valuation τ sig (Elt F) :=
  Pipeline.withArrays spec3 c (W5 m ρ c) fun w => (dat3 (V5r m ρ) c).arrAt w cfg3.N
theorem W6_arr (c : Dev nD) (w : Fin cfg3.W) :
    W6 m ρ c (Proc.devRef .tc (Pipeline.arrRef spec3 w)) = (dat3 (V5r m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- An input array of call 3 leaves it as it entered. -/
theorem W6_in (c : Dev nD) (w : Fin cfg3.W) (hw : (cfg3.win w).isOut = false) :
    W6 m ρ c (Proc.devRef .tc (Pipeline.arrRef spec3 w)) = W5 m ρ c (Proc.devRef .tc (Pipeline.arrRef spec3 w)) :=
  (W6_arr m ρ c w).trans (((dat3 (V5r m ρ) c).arrAt_in w hw _).trans (A_eq3 (V5r m ρ) c w))
abbrev V6r : (c : Dev nD) → (b : Ref sig .tc) → Buf (Elt F) ((c : Thread nD τ).loc b) := fun c b => W6 m ρ c b
theorem hF3 (c : Dev nD) (w : Fin cfg3.W) : (dat3 (V5r m ρ) c).arrAt w cfg3.N = V6r m ρ c (Pipeline.arrRef spec3 w) :=
  (W6_arr m ρ c w).symm
theorem hrest3 (c : Dev nD) : ∀ b, b ∉ Finset.univ.image (Pipeline.arrRef spec3) → V6r m ρ c b = V5r m ρ c b :=
  fun b hb => W6_of_ne m ρ c b fun w e => hb (Finset.mem_image.mpr ⟨w, Finset.mem_univ _, e⟩)

/-! ## The proof data family and the thread state -/

/-- Every pipeline's proof data, each at its call's entry contents. -/
def pdats : (p : Fin 4) → (c : Dev nD) → Dat τ (Elt F) Unit ℕ (UR sig nD τ) ℕ (Pipeline.pin (pcfgs (F := F)) adm p) c
  | ⟨0, _⟩ => fun c => dat0 (V0r m ρ) c
  | ⟨1, _⟩ => fun c => dat1 (V1r m ρ) c
  | ⟨2, _⟩ => fun c => dat2 (V3r m ρ) c
  | ⟨3, _⟩ => fun c => dat3 (V5r m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The calls as segments -/

set_option backward.isDefEq.respectTransparency.types false in
/-- Call 0 as a segment: entered with every unscoped buffer at `W0`, left with them at `W1`. Its arrays are split
    out of the unscoped buffers and put back at what the write-backs leave; the generator register goes into the
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0r m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0r m ρ c) (V1r m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at `W1`, left with them at `W2`. Its arrays are split
    out of the unscoped buffers and put back at what the write-backs leave; the generator register goes into the
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1r m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1r m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V1r m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1r m ρ c) (V2r m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered with every unscoped buffer at `W3`, left with them at `W4`. Its arrays are split
    out of the unscoped buffers and put back at what the write-backs leave; the generator register goes into the
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3r m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3r m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3r m ρ c) (V4r m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 as a segment: entered with every unscoped buffer at `W5`, left with them at `W6`. Its arrays are split
    out of the unscoped buffers and put back at what the write-backs leave; the generator register goes into the
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5r m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V5r m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m ρ 3 c).Φ (Fin.last _) ⊢ Pipeline.ΦA spec3 c from hout3 (V5r m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5r m ρ c) (V6r m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ),
    .host (hseg hostOps3 hostOps3_sub hostOps3_fresh (W4 m ρ)),
    .region (reg3 m ρ) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    with every unscoped buffer of every core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h => h)

end Cert.KernelIdeal.Frame

end
-- ==== Proof.Args.lean ====
/-
  The eight argument arrays end the run as they were launched: each boundary's contents at an argument
  equal the previous boundary's — a call leaves its input arrays and the arrays it does not stage as it
  found them, a host line writes only its own result.  Valid at every float instance.
-/
import proofs.«178931_j89567247991228_1_alg».proof.Proof.Gen.KernelIdeal.Launch
import proofs.«178931_j89567247991228_1_alg».proof.Proof.Gen.KernelIdeal.Skeleton
import proofs.«178931_j89567247991228_1_alg».proof.Proof.Gen.KernelIdeal.Points
import proofs.«178931_j89567247991228_1_alg».proof.Proof.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Argument 0 reaches the end as launched: no call writes it back and no host line writes it. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_in m ρ c 0 rfl
    _ = m ((c : Thread nD τ).loc main_arg0) := rfl

/-- Argument 1 reaches the end as launched: no call writes it back and no host line writes it. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_in m ρ c 0 rfl
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_in m ρ c 0 rfl
    _ = W0 m ρ c (Proc.devRef .tc main_arg1) := W1_of_ne m ρ c main_arg1 (by decide)
    _ = m ((c : Thread nD τ).loc main_arg1) := rfl

/-- Argument 2 reaches the end as launched: no call writes it back and no host line writes it. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_in m ρ c 1 rfl
    _ = m ((c : Thread nD τ).loc main_arg2) := rfl

/-- Argument 3 reaches the end as launched: no call writes it back and no host line writes it. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

/-- Argument 4 reaches the end as launched: no call writes it back and no host line writes it. -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

/-- Argument 5 reaches the end as launched: no call writes it back and no host line writes it. -/
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_in m ρ c 2 rfl
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl

/-- Argument 6 reaches the end as launched: no call writes it back and no host line writes it. -/
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of_ne m ρ c main_arg6 (by decide)
    _ = m ((c : Thread nD τ).loc main_arg6) := rfl

/-- Argument 7 reaches the end as launched: no call writes it back and no host line writes it. -/
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_in m ρ c 4 rfl
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of_ne m ρ c main_arg7 (by decide)
    _ = m ((c : Thread nD τ).loc main_arg7) := rfl

/-- THE FRAME: every weakly fair execution terminates, nothing faulting, and the eight argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c)⟩) (run m ρ)

end Cert.KernelIdeal.Frame

end
-- ==== Proof.Bits.R0.lean ====
/-
  The first pallas_call: a row block of 1024 rows of the left operand times the whole right operand,
  one block per grid point, no accumulation.  For any contents `V` of the core's buffers when the call
  is entered: what each window's staging buffer holds at each grid point, the body's triple, the
  proof data of the pipeline and its body obligation.  Valid at every float instance.
-/
import proofs.«178931_j89567247991228_1_alg».proof.Proof.Gen.Kernel.Launch
import proofs.«178931_j89567247991228_1_alg».proof.Proof.Gen.Kernel.Skeleton
import proofs.«178931_j89567247991228_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off the array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the left operand is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand, fetched once, is in its staging buffer at every point: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_a : Rect S1024x256 := Rect.unit (s := S1024x256) ![0, 0] S1024x256.size inb_S1024x256_S1024x256_0_0
abbrev r0_b : Rect S256x128 := Rect.unit (s := S256x128) ![0, 0] S256x128.size inb_S256x128_S256x128_0_0
abbrev r0_o : Rect S1024x128 := Rect.unit (s := S1024x128) ![0, 0] S1024x128.size inb_S1024x128_S1024x128_0_0

/-- The output block after the body: the product of the two loaded blocks, stored whole. -/
def out0_2 (x0 : Vec F S1024x256 .f32) (x1 : Vec F S256x128 .f32) : Vec F S1024x128 .f32 :=
  View.canon [⟨r0_o, k0_pay1 (View.ld x0 r0_a) (View.ld x1 r0_b)⟩]

/-- The one store covers the output block. -/
theorem cover0_2 (p0 : Vec F S1024x128 .f32) (y : S1024x128.Idx) :
    ∃ pc ∈ ([⟨r0_o, p0⟩] : List (View.Piece (Elt F) S1024x128 .f32)), y ∈ pc.1.set :=
  View.cover_of_tiled [⟨r0_o, p0⟩] S1024x128.size (by rfl) y

/-! ## The body's triple -/

set_option maxHeartbeats 1000000 in
/-- On whole staging buffers holding the two input blocks, the body ends with the inputs as they were and the
    output buffer at the product. -/
theorem sound_kernel0 (c : Dev nD) (E : Set ℕ) (i : grid0.Coords)
    (arg1 : Memref sig .tc .vmem S1024x256 .f32) (harg1 : arg1.IsWhole) (arg2 : Memref sig .tc .vmem S256x128 .f32) (harg2 : arg2.IsWhole)
    (arg3 : Memref sig .tc .vmem S1024x128 .f32) (harg3 : arg3.IsWhole)
    (x0 : Vec F S1024x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- Arrays as the call finds them; each input's buffer keeps its block, the output's holds the product of the
    point's blocks; nothing owed, full shares, the invariant the scoped rest and the generator register. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.Bits.R1Runs.lean ====
/-
  The second pallas_call: for each of 16 row blocks, eight steps along the contracted axis accumulate
  a 1024×2048 block of the left operand times a 2048×128 block of the right operand into a scratch
  accumulator (reset at step 0), and the last step stores the accumulator's maximum with zero.
  Here: the branch conditions over the grid, where the output window is idle, and the body's run in
  each of the three cases (first step, middle step, last step), the pieces each buffer ends with found
  by the run itself.  Valid at every float instance.
-/
import proofs.«178931_j89567247991228_1_alg».proof.Proof.Gen.Kernel.Launch
import proofs.«178931_j89567247991228_1_alg».proof.Proof.Gen.Kernel.Skeleton
import proofs.«178931_j89567247991228_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The branch conditions -/

/-- "this is step 0 of the contracted axis" -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "this is step 7, the last" -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The staging and scratch memrefs -/

abbrev VO1_2 : View sig .tc .vmem S1024x128 .f32 := (Memref.whole cc1_stg2_0 : Memref sig .tc .vmem S1024x128 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S1024x128 .f32 := Memref.whole cc1_scratch0
abbrev VS1 : View sig .tc .vmem S1024x128 .f32 := scM1.view

/-! ## The body's run, case by case -/

set_option maxHeartbeats 4000000 in
/-- FIRST STEP (reset, then accumulate; no output store): the accumulator, at anything before, ends with the
    pieces the run finds; the output buffer is handed back untouched. -/
noncomputable def kernelRun1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i)
    (x0 : Vec F S1024x2048 .f32) (x1 : Vec F S2048x128 .f32) :
    { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- MIDDLE STEP (accumulate only): the accumulator holds `xs0` before. -/
noncomputable def kernelRun1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i)
    (x0 : Vec F S1024x2048 .f32) (x1 : Vec F S2048x128 .f32) (xs0 : Vec F S1024x128 .f32) :
    { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- LAST STEP (accumulate, then store the maximum with zero into the output block): the accumulator holds
    `xs0` before; the output buffer, at anything before, ends with its pieces. -/
noncomputable def kernelRun1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1024x2048 .f32) (x1 : Vec F S2048x128 .f32) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Frame

end
-- ==== Proof.Bits.R1.lean ====
/-
  The second pallas_call, continued: what the accumulator and the output block hold after every grid
  point (a recursion on the point: the first step of each row block starts from zero, every other step
  from what the step before left), the invariant that carries the accumulator between points, the
  proof data of the pipeline and its body obligation.  Valid at every float instance.
-/
import proofs.«178931_j89567247991228_1_alg».proof.Proof.Gen.Kernel.Launch
import proofs.«178931_j89567247991228_1_alg».proof.Proof.Gen.Kernel.Skeleton
import proofs.«178931_j89567247991228_1_alg».proof.Proof.Gen.Kernel.Points
import proofs.«178931_j89567247991228_1_alg».proof.Proof.Bits.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves: the pieces cover their buffers -/

theorem scover1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i) (x0 : Vec F S1024x2048 .f32) (x1 : Vec F S2048x128 .f32) (y : S1024x128.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S1024x128.size (by sl_kernel_rfl) y

/-- The accumulator after a first step. -/
def sout1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i) (x0 : Vec F S1024x2048 .f32) (x1 : Vec F S2048x128 .f32) : Vec F S1024x128 .f32 :=
  VS1.read (Elt F) (VS1.writes (Elt F) VS1.junk (kernelRun1_A c i arg2 harg2 arg3 harg3 arg4 harg4 arg5 harg5 hc0 hc1 x0 x1).1)

theorem scover1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i) (x0 : Vec F S1024x2048 .f32) (x1 : Vec F S2048x128 .f32) (xs0 : Vec F S1024x128 .f32) (y : S1024x128.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S1024x128.size (by sl_kernel_rfl) y

/-- The accumulator after a middle step. -/
def sout1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i) (x0 : Vec F S1024x2048 .f32) (x1 : Vec F S2048x128 .f32) (xs0 : Vec F S1024x128 .f32) : Vec F S1024x128 .f32 :=
  VS1.read (Elt F) (VS1.writes (Elt F) VS1.junk (kernelRun1_B c i arg2 harg2 arg3 harg3 arg4 harg4 arg5 harg5 hc0 hc1 x0 x1 xs0).1)

theorem cover1_C_2 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i) (x0 : Vec F S1024x2048 .f32) (x1 : Vec F S2048x128 .f32) (xs0 : Vec F S1024x128 .f32) (y : S1024x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x128.size (by sl_kernel_rfl) y

/-- The output block after a last step. -/
def out1_C_2 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i) (x0 : Vec F S1024x2048 .f32) (x1 : Vec F S2048x128 .f32) (xs0 : Vec F S1024x128 .f32) : Vec F S1024x128 .f32 :=
  VO1_2.read (Elt F) (VO1_2.writes (Elt F) VO1_2.junk (kernelRun1_C c i arg2 harg2 arg3 harg3 arg4 harg4 arg5 harg5 hc0 hc1 x0 x1 xs0).1)

theorem scover1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i) (x0 : Vec F S1024x2048 .f32) (x1 : Vec F S2048x128 .f32) (xs0 : Vec F S1024x128 .f32) (y : S1024x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x128.size (by sl_kernel_rfl) y

/-- The accumulator after a last step. -/
def sout1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i) (x0 : Vec F S1024x2048 .f32) (x1 : Vec F S2048x128 .f32) (xs0 : Vec F S1024x128 .f32) : Vec F S1024x128 .f32 :=
  VS1.read (Elt F) (VS1.writes (Elt F) VS1.junk (kernelRun1_C c i arg2 harg2 arg3 harg3 arg4 harg4 arg5 harg5 hc0 hc1 x0 x1 xs0).2.1)

/-- A placeholder for the output buffer at the steps that store nothing into it: nothing consults it. -/
def idleOut1 : Vec F S1024x128 .f32 := VO1_2.read (Elt F) VO1_2.junk

/-! ## What the buffers hold after each point -/

/-- (output block, accumulator) after the body at position `n`. -/
def outsAt1 (c : Dev nD) : (n : ℕ) → n < cfg1.N → Vec F S1024x128 .f32 × Vec F S1024x128 .f32
  | 0, hn => (idleOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (idleOut1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (idleOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (idleOut1, sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (idleOut1, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- The core's other scoped buffers (the staging buffers and scratch of the other calls), each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc3_stg5_0), ((c : Thread nD τ).loc cc3_stg5_0) ↦{fullShare} f) ∗ (∃ f : Buf (Elt F) ((c : Thread nD τ).loc cc3_stg5_1), ((c : Thread nD τ).loc cc3_stg5_1) ↦{fullShare} f) ∗ (∃ f : Buf (Elt F) ((c : Thread nD τ).loc cc3_scratch0), ((c : Thread nD τ).loc cc3_scratch0) ↦{fullShare} f))

/-- The scoped buffers no window of this call stages: the accumulator and the others. -/
theorem scopedRest1_out (c : Dev nD) :
    (Pipeline.scopedRest (Ix := Unit) (Name := ℕ) (U := UR sig nD τ) (Lvl := ℕ) (Val := Elt F) spec1 c : sProp 𝕄)
      ⊢ iprop((∃ d, owns (c : Thread nD τ) scM1 fullShare d) ∗ rest1 c) := by
  rw [scopedRest1_eq]; unfold rest1; simp only [scM1, owns_whole]
  iintro ⟨H1, H2, H3, H4, H5, H6, H7, H8, H9, H10, H11, H12, H13, H14, H15, H16, H17, H18, H19, H20, H21, H22⟩
  iframe

theorem scopedRest1_in (c : Dev nD) :
    iprop((∃ d, owns (c : Thread nD τ) scM1 fullShare d) ∗ rest1 c)
      ⊢ (Pipeline.scopedRest (Ix := Unit) (Name := ℕ) (U := UR sig nD τ) (Lvl := ℕ) (Val := Elt F) spec1 c : sProp 𝕄) := by
  rw [scopedRest1_eq]; unfold rest1; simp only [scM1, owns_whole]
  iintro ⟨H6, H1, H2, H3, H4, H5, H7, H8, H9, H10, H11, H12, H13, H14, H15, H16, H17, H18, H19, H20, H21, H22⟩
  iframe

/-- Before the first point the class's invariant; afterwards the accumulator at what the point before left, the
    other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 c) ∗ (∃ r, prngReg c r)) := by
  cases n with
  | zero => exact absurd rfl hz
  | succ n => rfl

theorem PhiA1_out (c : Dev nD) :
    (Pipeline.ΦA spec1 c : sProp 𝕄) ⊢ iprop(iprop((∃ d, owns (c : Thread nD τ) scM1 fullShare d) ∗ rest1 c) ∗ (∃ r, prngReg c r)) := by
  unfold Pipeline.ΦA
  iintro ⟨Hs, Hg⟩
  isplitl [Hs]
  · iapply (scopedRest1_out c); iexact Hs
  iexact Hg

theorem PhiA1_in (c : Dev nD) :
    iprop(iprop((∃ d, owns (c : Thread nD τ) scM1 fullShare d) ∗ rest1 c) ∗ (∃ r, prngReg c r)) ⊢ (Pipeline.ΦA spec1 c : sProp 𝕄) := by
  unfold Pipeline.ΦA
  iintro ⟨Hs, Hg⟩
  isplitl [Hs]
  · iapply (scopedRest1_in c); iexact Hs
  iexact Hg

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS1_castSucc V c t, PhiS1_zero V c _ _ hz]
      iintro ⟨HΦ, Ho, ⟨%d0, H0⟩, ⟨%d1, H1⟩, ⟨%d2, H2⟩⟩
      ihave HΦ' := (PhiA1_out c) $$ HΦ
      icases HΦ' with ⟨⟨HS0, Hrest⟩, Hg⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A c _ _ _ _ _ _ _ _ _ _ _ _ _)
          iexact Hrest
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := by intro h; rw [h] at h0; exact h0 (Nat.zero_mod _)
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_C c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B c _ _ _ _ _ _ _ _ _ _ _ _ _ _)
          iexact Hrest
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-! ## The invariant at the two ends -/

theorem hin1 (c : Dev nD) : Pipeline.ΦA spec1 c ⊢ (dat1 V c).Φ 0 := by
  rw [show (dat1 V c).Φ 0 = PhiS1 V c 0 (Nat.zero_le _) from rfl, PhiS1_zero V c 0 _ rfl]

theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl, PhiS1_pos V c _ _ hne]
  iintro ⟨⟨HS0, Hrest⟩, Hg⟩
  iapply (PhiA1_in c)
  isplitl [HS0 Hrest]
  · isplitl [HS0]; · iexists _; iexact HS0
    iexact Hrest
  iexact Hg

end Cert.Kernel.Frame

end
-- ==== Proof.Bits.R2.lean ====
/-
  The third pallas_call: a row block of 1024 rows of the left operand times the whole right operand,
  one block per grid point, no accumulation.  For any contents `V` of the core's buffers when the call
  is entered: what each window's staging buffer holds at each grid point, the body's triple, the
  proof data of the pipeline and its body obligation.  Valid at every float instance.
-/
import proofs.«178931_j89567247991228_1_alg».proof.Proof.Gen.Kernel.Launch
import proofs.«178931_j89567247991228_1_alg».proof.Proof.Gen.Kernel.Skeleton
import proofs.«178931_j89567247991228_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off the array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block of the left operand is in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right operand, fetched once, is in its staging buffer at every point: its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_a : Rect S1024x128 := Rect.unit (s := S1024x128) ![0, 0] S1024x128.size inb_S1024x128_S1024x128_0_0
abbrev r2_b : Rect S128x128 := Rect.unit (s := S128x128) ![0, 0] S128x128.size inb_S128x128_S128x128_0_0
abbrev r2_o : Rect S1024x128 := Rect.unit (s := S1024x128) ![0, 0] S1024x128.size inb_S1024x128_S1024x128_0_0

/-- The output block after the body: the product of the two loaded blocks, stored whole. -/
def out2_2 (x0 : Vec F S1024x128 .f32) (x1 : Vec F S128x128 .f32) : Vec F S1024x128 .f32 :=
  View.canon [⟨r2_o, k2_pay1 (View.ld x0 r2_a) (View.ld x1 r2_b)⟩]

/-- The one store covers the output block. -/
theorem cover2_2 (p0 : Vec F S1024x128 .f32) (y : S1024x128.Idx) :
    ∃ pc ∈ ([⟨r2_o, p0⟩] : List (View.Piece (Elt F) S1024x128 .f32)), y ∈ pc.1.set :=
  View.cover_of_tiled [⟨r2_o, p0⟩] S1024x128.size (by rfl) y

/-! ## The body's triple -/

set_option maxHeartbeats 1000000 in
/-- On whole staging buffers holding the two input blocks, the body ends with the inputs as they were and the
    output buffer at the product. -/
theorem sound_kernel2 (c : Dev nD) (E : Set ℕ) (i : grid2.Coords)
    (arg1 : Memref sig .tc .vmem S1024x128 .f32) (harg1 : arg1.IsWhole) (arg2 : Memref sig .tc .vmem S128x128 .f32) (harg2 : arg2.IsWhole)
    (arg3 : Memref sig .tc .vmem S1024x128 .f32) (harg3 : arg3.IsWhole)
    (x0 : Vec F S1024x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- Arrays as the call finds them; each input's buffer keeps its block, the output's holds the product of the
    point's blocks; nothing owed, full shares, the invariant the scoped rest and the generator register. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.Bits.R3Runs.lean ====
/-
  The fourth pallas_call: for each of 16 row blocks, eight steps along the contracted axis accumulate
  a 1024×2048 block of the adjacency times a 2048×128 block of the stacked features into a scratch
  accumulator (reset at step 0); the last step splits the accumulator into its left and right 64
  columns, multiplies the left by the projection and adds the bias, clamps the right at ten,
  exponentiates, scales by the noise block, adds, and stores the 1024×64 result block.
  Here: the branch conditions over the grid, where the output window is idle, and the body's run in
  each of the three cases, the pieces each buffer ends with found by the run itself.
  Valid at every float instance.
-/
import proofs.«178931_j89567247991228_1_alg».proof.Proof.Gen.Kernel.Launch
import proofs.«178931_j89567247991228_1_alg».proof.Proof.Gen.Kernel.Skeleton
import proofs.«178931_j89567247991228_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The branch conditions -/

/-- "this is step 0 of the contracted axis" -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)

/-- "this is step 7, the last" -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem idleAt3_5 : ∀ t : Fin cfg3.N, ¬cond3_1 (grid3.coords t) → cfg3.idle 5 (grid3.coords t) = true := by decide +kernel
theorem noFlush3_5 : ∀ t : Fin cfg3.N, ¬cond3_1 (grid3.coords t) → (cfg3.win 5).flush t = false := by decide +kernel
theorem liveAt3_5 : ∀ t : Fin cfg3.N, cond3_1 (grid3.coords t) → cfg3.idle 5 (grid3.coords t) = false := by decide +kernel

/-! ## The staging and scratch memrefs -/

abbrev VO3_5 : View sig .tc .vmem S1024x64 .f32 := (Memref.whole cc3_stg5_0 : Memref sig .tc .vmem S1024x64 .f32).view
abbrev ms3_0 (t : Fin cfg3.N) : Memref sig .tc .vmem S1024x2048 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S64x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x64 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1024x64 .f32 := win3_5.stage (cfg3.slots t 5)
abbrev hs3_5 (t : Fin cfg3.N) : (ms3_5 t).IsWhole := hstage3_5 ((cfg3.slots t 5).cast nbuf3_5)
/-- The accumulator: a whole scoped buffer of the kernel's own. -/
abbrev scM3 : Memref sig .tc .vmem S1024x128 .f32 := Memref.whole cc3_scratch0
abbrev VS3 : View sig .tc .vmem S1024x128 .f32 := scM3.view

/-! ## The body's run, case by case -/

set_option maxHeartbeats 4000000 in
/-- FIRST STEP (reset, then accumulate): only the two block operands and the accumulator are touched. -/
noncomputable def kernelRun3_A (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x128 .f32) (harg8 : arg8.IsWhole) (hc0 : cond3_0 i) (hc1 : ¬cond3_1 i)
    (x0 : Vec F S1024x2048 .f32) (x1 : Vec F S2048x128 .f32) :
    { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg8 fullShare d)
            ∗ (iprop(owns (c : Thread nD τ) arg2 fullShare x0 ∗ owns (c : Thread nD τ) arg3 fullShare x1 ∗ (∃ f, arg8.view.loc (c : Thread nD τ) ↦[arg8.view.set]{fullShare} arg8.view.writes (Elt F) f LS0)) -∗ K ⟨⟩))
          ⊢ wp frame (wpE (defs₀ (F := F)) Variants.none c none) E (cc3_kernel i arg2 harg2 arg3 harg3 arg4 harg4 arg5 harg5 arg6 harg6 arg7 harg7 arg8 harg8) K } := by
  refine ⟨?_, fun E K => ?run⟩
  case run =>
    simp only [cc3_kernel_eq_skeleton]; unfold cc3_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 4000000 in
/-- MIDDLE STEP (accumulate only): the accumulator holds `xs0` before. -/
noncomputable def kernelRun3_B (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x128 .f32) (harg8 : arg8.IsWhole) (hc0 : ¬cond3_0 i) (hc1 : ¬cond3_1 i)
    (x0 : Vec F S1024x2048 .f32) (x1 : Vec F S2048x128 .f32) (xs0 : Vec F S1024x128 .f32) :
    { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg8 fullShare xs0
            ∗ (iprop(owns (c : Thread nD τ) arg2 fullShare x0 ∗ owns (c : Thread nD τ) arg3 fullShare x1 ∗ (∃ f, arg8.view.loc (c : Thread nD τ) ↦[arg8.view.set]{fullShare} arg8.view.writes (Elt F) f LS0)) -∗ K ⟨⟩))
          ⊢ wp frame (wpE (defs₀ (F := F)) Variants.none c none) E (cc3_kernel i arg2 harg2 arg3 harg3 arg4 harg4 arg5 harg5 arg6 harg6 arg7 harg7 arg8 harg8) K } := by
  refine ⟨?_, fun E K => ?run⟩
  case run =>
    simp only [cc3_kernel_eq_skeleton]; unfold cc3_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 8000000 in
/-- LAST STEP (accumulate, then the epilogue into the output block): the accumulator holds `xs0` before; the
    projection, the bias row and the noise block are read; the output buffer, at anything before, ends with its pieces. -/
noncomputable def kernelRun3_C (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x128 .f32) (harg8 : arg8.IsWhole) (hc0 : ¬cond3_0 i) (hc1 : cond3_1 i)
    (x0 : Vec F S1024x2048 .f32) (x1 : Vec F S2048x128 .f32) (x2 : Vec F S64x64 .f32) (x3 : Vec F S1x64 .f32) (x4 : Vec F S1024x64 .f32) (xs0 : Vec F S1024x128 .f32) :
    Σ' (L5 : List (View.Piece (Elt F) S1024x64 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc3_kernel i arg2 harg2 arg3 harg3 arg4 harg4 arg5 harg5 arg6 harg6 arg7 harg7 arg8 harg8) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Frame

end
-- ==== Proof.Bits.R3.lean ====
/-
  The fourth pallas_call, continued: what the accumulator and the result block hold after every grid
  point (a recursion on the point: the first step of each row block starts from zero, every other step
  from what the step before left), the invariant that carries the accumulator between points, the
  proof data of the pipeline and its body obligation.  Valid at every float instance.
-/
import proofs.«178931_j89567247991228_1_alg».proof.Proof.Gen.Kernel.Launch
import proofs.«178931_j89567247991228_1_alg».proof.Proof.Gen.Kernel.Skeleton
import proofs.«178931_j89567247991228_1_alg».proof.Proof.Gen.Kernel.Points
import proofs.«178931_j89567247991228_1_alg».proof.Proof.Bits.R3Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## What each case leaves: the pieces cover their buffers -/

theorem scover3_A (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x128 .f32) (harg8 : arg8.IsWhole) (hc0 : cond3_0 i) (hc1 : ¬cond3_1 i) (x0 : Vec F S1024x2048 .f32) (x1 : Vec F S2048x128 .f32) (y : S1024x128.Idx) :
    ∃ pc ∈ (kernelRun3_A c i arg2 harg2 arg3 harg3 arg4 harg4 arg5 harg5 arg6 harg6 arg7 harg7 arg8 harg8 hc0 hc1 x0 x1).1, y ∈ pc.1.set :=
  View.cover_of_tiledL (kernelRun3_A c i arg2 harg2 arg3 harg3 arg4 harg4 arg5 harg5 arg6 harg6 arg7 harg7 arg8 harg8 hc0 hc1 x0 x1).1 S1024x128.size (by sl_kernel_rfl) y

/-- The accumulator after a first step. -/
def sout3_A (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x128 .f32) (harg8 : arg8.IsWhole) (hc0 : cond3_0 i) (hc1 : ¬cond3_1 i) (x0 : Vec F S1024x2048 .f32) (x1 : Vec F S2048x128 .f32) : Vec F S1024x128 .f32 :=
  VS3.read (Elt F) (VS3.writes (Elt F) VS3.junk (kernelRun3_A c i arg2 harg2 arg3 harg3 arg4 harg4 arg5 harg5 arg6 harg6 arg7 harg7 arg8 harg8 hc0 hc1 x0 x1).1)

theorem scover3_B (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x128 .f32) (harg8 : arg8.IsWhole) (hc0 : ¬cond3_0 i) (hc1 : ¬cond3_1 i) (x0 : Vec F S1024x2048 .f32) (x1 : Vec F S2048x128 .f32) (xs0 : Vec F S1024x128 .f32) (y : S1024x128.Idx) :
    ∃ pc ∈ (kernelRun3_B c i arg2 harg2 arg3 harg3 arg4 harg4 arg5 harg5 arg6 harg6 arg7 harg7 arg8 harg8 hc0 hc1 x0 x1 xs0).1, y ∈ pc.1.set :=
  View.cover_of_tiledL (kernelRun3_B c i arg2 harg2 arg3 harg3 arg4 harg4 arg5 harg5 arg6 harg6 arg7 harg7 arg8 harg8 hc0 hc1 x0 x1 xs0).1 S1024x128.size (by sl_kernel_rfl) y

/-- The accumulator after a middle step. -/
def sout3_B (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x128 .f32) (harg8 : arg8.IsWhole) (hc0 : ¬cond3_0 i) (hc1 : ¬cond3_1 i) (x0 : Vec F S1024x2048 .f32) (x1 : Vec F S2048x128 .f32) (xs0 : Vec F S1024x128 .f32) : Vec F S1024x128 .f32 :=
  VS3.read (Elt F) (VS3.writes (Elt F) VS3.junk (kernelRun3_B c i arg2 harg2 arg3 harg3 arg4 harg4 arg5 harg5 arg6 harg6 arg7 harg7 arg8 harg8 hc0 hc1 x0 x1 xs0).1)

theorem cover3_C_5 (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x128 .f32) (harg8 : arg8.IsWhole) (hc0 : ¬cond3_0 i) (hc1 : cond3_1 i) (x0 : Vec F S1024x2048 .f32) (x1 : Vec F S2048x128 .f32) (x2 : Vec F S64x64 .f32) (x3 : Vec F S1x64 .f32) (x4 : Vec F S1024x64 .f32) (xs0 : Vec F S1024x128 .f32) (y : S1024x64.Idx) :
    ∃ pc ∈ (kernelRun3_C c i arg2 harg2 arg3 harg3 arg4 harg4 arg5 harg5 arg6 harg6 arg7 harg7 arg8 harg8 hc0 hc1 x0 x1 x2 x3 x4 xs0).1, y ∈ pc.1.set :=
  View.cover_of_tiledL (kernelRun3_C c i arg2 harg2 arg3 harg3 arg4 harg4 arg5 harg5 arg6 harg6 arg7 harg7 arg8 harg8 hc0 hc1 x0 x1 x2 x3 x4 xs0).1 S1024x64.size (by sl_kernel_rfl) y

/-- The result block after a last step. -/
def out3_C_5 (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x128 .f32) (harg8 : arg8.IsWhole) (hc0 : ¬cond3_0 i) (hc1 : cond3_1 i) (x0 : Vec F S1024x2048 .f32) (x1 : Vec F S2048x128 .f32) (x2 : Vec F S64x64 .f32) (x3 : Vec F S1x64 .f32) (x4 : Vec F S1024x64 .f32) (xs0 : Vec F S1024x128 .f32) : Vec F S1024x64 .f32 :=
  VO3_5.read (Elt F) (VO3_5.writes (Elt F) VO3_5.junk (kernelRun3_C c i arg2 harg2 arg3 harg3 arg4 harg4 arg5 harg5 arg6 harg6 arg7 harg7 arg8 harg8 hc0 hc1 x0 x1 x2 x3 x4 xs0).1)

theorem scover3_C (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x128 .f32) (harg8 : arg8.IsWhole) (hc0 : ¬cond3_0 i) (hc1 : cond3_1 i) (x0 : Vec F S1024x2048 .f32) (x1 : Vec F S2048x128 .f32) (x2 : Vec F S64x64 .f32) (x3 : Vec F S1x64 .f32) (x4 : Vec F S1024x64 .f32) (xs0 : Vec F S1024x128 .f32) (y : S1024x128.Idx) :
    ∃ pc ∈ (kernelRun3_C c i arg2 harg2 arg3 harg3 arg4 harg4 arg5 harg5 arg6 harg6 arg7 harg7 arg8 harg8 hc0 hc1 x0 x1 x2 x3 x4 xs0).2.1, y ∈ pc.1.set :=
  View.cover_of_tiledL (kernelRun3_C c i arg2 harg2 arg3 harg3 arg4 harg4 arg5 harg5 arg6 harg6 arg7 harg7 arg8 harg8 hc0 hc1 x0 x1 x2 x3 x4 xs0).2.1 S1024x128.size (by sl_kernel_rfl) y

/-- The accumulator after a last step. -/
def sout3_C (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x128 .f32) (harg8 : arg8.IsWhole) (hc0 : ¬cond3_0 i) (hc1 : cond3_1 i) (x0 : Vec F S1024x2048 .f32) (x1 : Vec F S2048x128 .f32) (x2 : Vec F S64x64 .f32) (x3 : Vec F S1x64 .f32) (x4 : Vec F S1024x64 .f32) (xs0 : Vec F S1024x128 .f32) : Vec F S1024x128 .f32 :=
  VS3.read (Elt F) (VS3.writes (Elt F) VS3.junk (kernelRun3_C c i arg2 harg2 arg3 harg3 arg4 harg4 arg5 harg5 arg6 harg6 arg7 harg7 arg8 harg8 hc0 hc1 x0 x1 x2 x3 x4 xs0).2.1)

/-- A placeholder for the result buffer at the steps that store nothing into it: nothing consults it. -/
def idleOut3 : Vec F S1024x64 .f32 := VO3_5.read (Elt F) VO3_5.junk

/-! ## What the buffers hold after each point -/

/-- (result block, accumulator) after the body at position `n`. -/
def outsAt3 (c : Dev nD) : (n : ℕ) → n < cfg3.N → Vec F S1024x64 .f32 × Vec F S1024x128 .f32
  | 0, hn => (idleOut3, sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h0 : (n + 1) % 8 = 0 then
      if h1 : (n + 1) % 8 = 7 then
        False.elim (by omega)
      else
        (idleOut3, sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 8 = 7 then
        (out3_C_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2,
         sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2)
      else
        (idleOut3, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

theorem outsAt3_A (c : Dev nD) (t : Fin cfg3.N) (h0 : t.val % 8 = 0) (h1 : ¬t.val % 8 = 7) :
    outsAt3 V c t.val t.isLt = (idleOut3, sout3_A c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

theorem outsAt3_B (c : Dev nD) (t : Fin cfg3.N) (h0 : ¬t.val % 8 = 0) (h1 : ¬t.val % 8 = 7) :
    outsAt3 V c t.val t.isLt = (idleOut3, sout3_B c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 8 = 0) (h1 : t.val % 8 = 7) :
    outsAt3 V c t.val t.isLt = (out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2,
      sout3_C c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- The core's other scoped buffers (the staging buffers and scratch of the other calls), each whole at some contents. -/
def rest3 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))

theorem scopedRest3_out (c : Dev nD) :
    (Pipeline.scopedRest (Ix := Unit) (Name := ℕ) (U := UR sig nD τ) (Lvl := ℕ) (Val := Elt F) spec3 c : sProp 𝕄)
      ⊢ iprop((∃ d, owns (c : Thread nD τ) scM3 fullShare d) ∗ rest3 c) := by
  rw [scopedRest3_eq]; unfold rest3; simp only [scM3, owns_whole]
  iintro ⟨H1, H2, H3, H4, H5, H6, H7, H8, H9, H10, H11, H12, H13, H14, H15, H16, H17, H18⟩
  iframe

theorem scopedRest3_in (c : Dev nD) :
    iprop((∃ d, owns (c : Thread nD τ) scM3 fullShare d) ∗ rest3 c)
      ⊢ (Pipeline.scopedRest (Ix := Unit) (Name := ℕ) (U := UR sig nD τ) (Lvl := ℕ) (Val := Elt F) spec3 c : sProp 𝕄) := by
  rw [scopedRest3_eq]; unfold rest3; simp only [scM3, owns_whole]
  iintro ⟨H18, H1, H2, H3, H4, H5, H6, H7, H8, H9, H10, H11, H12, H13, H14, H15, H16, H17⟩
  iframe

def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ rest3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare ((outsAt3 V c n hn).2) ∗ rest3 c) ∗ (∃ r, prngReg c r)) := rfl

theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ rest3 c) ∗ (∃ r, prngReg c r)) := by
  cases n with
  | zero => exact absurd rfl hz
  | succ n => rfl

theorem PhiA3_out (c : Dev nD) :
    (Pipeline.ΦA spec3 c : sProp 𝕄) ⊢ iprop(iprop((∃ d, owns (c : Thread nD τ) scM3 fullShare d) ∗ rest3 c) ∗ (∃ r, prngReg c r)) := by
  unfold Pipeline.ΦA
  iintro ⟨Hs, Hg⟩
  isplitl [Hs]
  · iapply (scopedRest3_out c); iexact Hs
  iexact Hg

theorem PhiA3_in (c : Dev nD) :
    iprop(iprop((∃ d, owns (c : Thread nD τ) scM3 fullShare d) ∗ rest3 c) ∗ (∃ r, prngReg c r)) ⊢ (Pipeline.ΦA spec3 c : sProp 𝕄) := by
  unfold Pipeline.ΦA
  iintro ⟨Hs, Hg⟩
  isplitl [Hs]
  · iapply (scopedRest3_in c); iexact Hs
  iexact Hg

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 8000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  have hN : t.val < 128 := lt_of_lt_of_eq t.isLt (show cfg3.N = 128 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  by_cases h0 : t.val % 8 = 0
  · have h1 : ¬t.val % 8 = 7 := by omega
    rw [Dat.leavesExact_idle (dat3 V c) 5 t (idleAt3_5 t (fun h => h1 ((hcond3_1 t).mp h))) (noFlush3_5 t (fun h => h1 ((hcond3_1 t).mp h)))]
    rw [outsAt3_A V c t h0 h1]
    unfold sout3_A; (try dsimp only)
    by_cases hz : t.val = 0
    · rw [PhiS3_castSucc V c t, PhiS3_zero V c _ _ hz]
      iintro ⟨HΦ, Ho, ⟨%d0, H0⟩, ⟨%d1, H1⟩, ⟨%d2, H2⟩, ⟨%d3, H3⟩, ⟨%d4, H4⟩, ⟨%d5, H5⟩⟩
      ihave HΦ' := (PhiA3_out c) $$ HΦ
      icases HΦ' with ⟨⟨HS0, Hrest⟩, Hg⟩
      iapply ((kernelRun3_A c (grid3.coords t) _ _ _ _ _ _ _ _ _ _ _ _ _ _ ((hcond3_0 t).mpr h0) (fun h => h1 ((hcond3_1 t).mp h)) (iblk3 V c 0 t) (iblk3 V c 1 t)).2 Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_A c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun3_A c (grid3.coords t) _ _ _ _ _ _ _ _ _ _ _ _ _ _ ((hcond3_0 t).mpr h0) (fun h => h1 ((hcond3_1 t).mp h)) (iblk3 V c 0 t) (iblk3 V c 1 t)).2 Set.univ _)
      isplitl [H0]; · iexact H0
      isplitl [H1]; · iexact H1
      isplitl [HS0]; · iexists _; iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_A c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by intro h; rw [h] at h0; exact h0 (Nat.zero_mod _)
    by_cases h1 : t.val % 8 = 7
    · rw [show (dat3 V c).leavesExact 5 t = owns (c : Thread nD τ) (ms3_5 t) fullShare ((dat3 V c).after 5 t) from by
        unfold Dat.leavesExact; rw [liveAt3_5 t ((hcond3_1 t).mpr h1)], after3_5]
      rw [outsAt3_C V c t h0 h1]
      unfold out3_C_5 sout3_C; (try dsimp only)
      rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun3_C c (grid3.coords t) _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_C c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover3_C_5 c _ _ _ _ _ _ _ _ _ _ _ _ _ _ _ _ _ _ _ _ _ _ _)
    · rw [Dat.leavesExact_idle (dat3 V c) 5 t (idleAt3_5 t (fun h => h1 ((hcond3_1 t).mp h))) (noFlush3_5 t (fun h => h1 ((hcond3_1 t).mp h)))]
      rw [outsAt3_B V c t h0 h1]
      unfold sout3_B; (try dsimp only)
      rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun3_B c (grid3.coords t) _ _ _ _ _ _ _ _ _ _ _ _ _ _ (fun h => h0 ((hcond3_0 t).mp h)) (fun h => h1 ((hcond3_1 t).mp h)) (iblk3 V c 0 t) (iblk3 V c 1 t) _).2 Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_B c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation3 (c : Dev nD) : BodyObligation (dat3 (F := F) V c) (defs₀ (F := F)) Variants.none () Set.univ := fun t => by
  rw [bigSep_W3, bigSep_W3]
  exact sound_body3 V c t

/-! ## The invariant at the two ends -/

theorem hin3 (c : Dev nD) : Pipeline.ΦA spec3 c ⊢ (dat3 V c).Φ 0 := by
  rw [show (dat3 V c).Φ 0 = PhiS3 V c 0 (Nat.zero_le _) from rfl, PhiS3_zero V c 0 _ rfl]

theorem hout3 (c : Dev nD) : (dat3 V c).Φ (Fin.last cfg3.N) ⊢ Pipeline.ΦA spec3 c := by
  have hne : (Fin.last cfg3.N).val ≠ 0 := by rw [Fin.val_last]; have : cfg3.N = 128 := N_3; omega
  rw [show (dat3 V c).Φ (Fin.last cfg3.N) = PhiS3 V c (Fin.last cfg3.N).val (Nat.le_of_lt_succ (Fin.last cfg3.N).isLt) from rfl, PhiS3_pos V c _ _ hne]
  iintro ⟨⟨HS0, Hrest⟩, Hg⟩
  iapply (PhiA3_in c)
  isplitl [HS0 Hrest]
  · isplitl [HS0]; · iexists _; iexact HS0
    iexact Hrest
  iexact Hg

end Cert.Kernel.Frame

end
-- ==== Proof.Bits.Run.lean ====
/-
  The whole program's run: four pallas_calls with two host lines between them (the two branch weights
  set side by side; the bias reshaped to a row).  The contents of the core's buffers at each of the
  seven boundaries as a fold from the launch memory — a call replaces its arrays by what its write-backs
  leave, a host line adds its result —, every call's proof data at its entry contents, each call and
  each host line as a segment, and the run: every weakly fair execution terminates with every unscoped
  buffer at the last boundary's contents.  Valid at every float instance.
-/
import proofs.«178931_j89567247991228_1_alg».proof.Proof.Gen.Kernel.Launch
import proofs.«178931_j89567247991228_1_alg».proof.Proof.Gen.Kernel.Skeleton
import proofs.«178931_j89567247991228_1_alg».proof.Proof.Gen.Kernel.Points
import proofs.«178931_j89567247991228_1_alg».proof.Proof.Gen.Kernel.Regions
import proofs.«178931_j89567247991228_1_alg».proof.Proof.Bits.R0
import proofs.«178931_j89567247991228_1_alg».proof.Proof.Bits.R1
import proofs.«178931_j89567247991228_1_alg».proof.Proof.Bits.R2
import proofs.«178931_j89567247991228_1_alg».proof.Proof.Bits.R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
abbrev V0r : (c : Dev nD) → (b : Ref sig .tc) → Buf (Elt F) ((c : Thread nD τ).loc b) := fun c b => W0 m ρ c b

/-- After call 0: its arrays at what the write-backs leave, every other buffer as entered. -/
def W1 (c : Dev nD) : Valuation τ sig (Elt F) :=
  Pipeline.withArrays spec0 c (W0 m ρ c) fun w => (dat0 (V0r m ρ) c).arrAt w cfg0.N
theorem W1_arr (c : Dev nD) (w : Fin cfg0.W) :
    W1 m ρ c (Proc.devRef .tc (Pipeline.arrRef spec0 w)) = (dat0 (V0r m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- An input array of call 0 leaves it as it entered. -/
theorem W1_in (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans (((dat0 (V0r m ρ) c).arrAt_in w hw _).trans (A_eq0 (V0r m ρ) c w))
abbrev V1r : (c : Dev nD) → (b : Ref sig .tc) → Buf (Elt F) ((c : Thread nD τ).loc b) := fun c b => W1 m ρ c b
theorem hF0 (c : Dev nD) (w : Fin cfg0.W) : (dat0 (V0r m ρ) c).arrAt w cfg0.N = V1r m ρ c (Pipeline.arrRef spec0 w) :=
  (W1_arr m ρ c w).symm
theorem hrest0 (c : Dev nD) : ∀ b, b ∉ Finset.univ.image (Pipeline.arrRef spec0) → V1r m ρ c b = V0r m ρ c b :=
  fun b hb => W1_of_ne m ρ c b fun w e => hb (Finset.mem_image.mpr ⟨w, Finset.mem_univ _, e⟩)

/-- After call 1: its arrays at what the write-backs leave, every other buffer as entered. -/
def W2 (c : Dev nD) : Valuation τ sig (Elt F) :=
  Pipeline.withArrays spec1 c (W1 m ρ c) fun w => (dat1 (V1r m ρ) c).arrAt w cfg1.N
theorem W2_arr (c : Dev nD) (w : Fin cfg1.W) :
    W2 m ρ c (Proc.devRef .tc (Pipeline.arrRef spec1 w)) = (dat1 (V1r m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- An input array of call 1 leaves it as it entered. -/
theorem W2_in (c : Dev nD) (w : Fin cfg1.W) (hw : (cfg1.win w).isOut = false) :
    W2 m ρ c (Proc.devRef .tc (Pipeline.arrRef spec1 w)) = W1 m ρ c (Proc.devRef .tc (Pipeline.arrRef spec1 w)) :=
  (W2_arr m ρ c w).trans (((dat1 (V1r m ρ) c).arrAt_in w hw _).trans (A_eq1 (V1r m ρ) c w))
abbrev V2r : (c : Dev nD) → (b : Ref sig .tc) → Buf (Elt F) ((c : Thread nD τ).loc b) := fun c b => W2 m ρ c b
theorem hF1 (c : Dev nD) (w : Fin cfg1.W) : (dat1 (V1r m ρ) c).arrAt w cfg1.N = V2r m ρ c (Pipeline.arrRef spec1 w) :=
  (W2_arr m ρ c w).symm
theorem hrest1 (c : Dev nD) : ∀ b, b ∉ Finset.univ.image (Pipeline.arrRef spec1) → V2r m ρ c b = V1r m ρ c b :=
  fun b hb => W2_of_ne m ρ c b fun w e => hb (Finset.mem_image.mpr ⟨w, Finset.mem_univ _, e⟩)

/-- After the host line that sets the two branch weights side by side. -/
abbrev W3 : Dev nD → Valuation τ sig (Elt F) := fun c => StableHlo.after hostOps2 (W2 m ρ c)
abbrev V3r : (c : Dev nD) → (b : Ref sig .tc) → Buf (Elt F) ((c : Thread nD τ).loc b) := fun c b => W3 m ρ c b
theorem W3_of (c : Dev nD) (r : Ref sig .tc) (h : r ∉ hostOps2_W) : W3 m ρ c r = W2 m ρ c r :=
  StableHlo.after_of_writes_sub hostOps2 _ hostOps2_writes h

/-- After call 2: its arrays at what the write-backs leave, every other buffer as entered. -/
def W4 (c : Dev nD) : Valuation τ sig (Elt F) :=
  Pipeline.withArrays spec2 c (W3 m ρ c) fun w => (dat2 (V3r m ρ) c).arrAt w cfg2.N
theorem W4_arr (c : Dev nD) (w : Fin cfg2.W) :
    W4 m ρ c (Proc.devRef .tc (Pipeline.arrRef spec2 w)) = (dat2 (V3r m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- An input array of call 2 leaves it as it entered. -/
theorem W4_in (c : Dev nD) (w : Fin cfg2.W) (hw : (cfg2.win w).isOut = false) :
    W4 m ρ c (Proc.devRef .tc (Pipeline.arrRef spec2 w)) = W3 m ρ c (Proc.devRef .tc (Pipeline.arrRef spec2 w)) :=
  (W4_arr m ρ c w).trans (((dat2 (V3r m ρ) c).arrAt_in w hw _).trans (A_eq2 (V3r m ρ) c w))
abbrev V4r : (c : Dev nD) → (b : Ref sig .tc) → Buf (Elt F) ((c : Thread nD τ).loc b) := fun c b => W4 m ρ c b
theorem hF2 (c : Dev nD) (w : Fin cfg2.W) : (dat2 (V3r m ρ) c).arrAt w cfg2.N = V4r m ρ c (Pipeline.arrRef spec2 w) :=
  (W4_arr m ρ c w).symm
theorem hrest2 (c : Dev nD) : ∀ b, b ∉ Finset.univ.image (Pipeline.arrRef spec2) → V4r m ρ c b = V3r m ρ c b :=
  fun b hb => W4_of_ne m ρ c b fun w e => hb (Finset.mem_image.mpr ⟨w, Finset.mem_univ _, e⟩)

/-- After the host line that reshapes the bias to a row. -/
abbrev W5 : Dev nD → Valuation τ sig (Elt F) := fun c => StableHlo.after hostOps3 (W4 m ρ c)
abbrev V5r : (c : Dev nD) → (b : Ref sig .tc) → Buf (Elt F) ((c : Thread nD τ).loc b) := fun c b => W5 m ρ c b
theorem W5_of (c : Dev nD) (r : Ref sig .tc) (h : r ∉ hostOps3_W) : W5 m ρ c r = W4 m ρ c r :=
  StableHlo.after_of_writes_sub hostOps3 _ hostOps3_writes h

/-- After call 3: its arrays at what the write-backs leave, every other buffer as entered. -/
def W6 (c : Dev nD) : Valuation τ sig (Elt F) :=
  Pipeline.withArrays spec3 c (W5 m ρ c) fun w => (dat3 (V5r m ρ) c).arrAt w cfg3.N
theorem W6_arr (c : Dev nD) (w : Fin cfg3.W) :
    W6 m ρ c (Proc.devRef .tc (Pipeline.arrRef spec3 w)) = (dat3 (V5r m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- An input array of call 3 leaves it as it entered. -/
theorem W6_in (c : Dev nD) (w : Fin cfg3.W) (hw : (cfg3.win w).isOut = false) :
    W6 m ρ c (Proc.devRef .tc (Pipeline.arrRef spec3 w)) = W5 m ρ c (Proc.devRef .tc (Pipeline.arrRef spec3 w)) :=
  (W6_arr m ρ c w).trans (((dat3 (V5r m ρ) c).arrAt_in w hw _).trans (A_eq3 (V5r m ρ) c w))
abbrev V6r : (c : Dev nD) → (b : Ref sig .tc) → Buf (Elt F) ((c : Thread nD τ).loc b) := fun c b => W6 m ρ c b
theorem hF3 (c : Dev nD) (w : Fin cfg3.W) : (dat3 (V5r m ρ) c).arrAt w cfg3.N = V6r m ρ c (Pipeline.arrRef spec3 w) :=
  (W6_arr m ρ c w).symm
theorem hrest3 (c : Dev nD) : ∀ b, b ∉ Finset.univ.image (Pipeline.arrRef spec3) → V6r m ρ c b = V5r m ρ c b :=
  fun b hb => W6_of_ne m ρ c b fun w e => hb (Finset.mem_image.mpr ⟨w, Finset.mem_univ _, e⟩)

/-! ## The proof data family and the thread state -/

/-- Every pipeline's proof data, each at its call's entry contents. -/
def pdats : (p : Fin 4) → (c : Dev nD) → Dat τ (Elt F) Unit ℕ (UR sig nD τ) ℕ (Pipeline.pin (pcfgs (F := F)) adm p) c
  | ⟨0, _⟩ => fun c => dat0 (V0r m ρ) c
  | ⟨1, _⟩ => fun c => dat1 (V1r m ρ) c
  | ⟨2, _⟩ => fun c => dat2 (V3r m ρ) c
  | ⟨3, _⟩ => fun c => dat3 (V5r m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The calls as segments -/

set_option backward.isDefEq.respectTransparency.types false in
/-- Call 0 as a segment: entered with every unscoped buffer at `W0`, left with them at `W1`. Its arrays are split
    out of the unscoped buffers and put back at what the write-backs leave; the generator register goes into the
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0r m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0r m ρ c) (V1r m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at `W1`, left with them at `W2`. Its arrays are split
    out of the unscoped buffers and put back at what the write-backs leave; the generator register goes into the
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1r m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1r m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V1r m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1r m ρ c) (V2r m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered with every unscoped buffer at `W3`, left with them at `W4`. Its arrays are split
    out of the unscoped buffers and put back at what the write-backs leave; the generator register goes into the
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3r m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3r m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3r m ρ c) (V4r m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 as a segment: entered with every unscoped buffer at `W5`, left with them at `W6`. Its arrays are split
    out of the unscoped buffers and put back at what the write-backs leave; the generator register goes into the
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5r m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V5r m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m ρ 3 c).Φ (Fin.last _) ⊢ Pipeline.ΦA spec3 c from hout3 (V5r m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5r m ρ c) (V6r m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ),
    .host (hseg hostOps3 hostOps3_sub hostOps3_fresh (W4 m ρ)),
    .region (reg3 m ρ) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    with every unscoped buffer of every core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h => h)

end Cert.Kernel.Frame

end
-- ==== Proof.Bits.Args.lean ====
/-
  The eight argument arrays end the run as they were launched: each boundary's contents at an argument
  equal the previous boundary's — a call leaves its input arrays and the arrays it does not stage as it
  found them, a host line writes only its own result.  Valid at every float instance.
-/
import proofs.«178931_j89567247991228_1_alg».proof.Proof.Gen.Kernel.Launch
import proofs.«178931_j89567247991228_1_alg».proof.Proof.Gen.Kernel.Skeleton
import proofs.«178931_j89567247991228_1_alg».proof.Proof.Gen.Kernel.Points
import proofs.«178931_j89567247991228_1_alg».proof.Proof.Bits.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Argument 0 reaches the end as launched: no call writes it back and no host line writes it. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_in m ρ c 0 rfl
    _ = m ((c : Thread nD τ).loc main_arg0) := rfl

/-- Argument 1 reaches the end as launched: no call writes it back and no host line writes it. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_in m ρ c 0 rfl
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_in m ρ c 0 rfl
    _ = W0 m ρ c (Proc.devRef .tc main_arg1) := W1_of_ne m ρ c main_arg1 (by decide)
    _ = m ((c : Thread nD τ).loc main_arg1) := rfl

/-- Argument 2 reaches the end as launched: no call writes it back and no host line writes it. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_in m ρ c 1 rfl
    _ = m ((c : Thread nD τ).loc main_arg2) := rfl

/-- Argument 3 reaches the end as launched: no call writes it back and no host line writes it. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

/-- Argument 4 reaches the end as launched: no call writes it back and no host line writes it. -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

/-- Argument 5 reaches the end as launched: no call writes it back and no host line writes it. -/
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_in m ρ c 2 rfl
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl

/-- Argument 6 reaches the end as launched: no call writes it back and no host line writes it. -/
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of_ne m ρ c main_arg6 (by decide)
    _ = m ((c : Thread nD τ).loc main_arg6) := rfl

/-- Argument 7 reaches the end as launched: no call writes it back and no host line writes it. -/
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_in m ρ c 4 rfl
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of_ne m ρ c main_arg7 (by decide)
    _ = m ((c : Thread nD τ).loc main_arg7) := rfl

/-- THE FRAME: every weakly fair execution terminates, nothing faulting, and the eight argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c)⟩) (run m ρ)

end Cert.Kernel.Frame

end
-- ==== Proof.Spec.lean ====
/-
  The encoder's value over the extended reals, as functions of whole arrays read index by index.
  A matrix product is the plain sum over the contracted axis; the two branch weights sit side by side
  in one 128-column matrix; the result is  noise · exp(min(L, 10)) + (Z · Wp + bp)  where Z and L are
  the left and right 64 columns of  adj · (relu(adj · (X · W1)) · [Wm | Ws]).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- An array of extended reals with `a` rows and `b` columns. -/
abbrev Mat (a b : Nat) : Type := (⟨2, ![a, b]⟩ : Shape).Idx → EReal

/-- The matrix product: entry (r, c) is the sum over k of A(r, k) · B(k, c). -/
def mm {M K N : Nat} (A : Mat M K) (B : Mat K N) : Mat M N :=
  fun i => ∑ k : Fin K, A (ix2 (i 0) k) * B (ix2 k (i 1))

/-- The word of the float zero and of the float ten. -/
abbrev zeroW : EReal := Ideal.ofBits .f32 0x00000000#32
abbrev tenW : EReal := Ideal.ofBits .f32 0x41200000#32

/-- Entrywise maximum with zero. -/
def relu {M N : Nat} (A : Mat M N) : Mat M N := fun i => max (A i) zeroW

/-- Two 128×64 matrices side by side: columns 0–63 from the first, 64–127 from the second. -/
def sideBySide (A B : Mat 128 64) : Mat 128 128 := fun i =>
  if h : (i 1).val < 64 then A (ix2 (i 0) ⟨(i 1).val, h⟩)
  else B (ix2 (i 0) ⟨(i 1).val - 64, by have := idx2_lt1 i; omega⟩)

/-- The last stage from the combined product `C = adj · H` (128 columns): the left half times Wp plus the bias,
    the right half clamped at ten, exponentiated and scaled by the noise. -/
def sample (C : Mat 16384 128) (Wp : Mat 64 64) (bp : (⟨2, ![1, 64]⟩ : Shape).Idx → EReal) (noise : Mat 16384 64) : Mat 16384 64 :=
  fun i => noise i * Ideal.exp (min (C (ix2 (i 0) ⟨(i 1).val + 64, by have := idx2_lt1 i; omega⟩)) tenW)
    + ((∑ l : Fin 64, C (ix2 (i 0) ⟨l.val, by have := l.isLt; omega⟩) * Wp (ix2 l (i 1))) + bp (ix2 (0 : Fin 1) (i 1)))

/-- The whole encoder. `bp` is the bias as a 1×64 row. -/
def encoder (X : Mat 16384 256) (adj : Mat 16384 16384) (W1 : Mat 256 128) (Wm Ws : Mat 128 64) (Wp : Mat 64 64)
    (bp : (⟨2, ![1, 64]⟩ : Shape).Idx → EReal) (noise : Mat 16384 64) : Mat 16384 64 :=
  sample (mm adj (mm (relu (mm adj (mm X W1))) (sideBySide Wm Ws))) Wp bp noise

/-! ## Sums by blocks -/

/-- A sum over `b · n` consecutive indices is the sum over the `b` blocks of the sums inside each block. -/
theorem sum_blocks {M : Type*} [AddCommMonoid M] (b n : Nat) (f : Fin (b * n) → M) :
    ∑ k : Fin (b * n), f k = ∑ q : Fin b, ∑ j : Fin n, f ⟨q.val * n + j.val, by
      have hq := q.isLt; have hj := j.isLt
      calc q.val * n + j.val < q.val * n + n := by omega
        _ = (q.val + 1) * n := by ring
        _ ≤ b * n := Nat.mul_le_mul_right n (by omega)⟩ := by
  -- Re-index the sum through the bijection (block, offset) ↦ offset + n · block, then split the pair sum.
  rw [← Equiv.sum_comp (finProdFinEquiv (m := b) (n := n)) f, Fintype.sum_prod_type]
  refine Finset.sum_congr rfl fun q _ => Finset.sum_congr rfl fun j _ => ?_
  refine congrArg f (Fin.ext ?_)
  show j.val + n * q.val = q.val * n + j.val
  ring

/-- The sum over the first `q + 1` blocks is the sum over the first `q` plus block `q`'s. -/
theorem sum_range_succ_blocks {M : Type*} [AddCommMonoid M] (g : Nat → M) (q : Nat) :
    ∑ p ∈ Finset.range (q + 1), g p = (∑ p ∈ Finset.range q, g p) + g q := Finset.sum_range_succ g q

/-! ## The combined product's two halves -/

/-- Left half of `H · [A | B]` is `H · A`. -/
theorem mm_sideBySide_left {M : Nat} (H : Mat M 128) (A B : Mat 128 64) (r : Fin M) (l : Fin 64) :
    mm H (sideBySide A B) (ix2 r ⟨l.val, by have := l.isLt; omega⟩) = mm H A (ix2 r l) := by
  -- Term by term: a column below 64 of the side-by-side matrix is the first matrix's column.
  unfold mm
  refine Finset.sum_congr rfl fun k _ => ?_
  have hs : sideBySide A B (ix2 k ((ix2 r (⟨l.val, by have := l.isLt; omega⟩ : Fin 128)) 1)) = A (ix2 k ((ix2 r l) 1)) := by
    unfold sideBySide
    exact dif_pos (show l.val < 64 from l.isLt)
  rw [hs]
  rfl

/-- Right half of `H · [A | B]` is `H · B`. -/
theorem mm_sideBySide_right {M : Nat} (H : Mat M 128) (A B : Mat 128 64) (r : Fin M) (l : Fin 64) :
    mm H (sideBySide A B) (ix2 r ⟨l.val + 64, by have := l.isLt; omega⟩) = mm H B (ix2 r l) := by
  -- Term by term: column 64 + l of the side-by-side matrix is the second matrix's column l.
  unfold mm
  refine Finset.sum_congr rfl fun k _ => ?_
  have hs : sideBySide A B (ix2 k ((ix2 r (⟨l.val + 64, by have := l.isLt; omega⟩ : Fin 128)) 1)) = B (ix2 k ((ix2 r l) 1)) := by
    unfold sideBySide
    refine (dif_neg (show ¬ (l.val + 64 < 64) by omega)).trans ?_
    exact congrArg (fun z : Fin 64 => B (ix2 k z)) (Fin.ext (show l.val + 64 - 64 = l.val by omega))
  rw [hs]
  rfl

end Cert.Spec

end
-- ==== Proof.ValR0.lean ====
/-
  The first pallas_call over the extended reals.  There a narrowing of floats is the identity and a matrix
  unit's product into a zero accumulator is the plain sum over the contracted axis, so the body's payload is
  the matrix product of the two blocks it loads.  Grid point t loads rows 1024 t … 1024 t + 1023 of the left
  argument and the whole right argument, and writes back rows 1024 t … 1024 t + 1023 of the result; those
  rows of the whole product are exactly that block product.  The sixteen row blocks tile the 16384 rows, so
  after the last write-back the result array is the product of the two argument arrays.
-/
import proofs.«178931_j89567247991228_1_alg».proof.Proof.R0
import proofs.«178931_j89567247991228_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Frame Idealize.ShloMosaic.ValueIdx
open scoped BigOperators

/-! ## The block product at an index -/

/-- Axis 0 of the left operand's index is the output's row. -/
theorem lhs_blk0_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
/-- Axis 1 of the left operand's index is the contracted coordinate. -/
theorem lhs_blk0_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
/-- Axis 0 of the right operand's index is the contracted coordinate. -/
theorem rhs_blk0_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
/-- Axis 1 of the right operand's index is the output's column. -/
theorem rhs_blk0_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl

/-- The payload at (p, q): the sum over k of the left block at (p, k) times the right block at (k, q). -/
theorem pay0_apply (x0 : Vec Ideal S1024x256 .f32) (x1 : Vec Ideal S256x128 .f32) (p : Fin 1024) (q : Fin 128) :
    k0_pay1 (F := Ideal) x0 x1 (ix2 p q) = ∑ k : Fin 256, x0 (ix2 p k) * x1 (ix2 k q) := by
  unfold k0_pay1
  simp only [matmul]
  rw [Ideal.matmul_constant_zero_apply, ← Equiv.sum_comp (contrEquiv1 dot_S1024x256_S256x128_S1024x128_1_0_0_1_n_n 256 rfl rfl).symm]
  refine Finset.sum_congr rfl fun k _ => ?_
  have hk := contrEquiv1_symm_val dot_S1024x256_S256x128_S1024x128_1_0_0_1_n_n 256 rfl rfl k
  have el : dot_S1024x256_S256x128_S1024x128_1_0_0_1_n_n.lhsIdx (ix2 p q) ((contrEquiv1 dot_S1024x256_S256x128_S1024x128_1_0_0_1_n_n 256 rfl rfl).symm k) = ix2 p k := funext fun a => Fin.ext (by
    match a with
    | ⟨0, _⟩ => exact lhs_blk0_0 _ _
    | ⟨1, _⟩ => exact (lhs_blk0_1 _ _).trans hk)
  have er : dot_S1024x256_S256x128_S1024x128_1_0_0_1_n_n.rhsIdx (ix2 p q) ((contrEquiv1 dot_S1024x256_S256x128_S1024x128_1_0_0_1_n_n 256 rfl rfl).symm k) = ix2 k q := funext fun a => Fin.ext (by
    match a with
    | ⟨0, _⟩ => exact (rhs_blk0_0 _ _).trans hk
    | ⟨1, _⟩ => exact rhs_blk0_1 _ _)
  rw [el, er]
  rfl

/-- When the left block is rows of A starting at row r − p and the right block is all of B, the payload at
    (p, q) is the whole product's entry (r, q). -/
theorem pay0_rows (A : Cert.Spec.Mat 16384 256) (B : Cert.Spec.Mat 256 128)
    (x0 : Vec Ideal S1024x256 .f32) (x1 : Vec Ideal S256x128 .f32) (p : Fin 1024) (q : Fin 128) (r : Fin 16384)
    (h0 : ∀ k : Fin 256, x0 (ix2 p k) = A (ix2 r k)) (h1 : ∀ k : Fin 256, x1 (ix2 k q) = B (ix2 k q)) :
    k0_pay1 (F := Ideal) x0 x1 (ix2 p q) = Cert.Spec.mm A B (ix2 r q) := by
  rw [pay0_apply]
  unfold Cert.Spec.mm
  exact Finset.sum_congr rfl fun k _ => by rw [h0 k, h1 k]

/-! ## From blocks to the array -/

variable (V : (c : Dev nD) → (b : Ref sig .tc) → Buf (Elt Ideal) ((c : Thread nD τ).loc b))

/-- The two spellings of the zero offsets. -/
theorem offsets_zero : (![0, 0] : Fin 2 → Nat) = fun _ => 0 := funext fun a => by fin_cases a <;> rfl

/-- The index maps over the grid: at point t the left argument's block is row block t, column block 0; the right
    argument's is block (0, 0); the result's is row block t, column block 0. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the argument arrays as the call finds them. -/
theorem flushed0_eq (c : Dev nD) (t : Fin cfg0.N) :
    (dat0 (F := Ideal) V c).flushed 2 t
      = ((cfg0.win 2).blk t).view.read (Elt Ideal) (Cert.Spec.mm (V c main_arg0) (V c main_arg2)) := by
  show (cfg0.win 2).cut (grid0.coords t) ((dat0 V c).after 2 t) = _
  rw [after0_2]
  unfold out0_2
  rw [View.canon_unit_zero offsets_zero]
  simp only [View.ld_unit_zero (S := S1024x256) offsets_zero, View.ld_unit_zero (S := S256x128) offsets_zero]
  obtain ⟨e0, e1, e2, e3, e4, e5⟩ := index_maps0 t
  have ht : t.val < 16 := t.isLt.trans_eq (show cfg0.N = 16 from N_0)
  refine funext fun (j : S1024x128.Idx) => ?_
  obtain ⟨p, q, rfl⟩ : ∃ (p : Fin 1024) (q : Fin 128), j = ix2 p q := ⟨j 0, j 1, eq_ix2 j⟩
  have hp : p.val < 1024 := p.isLt
  -- the result's block t at (p, q) is the array's entry (1024 t + p, q)
  have hr : ((cfg0.win 2).blk t).view.emb (ix2 p q) = ix2 (⟨t.val * 1024 + p.val, by omega⟩ : Fin 16384) q := by
    funext a; apply Fin.ext
    match a with
    | ⟨0, _⟩ => show win0_2.index t (0 : Fin 2) * 1024 + 1 * p.val = t.val * 1024 + p.val; omega
    | ⟨1, _⟩ => show win0_2.index t (1 : Fin 2) * 128 + 1 * q.val = q.val; omega
  show k0_pay1 (F := Ideal) (iblk0 V c 0 t) (iblk0 V c 1 t) (ix2 p q)
    = Cert.Spec.mm (V c main_arg0) (V c main_arg2) (((cfg0.win 2).blk t).view.emb (ix2 p q))
  rw [hr]
  refine pay0_rows _ _ _ _ p q _ (fun k => ?_) (fun k => ?_)
  · -- the left block at (p, k) is the left argument at (1024 t + p, k)
    show V c main_arg0 (((cfg0.win 0).blk t).view.emb (ix2 p k)) = V c main_arg0 (ix2 (⟨t.val * 1024 + p.val, by omega⟩ : Fin 16384) k)
    refine congrArg (V c main_arg0) (funext fun a => Fin.ext ?_)
    match a with
    | ⟨0, _⟩ => show win0_0.index t (0 : Fin 2) * 1024 + 1 * p.val = t.val * 1024 + p.val; omega
    | ⟨1, _⟩ => show win0_0.index t (1 : Fin 2) * 256 + 1 * k.val = k.val; omega
  · -- the right block at (k, q) is the right argument at (k, q)
    show V c main_arg2 (((cfg0.win 1).blk t).view.emb (ix2 k q)) = V c main_arg2 (ix2 k q)
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 128 + 1 * q.val = q.val; omega

/-- An index of the result array is in point t's block iff each coordinate is in the block's range on its axis. -/
theorem mem_rows0 (t : Fin cfg0.N) (i : S16384x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v0).slice (win0_2.rect t)).set ↔ _
  rw [View.set_slice_whole, Rect.mem_set_unit]
  exact Iff.rfl

/-- Row r of the result lies in the block of point r / 1024, and every point writes back. -/
theorem rows_covered0 (i : S16384x128.Idx) :
    ∃ t : Fin cfg0.N, (cfg0.win 2).flush t = true ∧ i ∈ ((cfg0.win 2).blk t).view.set := by
  have hi0 : (i 0).val < 16384 := idx2_lt0 i
  have hi1 : (i 1).val < 128 := idx2_lt1 i
  obtain ⟨t, ht⟩ : ∃ t : Fin cfg0.N, t.val = (i 0).val / 1024 :=
    ⟨⟨(i 0).val / 1024, by rw [show cfg0.N = 16 from N_0]; omega⟩, rfl⟩
  obtain ⟨e0, e1, e2, e3, e4, e5⟩ := index_maps0 t
  refine ⟨t, flush0_2 t, ?_⟩
  rw [mem_rows0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 128 ≤ (i 1).val ∧ (i 1).val < win0_2.index t (1 : Fin 2) * 128 + 128; omega

/-- After the sixteen write-backs the result array is the product of the two argument arrays. -/
theorem final0 (c : Dev nD) :
    (dat0 (F := Ideal) V c).arrAt 2 cfg0.N = Cert.Spec.mm (V c main_arg0) (V c main_arg2) :=
  (dat0 (F := Ideal) V c).arrAt_eq_of_cover 2 (Cert.Spec.mm (V c main_arg0) (V c main_arg2))
    (fun t _ => flushed0_eq V c t) rows_covered0

end Cert.KernelIdeal.Val

end
-- ==== Proof.ValR2.lean ====
/-
  The third pallas_call over the extended reals.  There a cast of a vector to its own shape and a narrowing of
  floats are identities, and a matrix unit's product into a zero accumulator is the plain sum over the
  contracted axis, so the body's payload is the matrix product of the two blocks it loads.  Grid point t loads
  rows 1024 t … 1024 t + 1023 of the left array and the whole 128 × 128 right array, and writes back rows
  1024 t … 1024 t + 1023 of the result; those rows of the whole product are exactly that block product.  The
  sixteen row blocks tile the 16384 rows, so after the last write-back the result array is the product of the
  two arrays as the call found them.
-/
import proofs.«178931_j89567247991228_1_alg».proof.Proof.R2
import proofs.«178931_j89567247991228_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val.Call2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Frame Idealize.ShloMosaic.ValueIdx
open scoped BigOperators

/-! ## The block product at an index -/

/-- Axis 0 of the left operand's index is the output's row. -/
theorem lhs_blk2_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
/-- Axis 1 of the left operand's index is the contracted coordinate. -/
theorem lhs_blk2_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
/-- Axis 0 of the right operand's index is the contracted coordinate. -/
theorem rhs_blk2_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
/-- Axis 1 of the right operand's index is the output's column. -/
theorem rhs_blk2_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The payload at (p, q): the sum over k of the left block at (p, k) times the right block at (k, q). -/
theorem pay2_apply (x0 : Vec Ideal S1024x128 .f32) (x1 : Vec Ideal S128x128 .f32) (p : Fin 1024) (q : Fin 128) :
    k2_pay1 (F := Ideal) x0 x1 (ix2 p q) = ∑ k : Fin 128, x0 (ix2 p k) * x1 (ix2 k q) := by
  unfold k2_pay1
  simp only [matmul, shapeCast_self]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 p q) ((contrEquiv1 dot_S1024x128_S128x128_S1024x128_1_0_0_1_n_n 128 rfl rfl).symm k) = ix2 p k := funext fun a => Fin.ext (by
    match a with
    | ⟨0, _⟩ => exact lhs_blk2_0 _ _
    | ⟨1, _⟩ => exact (lhs_blk2_1 _ _).trans hk)
  have er : dot_S1024x128_S128x128_S1024x128_1_0_0_1_n_n.rhsIdx (ix2 p q) ((contrEquiv1 dot_S1024x128_S128x128_S1024x128_1_0_0_1_n_n 128 rfl rfl).symm k) = ix2 k q := funext fun a => Fin.ext (by
    match a with
    | ⟨0, _⟩ => exact (rhs_blk2_0 _ _).trans hk
    | ⟨1, _⟩ => exact rhs_blk2_1 _ _)
  rw [el, er]
  rfl

/-- When row p of the left block is row r of A and the right block is all of B, the payload at (p, q) is the
    whole product's entry (r, q). -/
theorem pay2_rows (A : Cert.Spec.Mat 16384 128) (B : Cert.Spec.Mat 128 128)
    (x0 : Vec Ideal S1024x128 .f32) (x1 : Vec Ideal S128x128 .f32) (p : Fin 1024) (q : Fin 128) (r : Fin 16384)
    (h0 : ∀ k : Fin 128, x0 (ix2 p k) = A (ix2 r k)) (h1 : ∀ k : Fin 128, x1 (ix2 k q) = B (ix2 k q)) :
    k2_pay1 (F := Ideal) x0 x1 (ix2 p q) = Cert.Spec.mm A B (ix2 r q) := by
  rw [pay2_apply]
  unfold Cert.Spec.mm
  exact Finset.sum_congr rfl fun k _ => by rw [h0 k, h1 k]

/-! ## From blocks to the array -/

variable (V : (c : Dev nD) → (b : Ref sig .tc) → Buf (Elt Ideal) ((c : Thread nD τ).loc b))

/-- The two spellings of the zero offsets. -/
theorem offsets_zero2 : (![0, 0] : Fin 2 → Nat) = fun _ => 0 := funext fun a => by fin_cases a <;> rfl

/-- The index maps over the grid: at point t the left array's block is row block t, column block 0; the right
    array's is block (0, 0); the result's is row block t, column block 0. -/
theorem index_maps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the two arrays as the call finds them. -/
theorem flushed2_eq (c : Dev nD) (t : Fin cfg2.N) :
    (dat2 (F := Ideal) V c).flushed 2 t
      = ((cfg2.win 2).blk t).view.read (Elt Ideal) (Cert.Spec.mm (V c main_v1) (V c main_v2)) := by
  show (cfg2.win 2).cut (grid2.coords t) ((dat2 V c).after 2 t) = _
  rw [after2_2]
  unfold out2_2
  rw [View.canon_unit_zero offsets_zero2]
  simp only [View.ld_unit_zero (S := S1024x128) offsets_zero2, View.ld_unit_zero (S := S128x128) offsets_zero2]
  obtain ⟨e0, e1, e2, e3, e4, e5⟩ := index_maps2 t
  have ht : t.val < 16 := t.isLt.trans_eq (show cfg2.N = 16 from N_2)
  refine funext fun (j : S1024x128.Idx) => ?_
  obtain ⟨p, q, rfl⟩ : ∃ (p : Fin 1024) (q : Fin 128), j = ix2 p q := ⟨j 0, j 1, eq_ix2 j⟩
  have hp : p.val < 1024 := p.isLt
  -- the result's block t at (p, q) is the array's entry (1024 t + p, q)
  have hr : ((cfg2.win 2).blk t).view.emb (ix2 p q) = ix2 (⟨t.val * 1024 + p.val, by omega⟩ : Fin 16384) q := by
    funext a; apply Fin.ext
    match a with
    | ⟨0, _⟩ => show win2_2.index t (0 : Fin 2) * 1024 + 1 * p.val = t.val * 1024 + p.val; omega
    | ⟨1, _⟩ => show win2_2.index t (1 : Fin 2) * 128 + 1 * q.val = q.val; omega
  show k2_pay1 (F := Ideal) (iblk2 V c 0 t) (iblk2 V c 1 t) (ix2 p q)
    = Cert.Spec.mm (V c main_v1) (V c main_v2) (((cfg2.win 2).blk t).view.emb (ix2 p q))
  rw [hr]
  refine pay2_rows _ _ _ _ p q _ (fun k => ?_) (fun k => ?_)
  · -- the left block at (p, k) is the left array at (1024 t + p, k)
    show V c main_v1 (((cfg2.win 0).blk t).view.emb (ix2 p k)) = V c main_v1 (ix2 (⟨t.val * 1024 + p.val, by omega⟩ : Fin 16384) k)
    refine congrArg (V c main_v1) (funext fun a => Fin.ext ?_)
    match a with
    | ⟨0, _⟩ => show win2_0.index t (0 : Fin 2) * 1024 + 1 * p.val = t.val * 1024 + p.val; omega
    | ⟨1, _⟩ => show win2_0.index t (1 : Fin 2) * 128 + 1 * k.val = k.val; omega
  · -- the right block at (k, q) is the right array at (k, q)
    show V c main_v2 (((cfg2.win 1).blk t).view.emb (ix2 k q)) = V c main_v2 (ix2 k q)
    refine congrArg (V c main_v2) (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega

/-- An index of the result array is in point t's block iff each coordinate is in the block's range on its axis. -/
theorem mem_rows2 (t : Fin cfg2.N) (i : S16384x128.Idx) :
    i ∈ ((cfg2.win 2).blk t).view.set ↔ ∀ a : Fin 2, win2_2.index t a * S1024x128.size a ≤ (i a).val ∧ (i a).val < win2_2.index t a * S1024x128.size a + S1024x128.size a := by
  show i ∈ ((View.whole main_v3).slice (win2_2.rect t)).set ↔ _
  rw [View.set_slice_whole, Rect.mem_set_unit]
  exact Iff.rfl

/-- Row r of the result lies in the block of point r / 1024, and every point writes back. -/
theorem rows_covered2 (i : S16384x128.Idx) :
    ∃ t : Fin cfg2.N, (cfg2.win 2).flush t = true ∧ i ∈ ((cfg2.win 2).blk t).view.set := by
  have hi0 : (i 0).val < 16384 := idx2_lt0 i
  have hi1 : (i 1).val < 128 := idx2_lt1 i
  obtain ⟨t, ht⟩ : ∃ t : Fin cfg2.N, t.val = (i 0).val / 1024 :=
    ⟨⟨(i 0).val / 1024, by rw [show cfg2.N = 16 from N_2]; omega⟩, rfl⟩
  obtain ⟨e0, e1, e2, e3, e4, e5⟩ := index_maps2 t
  refine ⟨t, flush2_2 t, ?_⟩
  rw [mem_rows2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 128 ≤ (i 1).val ∧ (i 1).val < win2_2.index t (1 : Fin 2) * 128 + 128; omega

/-- After the sixteen write-backs the result array is the product of the two arrays the call read. -/
theorem final2 (c : Dev nD) :
    (dat2 (F := Ideal) V c).arrAt 2 cfg2.N = Cert.Spec.mm (V c main_v1) (V c main_v2) :=
  (dat2 (F := Ideal) V c).arrAt_eq_of_cover 2 (Cert.Spec.mm (V c main_v1) (V c main_v2))
    (fun t _ => flushed2_eq V c t) rows_covered2

end Cert.KernelIdeal.Val.Call2

end
-- ==== Proof.KernelValue.lean ====
/-
  The whole program's value over the extended reals.  Each boundary's contents at one reference are walked
  back to the launch memory: a call leaves alone every array it does not write back, a host line writes only
  its own result.  Call 0 writes X · W1; call 1 writes relu(adj · that); the first host line sets the two
  branch weights side by side; call 2 multiplies the hidden layer by that 128-column matrix; the second host
  line reshapes the bias to a row; call 3 multiplies by adj once more and finishes the sample.  Put together
  the result array ends at the encoder of the eight arguments.
-/
import proofs.«178931_j89567247991228_1_alg».proof.Proof.Run
import proofs.«178931_j89567247991228_1_alg».proof.Proof.ValR0
import proofs.«178931_j89567247991228_1_alg».proof.Proof.ValR2
import proofs.«178931_j89567247991228_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Frame Idealize.ShloMosaic.ValueIdx
open scoped BigOperators

variable (m : (ℓ : Loc nD τ sig) → Buf (Elt Ideal) ℓ) (ρ : Dev nD → PrngReg)

/-! ## Arrays no earlier item has written -/

/-- A reference that neither of the first two calls stages is, after them, as launched. -/
theorem W2_launch (c : Dev nD) (b : Ref sig .tc) (h0 : ∀ w, Pipeline.arrRef spec0 w ≠ b) (h1 : ∀ w, Pipeline.arrRef spec1 w ≠ b) :
    W2 m ρ c (Proc.devRef .tc b) = m ((c : Thread nD τ).loc b) :=
  calc W2 m ρ c (Proc.devRef .tc b)
    _ = W1 m ρ c (Proc.devRef .tc b) := W2_of_ne m ρ c b h1
    _ = W0 m ρ c (Proc.devRef .tc b) := W1_of_ne m ρ c b h0
    _ = m ((c : Thread nD τ).loc b) := rfl

/-- A reference that none of the first three calls stages and the first host line does not write is, after them, as launched. -/
theorem W4_launch (c : Dev nD) (b : Ref sig .tc) (h0 : ∀ w, Pipeline.arrRef spec0 w ≠ b) (h1 : ∀ w, Pipeline.arrRef spec1 w ≠ b)
    (hh : b ∉ hostOps2_W) (h2 : ∀ w, Pipeline.arrRef spec2 w ≠ b) :
    W4 m ρ c (Proc.devRef .tc b) = m ((c : Thread nD τ).loc b) :=
  calc W4 m ρ c (Proc.devRef .tc b)
    _ = W3 m ρ c (Proc.devRef .tc b) := W4_of_ne m ρ c b h2
    _ = W2 m ρ c (Proc.devRef .tc b) := W3_of m ρ c b hh
    _ = m ((c : Thread nD τ).loc b) := W2_launch m ρ c b h0 h1

/-! ## What call 1 finds -/

/-- The adjacency argument as call 1 finds it. -/
theorem entry1_adj (c : Dev nD) : V1r m ρ c main_arg1 = m ((c : Thread nD τ).loc main_arg1) :=
  (W1_of_ne m ρ c main_arg1 (by decide)).trans rfl

/-- Call 0's result as call 1 finds it: the features times the first weights. -/
theorem entry1_xw (c : Dev nD) :
    V1r m ρ c main_v0 = Cert.Spec.mm (m ((c : Thread nD τ).loc main_arg0)) (m ((c : Thread nD τ).loc main_arg2)) :=
  (W1_arr m ρ c 2).trans (final0 (V0r m ρ) c)

/-! ## What call 2 finds -/

/-- The first host line's result as call 2 finds it: the two branch weights side by side. -/
theorem entry2_weights (c : Dev nD) :
    V3r m ρ c main_v2 = Cert.Spec.sideBySide (m ((c : Thread nD τ).loc main_arg3)) (m ((c : Thread nD τ).loc main_arg4)) := by
  show StableHlo.after hostOps2 (W2 m ρ c) (Proc.devRef .tc main_v2) = _
  after_results
  rw [W2_launch m ρ c main_arg3 (by decide) (by decide), W2_launch m ρ c main_arg4 (by decide) (by decide)]
  funext i
  unfold Cert.Spec.sideBySide
  by_cases hlt : (i 1).val < 64
  · rw [dif_pos hlt]
    refine concatenate_pair_apply_left (t := S128x128) (s₁ := S128x64) (s₂ := S128x64) (1 : Fin 2) _ _ _ i rfl (ix2 (i 0) (⟨(i 1).val, hlt⟩ : Fin 64)) fun b => ?_
    match b with
    | ⟨0, _⟩ => rfl
    | ⟨1, _⟩ => rfl
  · rw [dif_neg hlt]
    have h1 : (i 1).val < 128 := idx2_lt1 i
    refine concatenate_pair_apply_right (t := S128x128) (s₁ := S128x64) (s₂ := S128x64) (1 : Fin 2) _ _ _ i rfl rfl (ix2 (i 0) (⟨(i 1).val - 64, by omega⟩ : Fin 64)) (fun b hb => ?_) ?_
    · match b with
      | ⟨0, _⟩ => rfl
      | ⟨1, _⟩ => exact absurd rfl hb
    · show (i 1).val - 64 + 64 = (i 1).val
      omega

/-! ## What call 3 finds -/

/-- The adjacency argument as call 3 finds it. -/
theorem entry3_adj (c : Dev nD) : V5r m ρ c main_arg1 = m ((c : Thread nD τ).loc main_arg1) :=
  calc V5r m ρ c main_arg1
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_in m ρ c 0 rfl
    _ = W0 m ρ c (Proc.devRef .tc main_arg1) := W1_of_ne m ρ c main_arg1 (by decide)
    _ = m ((c : Thread nD τ).loc main_arg1) := rfl

/-- The projection weights as call 3 finds them. -/
theorem entry3_proj (c : Dev nD) : V5r m ρ c main_arg5 = m ((c : Thread nD τ).loc main_arg5) :=
  (W5_of m ρ c main_arg5 (by decide)).trans (W4_launch m ρ c main_arg5 (by decide) (by decide) (by decide) (by decide))

/-- The noise as call 3 finds it. -/
theorem entry3_noise (c : Dev nD) : V5r m ρ c main_arg7 = m ((c : Thread nD τ).loc main_arg7) :=
  (W5_of m ρ c main_arg7 (by decide)).trans (W4_launch m ρ c main_arg7 (by decide) (by decide) (by decide) (by decide))

/-- The second host line's result as call 3 finds it: the bias as a row. -/
theorem entry3_bias (c : Dev nD) :
    V5r m ρ c main_v4 = fun i : S1x64.Idx => (m ((c : Thread nD τ).loc main_arg6) : S64.Idx → EReal) (ix1 (i 1)) := by
  show StableHlo.after hostOps3 (W4 m ρ c) (Proc.devRef .tc main_v4) = _
  after_results
  rw [W4_launch m ρ c main_arg6 (by decide) (by decide) (by decide) (by decide)]
  funext i
  refine (shapeCast_addUnit_apply ![64] (m ((c : Thread nD τ).loc main_arg6) : S64.Idx → EReal) shapeCasts_S64_S1x64 i).trans ?_
  refine congrArg (m ((c : Thread nD τ).loc main_arg6) : S64.Idx → EReal) (funext fun a => ?_)
  match a with
  | ⟨0, _⟩ => rfl

/-- Call 2's result as call 3 finds it: the product of what call 2 found. -/
theorem entry3_latent (c : Dev nD) :
    V5r m ρ c main_v3 = Cert.Spec.mm (V3r m ρ c main_v1) (V3r m ρ c main_v2) :=
  ((W5_of m ρ c main_v3 (by decide)).trans (W4_arr m ρ c 2)).trans (Call2.final2 (V3r m ρ) c)

/-! ## The hidden layer and the result -/

section
variable (hfinal1 : ∀ (V : (c : Dev nD) → (b : Ref sig .tc) → Buf (Elt Ideal) ((c : Thread nD τ).loc b)) (c : Dev nD),
  (dat1 (F := Ideal) V c).arrAt 2 cfg1.N = Cert.Spec.relu (Cert.Spec.mm (V c main_arg1) (V c main_v0)))
include hfinal1

/-- Call 1's result as call 2 finds it: the hidden layer relu(adj · (X · W1)). -/
theorem entry2_hidden (c : Dev nD) :
    V3r m ρ c main_v1 = Cert.Spec.relu (Cert.Spec.mm (m ((c : Thread nD τ).loc main_arg1))
      (Cert.Spec.mm (m ((c : Thread nD τ).loc main_arg0)) (m ((c : Thread nD τ).loc main_arg2)))) := by
  have h : V3r m ρ c main_v1 = (dat1 (V1r m ρ) c).arrAt 2 cfg1.N :=
    (W3_of m ρ c main_v1 (by decide)).trans (W2_arr m ρ c 2)
  rw [h, hfinal1, entry1_adj, entry1_xw]

variable (hfinal3 : ∀ (V : (c : Dev nD) → (b : Ref sig .tc) → Buf (Elt Ideal) ((c : Thread nD τ).loc b)) (c : Dev nD),
  (dat3 (F := Ideal) V c).arrAt 5 cfg3.N = Cert.Spec.sample (Cert.Spec.mm (V c main_arg1) (V c main_v3)) (V c main_arg5) (V c main_v4) (V c main_arg7))
include hfinal3

/-- The result array after the run is the encoder of the eight arguments as launched. -/
theorem result_eq (c : Dev nD) :
    W6 m ρ c (Proc.devRef .tc main_v5) = Cert.Spec.encoder (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (fun i => m ((c : Thread nD τ).loc main_arg6) (ix1 (i 1))) (m ((c : Thread nD τ).loc main_arg7)) := by
  have h : W6 m ρ c (Proc.devRef .tc main_v5) = (dat3 (V5r m ρ) c).arrAt 5 cfg3.N := W6_arr m ρ c 5
  rw [h, hfinal3, entry3_adj, entry3_proj, entry3_noise, entry3_bias, entry3_latent, entry2_hidden m ρ hfinal1, entry2_weights]
  rfl

end

end Cert.KernelIdeal.Val

end
-- ==== Proof.ValR1Pieces.lean ====
/-
  The second kernel call over the extended reals: what one step of its body leaves, and its payloads read
  at an index.  A step's accumulator is the accumulator before it plus the product of the two blocks it
  loads (the first step of a row block starts from the zero block), and the last step's output block is the
  entrywise maximum of that accumulator with zero.  Over the extended reals a narrowing of floats is the
  identity and a matrix unit's product into a zero accumulator is the plain sum over the contracted axis.
-/
import proofs.«178931_j89567247991228_1_alg».proof.Proof.R1
import proofs.«178931_j89567247991228_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val.Call1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Frame Idealize.ShloMosaic.ValueIdx
open scoped BigOperators

/-! ## What each step leaves, as payloads (at every float instance) -/

section Pieces

variable {F : FTy → Type} [FloatOps F]

/-- The two spellings of the zero offsets. -/
theorem offsets_zero1 : (![0, 0] : Fin 2 → Nat) = fun _ => 0 := funext fun a => by fin_cases a <;> rfl

/-- A middle step leaves the accumulator plus the product of the two loaded blocks. -/
theorem acc_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i) (x0 : Vec F S1024x2048 .f32) (x1 : Vec F S2048x128 .f32) (xs0 : Vec F S1024x128 .f32) :
    sout1_B c i arg2 harg2 arg3 harg3 arg4 harg4 arg5 harg5 hc0 hc1 x0 x1 xs0 = k1_pay2 x0 x1 xs0 := by
  unfold sout1_B
  rw [View.read_writes_eq_canon _ _ _ (scover1_B c i arg2 harg2 arg3 harg3 arg4 harg4 arg5 harg5 hc0 hc1 x0 x1 xs0)]
  unfold kernelRun1_B
  dsimp only
  sl_unfold_words
  rw [View.canon_unit_zero offsets_zero1]
  simp only [View.readAt_eq_ld, harg2.read_unread, harg3.read_unread, harg5.read_unread, View.ld_unit_zero (S := S1024x2048) offsets_zero1, View.ld_unit_zero (S := S2048x128) offsets_zero1, View.ld_unit_zero (S := S1024x128) offsets_zero1]

/-- A first step resets the accumulator to the zero block, then leaves it plus the product. -/
theorem acc_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i) (x0 : Vec F S1024x2048 .f32) (x1 : Vec F S2048x128 .f32) :
    sout1_A c i arg2 harg2 arg3 harg3 arg4 harg4 arg5 harg5 hc0 hc1 x0 x1 = k1_pay2 x0 x1 k1_pay1 := by
  unfold sout1_A
  rw [View.read_writes_eq_canon _ _ _ (scover1_A c i arg2 harg2 arg3 harg3 arg4 harg4 arg5 harg5 hc0 hc1 x0 x1)]
  unfold kernelRun1_A
  dsimp only
  sl_unfold_words
  rw [View.canon_cons_unit_zero (S := S1024x128) offsets_zero1, View.readCov_unit_zero (S := S1024x128) _ offsets_zero1]
  simp only [View.readAt_eq_ld, harg2.read_unread, harg3.read_unread, View.ld_unit_zero (S := S1024x2048) offsets_zero1, View.ld_unit_zero (S := S2048x128) offsets_zero1, View.ld_unit_zero (S := S1024x128) offsets_zero1]

/-- A last step leaves the same accumulator as a middle one … -/
theorem acc_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i) (x0 : Vec F S1024x2048 .f32) (x1 : Vec F S2048x128 .f32) (xs0 : Vec F S1024x128 .f32) :
    sout1_C c i arg2 harg2 arg3 harg3 arg4 harg4 arg5 harg5 hc0 hc1 x0 x1 xs0 = k1_pay2 x0 x1 xs0 := by
  unfold sout1_C
  rw [View.read_writes_eq_canon _ _ _ (scover1_C c i arg2 harg2 arg3 harg3 arg4 harg4 arg5 harg5 hc0 hc1 x0 x1 xs0)]
  unfold kernelRun1_C
  dsimp only
  sl_unfold_words
  rw [View.canon_unit_zero offsets_zero1]
  simp only [View.readAt_eq_ld, harg2.read_unread, harg3.read_unread, harg5.read_unread, View.ld_unit_zero (S := S1024x2048) offsets_zero1, View.ld_unit_zero (S := S2048x128) offsets_zero1, View.ld_unit_zero (S := S1024x128) offsets_zero1]

/-- … and stores its maximum with zero into the output block. -/
theorem out_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i) (x0 : Vec F S1024x2048 .f32) (x1 : Vec F S2048x128 .f32) (xs0 : Vec F S1024x128 .f32) :
    out1_C_2 c i arg2 harg2 arg3 harg3 arg4 harg4 arg5 harg5 hc0 hc1 x0 x1 xs0 = k1_pay3 (k1_pay2 x0 x1 xs0) := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_unit_zero offsets_zero1, View.readCov_unit_zero (S := S1024x128) _ offsets_zero1]
  simp only [View.readAt_eq_ld, harg2.read_unread, harg3.read_unread, harg5.read_unread, View.ld_unit_zero (S := S1024x2048) offsets_zero1, View.ld_unit_zero (S := S2048x128) offsets_zero1, View.ld_unit_zero (S := S1024x128) offsets_zero1]

end Pieces

/-! ## The payloads at an index, over the extended reals -/

/-- Axis 0 of the left block's index is the output's row. -/
theorem lhs_blk1_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
/-- Axis 1 of the left block's index is the contracted coordinate. -/
theorem lhs_blk1_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
/-- Axis 0 of the right block's index is the contracted coordinate. -/
theorem rhs_blk1_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
/-- Axis 1 of the right block's index is the output's column. -/
theorem rhs_blk1_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The zero block at (p, q) is zero. -/
theorem pay1_apply (p : Fin 1024) (q : Fin 128) : k1_pay1 (F := Ideal) (ix2 p q) = 0 := by
  unfold k1_pay1
  refine (congrFun (shapeCast_self _ _) (ix2 p q)).trans ?_
  exact Ideal.ofBits_zero_f32

/-- The accumulating payload at (p, q): the accumulator there plus the sum over k of the left block at (p, k) times the
    right block at (k, q). -/
theorem pay2_apply (x0 : Vec Ideal S1024x2048 .f32) (x1 : Vec Ideal S2048x128 .f32) (acc : Vec Ideal S1024x128 .f32) (p : Fin 1024) (q : Fin 128) :
    k1_pay2 (F := Ideal) x0 x1 acc (ix2 p q) = acc (ix2 p q) + ∑ k : Fin 2048, x0 (ix2 p k) * x1 (ix2 k q) := by
  unfold k1_pay2
  refine (congrFun (shapeCast_self _ _) (ix2 p q)).trans ?_
  refine congrArg (acc (ix2 p q) + ·) ?_
  simp only [matmul]
  rw [Ideal.matmul_constant_zero_apply, ← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 p q) ((contrEquiv1 dot_S1024x2048_S2048x128_S1024x128_1_0_0_1_n_n 2048 rfl rfl).symm k) = ix2 p k := funext fun a => Fin.ext (by
    match a with
    | ⟨0, _⟩ => exact lhs_blk1_0 _ _
    | ⟨1, _⟩ => exact (lhs_blk1_1 _ _).trans hk)
  have er : dot_S1024x2048_S2048x128_S1024x128_1_0_0_1_n_n.rhsIdx (ix2 p q) ((contrEquiv1 dot_S1024x2048_S2048x128_S1024x128_1_0_0_1_n_n 2048 rfl rfl).symm k) = ix2 k q := funext fun a => Fin.ext (by
    match a with
    | ⟨0, _⟩ => exact (rhs_blk1_0 _ _).trans hk
    | ⟨1, _⟩ => exact rhs_blk1_1 _ _)
  rw [el, er]
  exact congrArg (x0 (ix2 p k) * ·) (congrFun (shapeCast_self x1 _) (ix2 k q))

/-- The output payload at (p, q): the maximum of the accumulator there with zero. -/
theorem pay3_apply (v : Vec Ideal S1024x128 .f32) (p : Fin 1024) (q : Fin 128) :
    k1_pay3 (F := Ideal) v (ix2 p q) = max (v (ix2 p q)) Cert.Spec.zeroW := rfl

end Cert.KernelIdeal.Val.Call1

end
-- ==== Proof.ValR1.lean ====
/-
  The second kernel call over the extended reals, from blocks to the array.  Grid point t = 8 i + k loads block
  (i, k) of the left array A (1024 rows, 2048 columns) and block k of the right array H (2048 rows), so the
  product of the two loaded blocks at (p, q) is the part of  ∑ₘ A(1024 i + p, m) · H(m, q)  with m in block k.
  By induction on the point the accumulator after point 8 i + k holds the parts of blocks 0 … k; after k = 7
  it holds the whole sum, and the block written back is that row block of relu(A · H).  The sixteen blocks
  written back tile the 16384 rows, so the result array ends as relu(A · H).
-/
import proofs.«178931_j89567247991228_1_alg».proof.Proof.ValR1Pieces
import proofs.«178931_j89567247991228_1_alg».proof.Proof.R1
import proofs.«178931_j89567247991228_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val.Call1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Frame Idealize.ShloMosaic.ValueIdx
open scoped BigOperators

/-! ## The arrays, the blocks, the index maps -/

variable (V : (c : Dev nD) → (b : Ref sig .tc) → Buf (Elt Ideal) ((c : Thread nD τ).loc b))

/-- The left block and the right block point t loads. -/
abbrev leftBlk (c : Dev nD) (t : Fin cfg1.N) : Vec Ideal S1024x2048 .f32 := iblk1 V c 0 t
abbrev rightBlk (c : Dev nD) (t : Fin cfg1.N) : Vec Ideal S2048x128 .f32 := iblk1 V c 1 t

/-- The grid has 128 points. -/
theorem lt_points (t : Fin cfg1.N) : t.val < 128 := lt_of_lt_of_eq t.isLt N_1

/-- The index maps over the grid: point t = 8 i + k loads block (i, k) of the left array and block (k, 0) of the right
    array, and its output block is row block i. -/
theorem index_maps1 : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

/-- Row p of the row block point t works on. -/
abbrev rowAt (t : Fin cfg1.N) (p : Fin 1024) : Fin 16384 :=
  ⟨t.val / 8 * 1024 + p.val, by have := lt_points t; have := p.isLt; omega⟩

/-- The terms of row r of A against column q of H whose contracted index lies in block b of 2048. -/
def blockTerm (A : Cert.Spec.Mat 16384 16384) (H : Cert.Spec.Mat 16384 128) (r : Fin 16384) (q : Fin 128) (b : ℕ) : EReal :=
  if hb : b < 8 then
    ∑ j : Fin 2048, A (ix2 r ⟨b * 2048 + j.val, by have := j.isLt; omega⟩) * H (ix2 ⟨b * 2048 + j.val, by have := j.isLt; omega⟩ q)
  else 0

/-- The eight blocks' terms together are the whole product's entry. -/
theorem sum_blockTerm (A : Cert.Spec.Mat 16384 16384) (H : Cert.Spec.Mat 16384 128) (r : Fin 16384) (q : Fin 128) :
    ∑ b ∈ Finset.range 8, blockTerm A H r q b = Cert.Spec.mm A H (ix2 r q) := by
  rw [Finset.sum_range]
  show _ = ∑ k : Fin 16384, A (ix2 r k) * H (ix2 k q)
  refine Eq.trans ?_ (Cert.Spec.sum_blocks 8 2048 (fun k : Fin 16384 => A (ix2 r k) * H (ix2 k q))).symm
  refine Finset.sum_congr rfl fun b _ => ?_
  unfold blockTerm
  rw [dif_pos b.isLt]

/-- The product of the two blocks point t loads, at (p, q): the terms of its row against column q in block t mod 8. -/
theorem blk_prod (c : Dev nD) (t : Fin cfg1.N) (p : Fin 1024) (q : Fin 128) :
    ∑ k : Fin 2048, leftBlk V c t (ix2 p k) * rightBlk V c t (ix2 k q)
      = blockTerm (V c main_arg1) (V c main_v0) (rowAt t p) q (t.val % 8) := by
  obtain ⟨e0, e1, e2, e3, e4, e5⟩ := index_maps1 t
  have ht := lt_points t
  have hp : p.val < 1024 := p.isLt
  have hb : t.val % 8 < 8 := Nat.mod_lt _ (by decide)
  unfold blockTerm
  rw [dif_pos hb]
  refine Finset.sum_congr rfl fun k _ => ?_
  have hk : k.val < 2048 := k.isLt
  -- the left block at (p, k) is the left array at (1024 (t / 8) + p, 2048 (t mod 8) + k)
  have hl : leftBlk V c t (ix2 p k)
      = V c main_arg1 (ix2 (rowAt t p) (⟨t.val % 8 * 2048 + k.val, by omega⟩ : Fin 16384)) := by
    show V c main_arg1 (((cfg1.win 0).blk t).view.emb (ix2 p k)) = _
    refine congrArg (V c main_arg1) (funext fun a => Fin.ext ?_)
    match a with
    | ⟨0, _⟩ => show win1_0.index t (0 : Fin 2) * 1024 + 1 * p.val = t.val / 8 * 1024 + p.val; omega
    | ⟨1, _⟩ => show win1_0.index t (1 : Fin 2) * 2048 + 1 * k.val = t.val % 8 * 2048 + k.val; omega
  -- the right block at (k, q) is the right array at (2048 (t mod 8) + k, q)
  have hr : rightBlk V c t (ix2 k q)
      = V c main_v0 (ix2 (⟨t.val % 8 * 2048 + k.val, by omega⟩ : Fin 16384) q) := by
    show V c main_v0 (((cfg1.win 1).blk t).view.emb (ix2 k q)) = _
    refine congrArg (V c main_v0) (funext fun a => Fin.ext ?_)
    match a with
    | ⟨0, _⟩ => show win1_1.index t (0 : Fin 2) * 2048 + 1 * k.val = t.val % 8 * 2048 + k.val; omega
    | ⟨1, _⟩ => show win1_1.index t (1 : Fin 2) * 128 + 1 * q.val = q.val; omega
  rw [hl, hr]

/-! ## The accumulator after every point -/

/-- After a first step: the product of the two blocks on top of the zero block. -/
theorem accAt_first (c : Dev nD) (t : Fin cfg1.N) (h0 : t.val % 8 = 0) :
    (outsAt1 V c t.val t.isLt).2 = k1_pay2 (F := Ideal) (leftBlk V c t) (rightBlk V c t) (k1_pay1 (F := Ideal)) := by
  have h1 : ¬t.val % 8 = 7 := by omega
  rw [outsAt1_A V c t h0 h1]
  dsimp only
  exact acc_A (F := Ideal) c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)

/-- After any other step: the product on top of what the step before left. -/
theorem accAt_next (c : Dev nD) (t : Fin cfg1.N) (h0 : ¬t.val % 8 = 0) :
    (outsAt1 V c t.val t.isLt).2 = k1_pay2 (F := Ideal) (leftBlk V c t) (rightBlk V c t) (outsAt1 V c (t.val - 1) (Nat.lt_of_le_of_lt (Nat.sub_le _ _) t.isLt)).2 := by
  by_cases h1 : t.val % 8 = 7
  · rw [outsAt1_C V c t h0 h1]
    dsimp only
    exact acc_C (F := Ideal) c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2
  · rw [outsAt1_B V c t h0 h1]
    dsimp only
    exact acc_B (F := Ideal) c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2

/-- At a last step the output block is the maximum of the accumulator with zero. -/
theorem outAt_last (c : Dev nD) (t : Fin cfg1.N) (h1 : t.val % 8 = 7) :
    (outsAt1 V c t.val t.isLt).1 = k1_pay3 (F := Ideal) (outsAt1 V c t.val t.isLt).2 := by
  have h0 : ¬t.val % 8 = 0 := by omega
  rw [outsAt1_C V c t h0 h1]
  dsimp only
  rw [acc_C (F := Ideal) c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2]
  exact out_C (F := Ideal) c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2

/-- THE ACCUMULATION: after point n = 8 i + k the accumulator at (p, q) is the sum of the terms of row 1024 i + p
    against column q over the blocks 0 … k of the contracted axis. -/
theorem acc_eq (c : Dev nD) : ∀ (n : ℕ) (hn : n < cfg1.N) (p : Fin 1024) (q : Fin 128),
    (outsAt1 V c n hn).2 (ix2 p q)
      = ∑ b ∈ Finset.range (n % 8 + 1), blockTerm (V c main_arg1) (V c main_v0) (rowAt ⟨n, hn⟩ p) q b := by
  intro n
  induction n with
  | zero =>
    intro hn p q
    refine (congrFun (accAt_first V c ⟨0, hn⟩ (Nat.zero_mod 8)) (ix2 p q)).trans ?_
    rw [pay2_apply, pay1_apply, zero_add, blk_prod]
    exact (Finset.sum_range_one _).symm
  | succ n ih =>
    intro hn p q
    have hN : n + 1 < 128 := lt_of_lt_of_eq hn N_1
    by_cases h0 : (n + 1) % 8 = 0
    · refine (congrFun (accAt_first V c ⟨n + 1, hn⟩ h0) (ix2 p q)).trans ?_
      rw [pay2_apply, pay1_apply, zero_add, blk_prod]
      show blockTerm _ _ _ q ((n + 1) % 8) = _
      rw [h0]
      exact (Finset.sum_range_one _).symm
    · refine (congrFun (accAt_next V c ⟨n + 1, hn⟩ h0) (ix2 p q)).trans ?_
      rw [pay2_apply, blk_prod]
      show (outsAt1 V c n (Nat.lt_of_succ_lt hn)).2 (ix2 p q) + blockTerm _ _ _ q ((n + 1) % 8) = _
      rw [ih (Nat.lt_of_succ_lt hn) p q]
      have hrow : rowAt ⟨n, Nat.lt_of_succ_lt hn⟩ p = rowAt ⟨n + 1, hn⟩ p := Fin.ext (by
        show n / 8 * 1024 + p.val = (n + 1) / 8 * 1024 + p.val
        omega)
      have hk : n % 8 + 1 = (n + 1) % 8 := by omega
      rw [hrow, hk, ← Finset.sum_range_succ]

/-! ## From blocks to the array -/

/-- What a writing point writes back is its block of relu(A · H) of the two arrays as the call finds them. -/
theorem flushed1_eq (c : Dev nD) (t : Fin cfg1.N) (hf : (cfg1.win 2).flush t = true) :
    (dat1 (F := Ideal) V c).flushed 2 t
      = ((cfg1.win 2).blk t).view.read (Elt Ideal) (Cert.Spec.relu (Cert.Spec.mm (V c main_arg1) (V c main_v0))) := by
  have h7 : t.val % 8 = 7 := (flush1_2 t).mp hf
  show (cfg1.win 2).cut (grid1.coords t) ((dat1 V c).after 2 t) = _
  rw [after1_2, outAt_last V c t h7]
  obtain ⟨e0, e1, e2, e3, e4, e5⟩ := index_maps1 t
  have ht := lt_points t
  refine funext fun (j : S1024x128.Idx) => ?_
  obtain ⟨p, q, rfl⟩ : ∃ (p : Fin 1024) (q : Fin 128), j = ix2 p q := ⟨j 0, j 1, eq_ix2 j⟩
  have hp : p.val < 1024 := p.isLt
  -- the output block of point t at (p, q) is the array's entry (1024 (t / 8) + p, q)
  have hr : ((cfg1.win 2).blk t).view.emb (ix2 p q) = ix2 (rowAt t p) q := by
    funext a; apply Fin.ext
    match a with
    | ⟨0, _⟩ => show win1_2.index t (0 : Fin 2) * 1024 + 1 * p.val = t.val / 8 * 1024 + p.val; omega
    | ⟨1, _⟩ => show win1_2.index t (1 : Fin 2) * 128 + 1 * q.val = q.val; omega
  show k1_pay3 (F := Ideal) (outsAt1 V c t.val t.isLt).2 (ix2 p q)
    = Cert.Spec.relu (Cert.Spec.mm (V c main_arg1) (V c main_v0)) (((cfg1.win 2).blk t).view.emb (ix2 p q))
  rw [hr, pay3_apply, acc_eq V c t.val t.isLt p q, h7, sum_blockTerm]
  rfl

/-- An index of the result array is in point t's block iff each coordinate is in the block's range on its axis. -/
theorem mem_rows1 (t : Fin cfg1.N) (i : S16384x128.Idx) :
    i ∈ ((cfg1.win 2).blk t).view.set ↔ ∀ a : Fin 2, win1_2.index t a * S1024x128.size a ≤ (i a).val ∧ (i a).val < win1_2.index t a * S1024x128.size a + S1024x128.size a := by
  show i ∈ ((View.whole main_v1).slice (win1_2.rect t)).set ↔ _
  rw [View.set_slice_whole, Rect.mem_set_unit]
  exact Iff.rfl

/-- Row r of the result lies in the block written back at point 8 (r / 1024) + 7. -/
theorem rows_covered1 (i : S16384x128.Idx) :
    ∃ t : Fin cfg1.N, (cfg1.win 2).flush t = true ∧ i ∈ ((cfg1.win 2).blk t).view.set := by
  have hi0 : (i 0).val < 16384 := idx2_lt0 i
  have hi1 : (i 1).val < 128 := idx2_lt1 i
  obtain ⟨t, ht⟩ : ∃ t : Fin cfg1.N, t.val = 8 * ((i 0).val / 1024) + 7 :=
    ⟨⟨8 * ((i 0).val / 1024) + 7, by rw [show cfg1.N = 128 from N_1]; omega⟩, rfl⟩
  obtain ⟨e0, e1, e2, e3, e4, e5⟩ := index_maps1 t
  refine ⟨t, (flush1_2 t).mpr (by omega), ?_⟩
  rw [mem_rows1]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 128 ≤ (i 1).val ∧ (i 1).val < win1_2.index t (1 : Fin 2) * 128 + 128; omega

/-- After the sixteen write-backs the result array is relu(A · H). -/
theorem final1 (c : Dev nD) :
    (dat1 (F := Ideal) V c).arrAt 2 cfg1.N = Cert.Spec.relu (Cert.Spec.mm (V c main_arg1) (V c main_v0)) :=
  (dat1 (F := Ideal) V c).arrAt_eq_of_cover 2 (Cert.Spec.relu (Cert.Spec.mm (V c main_arg1) (V c main_v0)))
    (fun t hf => flushed1_eq V c t hf) rows_covered1

end Cert.KernelIdeal.Val.Call1

end
-- ==== Proof.ValR3Pieces.lean ====
/-
  The fourth pallas_call, its arithmetic read index by index over the extended reals, and what each case
  of its body leaves in the accumulator and in the result block.
  Over the extended reals a narrowing of floats is the identity and a matrix unit's product into a zero
  accumulator is the plain sum over the contracted axis.  So the reset value is zero; one accumulation step
  at (p, q) adds to the accumulator's entry the sum over k of the left block at (p, k) times the right block
  at (k, q); and the epilogue at (p, q) is the noise entry times the exponential of the accumulator's entry
  (p, 64 + q) clamped at ten, plus the accumulator's row p (its first 64 entries) times the projection's
  column q, plus the bias entry q.
-/
import proofs.«178931_j89567247991228_1_alg».proof.Proof.R3
import proofs.«178931_j89567247991228_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val.Call3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Frame Idealize.ShloMosaic.ValueIdx
open scoped BigOperators

/-! ## The two block products at an index -/

/-- Axis 0 of the wide product's left index is the output's row. -/
theorem lhs_wide_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
/-- Axis 1 of the wide product's left index is the contracted coordinate. -/
theorem lhs_wide_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
/-- Axis 0 of the wide product's right index is the contracted coordinate. -/
theorem rhs_wide_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
/-- Axis 1 of the wide product's right index is the output's column. -/
theorem rhs_wide_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- A 1024×2048 by 2048×128 product into a zero accumulator, at (p, q): the sum over the 2048 contracted positions. -/
theorem wide_product_apply (l : FVec Ideal S1024x2048 .bf16) (r : FVec Ideal S2048x128 .bf16) (p : Fin 1024) (q : Fin 128) :
    matmul dot_S1024x2048_S2048x128_S1024x128_1_0_0_1_n_n none l r (constant (F := Ideal) S1024x128 .f32 0x00000000#32) (ix2 p q)
      = ∑ k : Fin 2048, l (ix2 p k) * r (ix2 k q) := by
  simp only [matmul]
  rw [Ideal.matmul_constant_zero_apply, ← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 p q) ((contrEquiv1 dot_S1024x2048_S2048x128_S1024x128_1_0_0_1_n_n 2048 rfl rfl).symm k) = ix2 p k := funext fun a => Fin.ext (by
    match a with
    | ⟨0, _⟩ => exact lhs_wide_0 _ _
    | ⟨1, _⟩ => exact (lhs_wide_1 _ _).trans hk)
  have er : dot_S1024x2048_S2048x128_S1024x128_1_0_0_1_n_n.rhsIdx (ix2 p q) ((contrEquiv1 dot_S1024x2048_S2048x128_S1024x128_1_0_0_1_n_n 2048 rfl rfl).symm k) = ix2 k q := funext fun a => Fin.ext (by
    match a with
    | ⟨0, _⟩ => exact (rhs_wide_0 _ _).trans hk
    | ⟨1, _⟩ => exact rhs_wide_1 _ _)
  rw [el, er]

/-- Axis 0 of the projection product's left index is the output's row. -/
theorem lhs_proj_0 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
/-- Axis 1 of the projection product's left index is the contracted coordinate. -/
theorem lhs_proj_1 (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q
/-- Axis 0 of the projection product's right index is the contracted coordinate. -/
theorem rhs_proj_0 (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q
/-- Axis 1 of the projection product's right index is the output's column. -/
theorem rhs_proj_1 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

/-- A 1024×64 by 64×64 product into a zero accumulator, at (p, q): the sum over the 64 contracted positions. -/
theorem proj_product_apply (l : FVec Ideal S1024x64 .bf16) (r : FVec Ideal S64x64 .bf16) (p : Fin 1024) (q : Fin 64) :
    matmul dot_S1024x64_S64x64_S1024x64_1_0_0_1_n_n none l r (constant (F := Ideal) S1024x64 .f32 0x00000000#32) (ix2 p q)
      = ∑ k : Fin 64, l (ix2 p k) * r (ix2 k q) := by
  simp only [matmul]
  rw [Ideal.matmul_constant_zero_apply, ← Equiv.sum_comp (contrEquiv1 dot_S1024x64_S64x64_S1024x64_1_0_0_1_n_n 64 rfl rfl).symm]
  refine Finset.sum_congr rfl fun k _ => ?_
  have hk := contrEquiv1_symm_val dot_S1024x64_S64x64_S1024x64_1_0_0_1_n_n 64 rfl rfl k
  have el : dot_S1024x64_S64x64_S1024x64_1_0_0_1_n_n.lhsIdx (ix2 p q) ((contrEquiv1 dot_S1024x64_S64x64_S1024x64_1_0_0_1_n_n 64 rfl rfl).symm k) = ix2 p k := funext fun a => Fin.ext (by
    match a with
    | ⟨0, _⟩ => exact lhs_proj_0 _ _
    | ⟨1, _⟩ => exact (lhs_proj_1 _ _).trans hk)
  have er : dot_S1024x64_S64x64_S1024x64_1_0_0_1_n_n.rhsIdx (ix2 p q) ((contrEquiv1 dot_S1024x64_S64x64_S1024x64_1_0_0_1_n_n 64 rfl rfl).symm k) = ix2 k q := funext fun a => Fin.ext (by
    match a with
    | ⟨0, _⟩ => exact (rhs_proj_0 _ _).trans hk
    | ⟨1, _⟩ => exact rhs_proj_1 _ _)
  rw [el, er]

/-! ## The three payloads at an index -/

/-- The reset value is zero everywhere. -/
theorem pay1_apply (p : Fin 1024) (q : Fin 128) : (k3_pay1 (F := Ideal)) (ix2 p q) = 0 := by
  unfold k3_pay1
  refine (congrFun (shapeCast_self _ _) (ix2 p q)).trans ?_
  exact Ideal.ofBits_zero_f32

/-- One accumulation step at (p, q): what the accumulator held plus the block product's entry. -/
theorem pay2_apply (x0 : Vec Ideal S1024x2048 .f32) (x1 : Vec Ideal S2048x128 .f32) (acc : Vec Ideal S1024x128 .f32)
    (p : Fin 1024) (q : Fin 128) :
    k3_pay2 (F := Ideal) x0 x1 acc (ix2 p q) = acc (ix2 p q) + ∑ k : Fin 2048, x0 (ix2 p k) * x1 (ix2 k q) := by
  unfold k3_pay2
  refine (congrFun (shapeCast_self _ _) (ix2 p q)).trans ?_
  refine (addf_apply _ _ (ix2 p q)).trans ?_
  refine congrArg (acc (ix2 p q) + ·) ?_
  refine (wide_product_apply _ _ p q).trans ?_
  refine Finset.sum_congr rfl fun k _ => ?_
  exact congrArg (x0 (ix2 p k) * ·) (congrFun (shapeCast_self x1 _) (ix2 k q))

/-- The epilogue at (p, q): the noise entry times the exponential of the clamped right-half entry, plus the left half's
    row times the projection's column plus the bias entry. -/
theorem pay3_apply (v17 : Vec Ideal S1024x128 .f32) (v20 : Vec Ideal S64x64 .f32) (v24 : Vec Ideal S1x64 .f32)
    (v30 : Vec Ideal S1024x64 .f32) (p : Fin 1024) (q : Fin 64) :
    k3_pay3 (F := Ideal) v17 v20 v24 v30 (ix2 p q)
      = v30 (ix2 p q) * Ideal.exp (min (v17 (ix2 p (⟨q.val + 64, by have := q.isLt; omega⟩ : Fin 128))) Cert.Spec.tenW)
        + ((∑ l : Fin 64, v17 (ix2 p (⟨l.val, by have := l.isLt; omega⟩ : Fin 128)) * v20 (ix2 l q)) + v24 (ix2 (0 : Fin 1) q)) := by
  unfold k3_pay3
  refine (addf_apply _ _ (ix2 p q)).trans ?_
  refine congrArg₂ (· + ·) ?_ ?_
  · refine (mulf_apply _ _ (ix2 p q)).trans ?_
    refine congrArg (v30 (ix2 p q) * ·) ?_
    refine congrArg Ideal.exp ?_
    refine (minimumf_apply _ _ (ix2 p q)).trans ?_
    refine congrArg (min · Cert.Spec.tenW) ?_
    exact slice2_axis1_apply 64 v17 slices_S1024x128_o0_64_S1024x64 p q _ (Nat.add_comm _ _)
  · refine (addf_apply _ _ (ix2 p q)).trans ?_
    refine congrArg₂ (· + ·) ?_ ?_
    · refine (proj_product_apply _ _ p q).trans ?_
      refine Finset.sum_congr rfl fun l _ => ?_
      refine congrArg (· * v20 (ix2 l q)) ?_
      exact slice2_axis1_apply 0 v17 slices_S1024x128_o0_0_S1024x64 p l _ (Nat.zero_add _).symm
    · refine (broadcastTo_1b_ab_apply _ _ p q).trans ?_
      exact congrFun (shapeCast_self v24 _) (ix2 (0 : Fin 1) q)

/-! ## What each case of the body leaves, as payloads of the blocks it loads

  Valid at every float instance: the accumulator and the result block each end holding the payload of the
  last store into them, the loads before it reading the whole buffers (and, in the first step, the reset
  value just stored). -/

section AnyFloat

variable {F : FTy → Type} [FloatOps F]

/-- The two spellings of the zero offsets. -/
theorem offsets_zero3 : (![0, 0] : Fin 2 → Nat) = fun _ => 0 := funext fun a => by fin_cases a <;> rfl

/-- After a first step the accumulator is one accumulation step from the reset value. -/
theorem acc_A (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x128 .f32) (harg8 : arg8.IsWhole) (hc0 : cond3_0 i) (hc1 : ¬cond3_1 i) (x0 : Vec F S1024x2048 .f32) (x1 : Vec F S2048x128 .f32) :
    sout3_A c i arg2 harg2 arg3 harg3 arg4 harg4 arg5 harg5 arg6 harg6 arg7 harg7 arg8 harg8 hc0 hc1 x0 x1 = k3_pay2 x0 x1 (k3_pay1 (F := F)) := by
  unfold sout3_A
  rw [View.read_writes_eq_canon _ _ _ (scover3_A c i arg2 harg2 arg3 harg3 arg4 harg4 arg5 harg5 arg6 harg6 arg7 harg7 arg8 harg8 hc0 hc1 x0 x1)]
  unfold kernelRun3_A
  dsimp only
  sl_unfold_words
  rw [View.canon_cons_unit_zero (S := S1024x128) offsets_zero3, View.readCov_unit_zero (S := S1024x128) _ offsets_zero3]
  simp only [View.readAt_eq_ld, harg2.read_unread, harg3.read_unread, View.ld_unit_zero (S := S1024x2048) offsets_zero3, View.ld_unit_zero (S := S2048x128) offsets_zero3]

/-- After a middle step the accumulator is one accumulation step from what it held. -/
theorem acc_B (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x128 .f32) (harg8 : arg8.IsWhole) (hc0 : ¬cond3_0 i) (hc1 : ¬cond3_1 i) (x0 : Vec F S1024x2048 .f32) (x1 : Vec F S2048x128 .f32) (xs0 : Vec F S1024x128 .f32) :
    sout3_B c i arg2 harg2 arg3 harg3 arg4 harg4 arg5 harg5 arg6 harg6 arg7 harg7 arg8 harg8 hc0 hc1 x0 x1 xs0 = k3_pay2 x0 x1 xs0 := by
  unfold sout3_B
  rw [View.read_writes_eq_canon _ _ _ (scover3_B c i arg2 harg2 arg3 harg3 arg4 harg4 arg5 harg5 arg6 harg6 arg7 harg7 arg8 harg8 hc0 hc1 x0 x1 xs0)]
  unfold kernelRun3_B
  dsimp only
  sl_unfold_words
  rw [View.canon_unit_zero offsets_zero3]
  simp only [View.readAt_eq_ld, harg2.read_unread, harg3.read_unread, harg8.read_unread, View.ld_unit_zero (S := S1024x2048) offsets_zero3, View.ld_unit_zero (S := S2048x128) offsets_zero3, View.ld_unit_zero (S := S1024x128) offsets_zero3]

/-- After a last step the accumulator is one accumulation step from what it held. -/
theorem acc_C (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x128 .f32) (harg8 : arg8.IsWhole) (hc0 : ¬cond3_0 i) (hc1 : cond3_1 i) (x0 : Vec F S1024x2048 .f32) (x1 : Vec F S2048x128 .f32) (x2 : Vec F S64x64 .f32) (x3 : Vec F S1x64 .f32) (x4 : Vec F S1024x64 .f32) (xs0 : Vec F S1024x128 .f32) :
    sout3_C c i arg2 harg2 arg3 harg3 arg4 harg4 arg5 harg5 arg6 harg6 arg7 harg7 arg8 harg8 hc0 hc1 x0 x1 x2 x3 x4 xs0 = k3_pay2 x0 x1 xs0 := by
  unfold sout3_C
  rw [View.read_writes_eq_canon _ _ _ (scover3_C c i arg2 harg2 arg3 harg3 arg4 harg4 arg5 harg5 arg6 harg6 arg7 harg7 arg8 harg8 hc0 hc1 x0 x1 x2 x3 x4 xs0)]
  unfold kernelRun3_C
  dsimp only
  sl_unfold_words
  rw [View.canon_unit_zero offsets_zero3]
  simp only [View.readAt_eq_ld, harg2.read_unread, harg3.read_unread, harg8.read_unread, View.ld_unit_zero (S := S1024x2048) offsets_zero3, View.ld_unit_zero (S := S2048x128) offsets_zero3, View.ld_unit_zero (S := S1024x128) offsets_zero3]

/-- After a last step the result block is the epilogue of the accumulator just updated. -/
theorem out_C (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x128 .f32) (harg8 : arg8.IsWhole) (hc0 : ¬cond3_0 i) (hc1 : cond3_1 i) (x0 : Vec F S1024x2048 .f32) (x1 : Vec F S2048x128 .f32) (x2 : Vec F S64x64 .f32) (x3 : Vec F S1x64 .f32) (x4 : Vec F S1024x64 .f32) (xs0 : Vec F S1024x128 .f32) :
    out3_C_5 c i arg2 harg2 arg3 harg3 arg4 harg4 arg5 harg5 arg6 harg6 arg7 harg7 arg8 harg8 hc0 hc1 x0 x1 x2 x3 x4 xs0 = k3_pay3 (k3_pay2 x0 x1 xs0) x2 x3 x4 := by
  unfold out3_C_5
  rw [View.read_writes_eq_canon _ _ _ (cover3_C_5 c i arg2 harg2 arg3 harg3 arg4 harg4 arg5 harg5 arg6 harg6 arg7 harg7 arg8 harg8 hc0 hc1 x0 x1 x2 x3 x4 xs0)]
  unfold kernelRun3_C
  dsimp only
  sl_unfold_words
  rw [View.canon_unit_zero offsets_zero3]
  simp only [View.readAt_eq_ld, harg2.read_unread, harg3.read_unread, harg4.read_unread, harg5.read_unread, harg6.read_unread, harg8.read_unread, View.readCov_unit_zero (S := S1024x128) _ offsets_zero3, View.ld_unit_zero (S := S1024x2048) offsets_zero3, View.ld_unit_zero (S := S2048x128) offsets_zero3, View.ld_unit_zero (S := S1024x128) offsets_zero3, View.ld_unit_zero (S := S64x64) offsets_zero3, View.ld_unit_zero (S := S1x64) offsets_zero3, View.ld_unit_zero (S := S1024x64) offsets_zero3]

end AnyFloat

end Cert.KernelIdeal.Val.Call3

end
-- ==== Proof.ValR3.lean ====
/-
  The fourth kernel call over the extended reals, from blocks to the array.  Grid point t = 8 i + k loads block
  (i, k) of the left array A (1024 rows, 2048 columns) and block k of the right array H (2048 rows), so the
  product of the two loaded blocks at (p, q) is the part of  ∑ₘ A(1024 i + p, m) · H(m, q)  with m in block k.
  By induction on the point the accumulator after point 8 i + k holds the parts of blocks 0 … k; after k = 7
  it holds rows 1024 i … 1024 i + 1023 of C = A · H.  The last step's result block is then the specification's
  last stage on those rows: the left 64 columns of C times the projection plus the bias row, plus the noise
  times the exponential of the right 64 columns clamped at ten.  The sixteen blocks written back tile the
  16384 rows, so the result array ends as that last stage of A · H.
-/
import proofs.«178931_j89567247991228_1_alg».proof.Proof.ValR3Pieces
import proofs.«178931_j89567247991228_1_alg».proof.Proof.R3
import proofs.«178931_j89567247991228_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val.Call3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Frame Idealize.ShloMosaic.ValueIdx
open scoped BigOperators

/-! ## The arrays, the blocks, the index maps -/

variable (V : (c : Dev nD) → (b : Ref sig .tc) → Buf (Elt Ideal) ((c : Thread nD τ).loc b))

/-- The left block and the right block point t loads; and, read at a last step only, the projection, the bias row and
    the noise block. -/
abbrev leftBlk (c : Dev nD) (t : Fin cfg3.N) : Vec Ideal S1024x2048 .f32 := iblk3 V c 0 t
abbrev rightBlk (c : Dev nD) (t : Fin cfg3.N) : Vec Ideal S2048x128 .f32 := iblk3 V c 1 t
abbrev projBlk (c : Dev nD) (t : Fin cfg3.N) : Vec Ideal S64x64 .f32 := iblk3 V c 2 t
abbrev biasBlk (c : Dev nD) (t : Fin cfg3.N) : Vec Ideal S1x64 .f32 := iblk3 V c 3 t
abbrev noiseBlk (c : Dev nD) (t : Fin cfg3.N) : Vec Ideal S1024x64 .f32 := iblk3 V c 4 t

/-- The grid has 128 points. -/
theorem lt_points (t : Fin cfg3.N) : t.val < 128 := lt_of_lt_of_eq t.isLt N_3

/-- The index maps over the grid: point t = 8 i + k loads block (i, k) of the left array and block (k, 0) of the right
    array; its noise block and its result block are row block i … -/
theorem index_maps3 : ∀ t : Fin cfg3.N, win3_0.index t (0 : Fin 2) = t.val / 8 ∧ win3_0.index t (1 : Fin 2) = t.val % 8
    ∧ win3_1.index t (0 : Fin 2) = t.val % 8 ∧ win3_1.index t (1 : Fin 2) = 0
    ∧ win3_4.index t (0 : Fin 2) = t.val / 8 ∧ win3_4.index t (1 : Fin 2) = 0
    ∧ win3_5.index t (0 : Fin 2) = t.val / 8 ∧ win3_5.index t (1 : Fin 2) = 0 :=
  (by decide +kernel : ∀ t : Fin grid3.N, _)

/-- … and the projection and the bias row are whole arrays: block (0, 0) at every point. -/
theorem index_maps3_whole : ∀ t : Fin cfg3.N, win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- Row p of the row block point t works on. -/
abbrev rowAt (t : Fin cfg3.N) (p : Fin 1024) : Fin 16384 :=
  ⟨t.val / 8 * 1024 + p.val, by have := lt_points t; have := p.isLt; omega⟩

/-- The terms of row r of A against column q of H whose contracted index lies in block b of 2048. -/
def blockTerm (A : Cert.Spec.Mat 16384 16384) (H : Cert.Spec.Mat 16384 128) (r : Fin 16384) (q : Fin 128) (b : ℕ) : EReal :=
  if hb : b < 8 then
    ∑ j : Fin 2048, A (ix2 r ⟨b * 2048 + j.val, by have := j.isLt; omega⟩) * H (ix2 ⟨b * 2048 + j.val, by have := j.isLt; omega⟩ q)
  else 0

/-- The eight blocks' terms together are the whole product's entry. -/
theorem sum_blockTerm (A : Cert.Spec.Mat 16384 16384) (H : Cert.Spec.Mat 16384 128) (r : Fin 16384) (q : Fin 128) :
    ∑ b ∈ Finset.range 8, blockTerm A H r q b = Cert.Spec.mm A H (ix2 r q) := by
  rw [Finset.sum_range]
  show _ = ∑ k : Fin 16384, A (ix2 r k) * H (ix2 k q)
  refine Eq.trans ?_ (Cert.Spec.sum_blocks 8 2048 (fun k : Fin 16384 => A (ix2 r k) * H (ix2 k q))).symm
  refine Finset.sum_congr rfl fun b _ => ?_
  unfold blockTerm
  rw [dif_pos b.isLt]

/-- The product of the two blocks point t loads, at (p, q): the terms of its row against column q in block t mod 8. -/
theorem blk_prod (c : Dev nD) (t : Fin cfg3.N) (p : Fin 1024) (q : Fin 128) :
    ∑ k : Fin 2048, leftBlk V c t (ix2 p k) * rightBlk V c t (ix2 k q)
      = blockTerm (V c main_arg1) (V c main_v3) (rowAt t p) q (t.val % 8) := by
  obtain ⟨e0, e1, e2, e3, -, -, -, -⟩ := index_maps3 t
  have ht := lt_points t
  have hp : p.val < 1024 := p.isLt
  have hb : t.val % 8 < 8 := Nat.mod_lt _ (by decide)
  unfold blockTerm
  rw [dif_pos hb]
  refine Finset.sum_congr rfl fun k _ => ?_
  have hk : k.val < 2048 := k.isLt
  -- the left block at (p, k) is the left array at (1024 (t / 8) + p, 2048 (t mod 8) + k)
  have hl : leftBlk V c t (ix2 p k)
      = V c main_arg1 (ix2 (rowAt t p) (⟨t.val % 8 * 2048 + k.val, by omega⟩ : Fin 16384)) := by
    show V c main_arg1 (((cfg3.win 0).blk t).view.emb (ix2 p k)) = _
    refine congrArg (V c main_arg1) (funext fun a => Fin.ext ?_)
    match a with
    | ⟨0, _⟩ => show win3_0.index t (0 : Fin 2) * 1024 + 1 * p.val = t.val / 8 * 1024 + p.val; omega
    | ⟨1, _⟩ => show win3_0.index t (1 : Fin 2) * 2048 + 1 * k.val = t.val % 8 * 2048 + k.val; omega
  -- the right block at (k, q) is the right array at (2048 (t mod 8) + k, q)
  have hr : rightBlk V c t (ix2 k q)
      = V c main_v3 (ix2 (⟨t.val % 8 * 2048 + k.val, by omega⟩ : Fin 16384) q) := by
    show V c main_v3 (((cfg3.win 1).blk t).view.emb (ix2 k q)) = _
    refine congrArg (V c main_v3) (funext fun a => Fin.ext ?_)
    match a with
    | ⟨0, _⟩ => show win3_1.index t (0 : Fin 2) * 2048 + 1 * k.val = t.val % 8 * 2048 + k.val; omega
    | ⟨1, _⟩ => show win3_1.index t (1 : Fin 2) * 128 + 1 * q.val = q.val; omega
  rw [hl, hr]

/-! ## The accumulator after every point -/

/-- After a first step: the product of the two blocks on top of the zero block. -/
theorem accAt_first (c : Dev nD) (t : Fin cfg3.N) (h0 : t.val % 8 = 0) :
    (outsAt3 V c t.val t.isLt).2 = k3_pay2 (F := Ideal) (leftBlk V c t) (rightBlk V c t) (k3_pay1 (F := Ideal)) := by
  have h1 : ¬t.val % 8 = 7 := by omega
  rw [outsAt3_A V c t h0 h1]
  dsimp only
  exact acc_A (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) ((hcond3_0 t).mpr h0) (fun h => h1 ((hcond3_1 t).mp h)) (iblk3 V c 0 t) (iblk3 V c 1 t)

/-- After any other step: the product on top of what the step before left. -/
theorem accAt_next (c : Dev nD) (t : Fin cfg3.N) (h0 : ¬t.val % 8 = 0) :
    (outsAt3 V c t.val t.isLt).2 = k3_pay2 (F := Ideal) (leftBlk V c t) (rightBlk V c t) (outsAt3 V c (t.val - 1) (Nat.lt_of_le_of_lt (Nat.sub_le _ _) t.isLt)).2 := by
  by_cases h1 : t.val % 8 = 7
  · rw [outsAt3_C V c t h0 h1]
    dsimp only
    exact acc_C (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2
  · rw [outsAt3_B V c t h0 h1]
    dsimp only
    exact acc_B (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2

/-- At a last step the result block is the last stage of the accumulator, the projection, the bias row and the noise
    block. -/
theorem outAt_last (c : Dev nD) (t : Fin cfg3.N) (h1 : t.val % 8 = 7) :
    (outsAt3 V c t.val t.isLt).1
      = k3_pay3 (F := Ideal) (outsAt3 V c t.val t.isLt).2 (projBlk V c t) (biasBlk V c t) (noiseBlk V c t) := by
  have h0 : ¬t.val % 8 = 0 := by omega
  rw [outsAt3_C V c t h0 h1]
  dsimp only
  rw [acc_C (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2]
  exact out_C (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2

/-- THE ACCUMULATION: after point n = 8 i + k the accumulator at (p, q) is the sum of the terms of row 1024 i + p
    against column q over the blocks 0 … k of the contracted axis. -/
theorem acc_eq (c : Dev nD) : ∀ (n : ℕ) (hn : n < cfg3.N) (p : Fin 1024) (q : Fin 128),
    (outsAt3 V c n hn).2 (ix2 p q)
      = ∑ b ∈ Finset.range (n % 8 + 1), blockTerm (V c main_arg1) (V c main_v3) (rowAt ⟨n, hn⟩ p) q b := by
  intro n
  induction n with
  | zero =>
    intro hn p q
    refine (congrFun (accAt_first V c ⟨0, hn⟩ (Nat.zero_mod 8)) (ix2 p q)).trans ?_
    rw [pay2_apply, pay1_apply, zero_add, blk_prod]
    exact (Finset.sum_range_one _).symm
  | succ n ih =>
    intro hn p q
    have hN : n + 1 < 128 := lt_of_lt_of_eq hn N_3
    by_cases h0 : (n + 1) % 8 = 0
    · refine (congrFun (accAt_first V c ⟨n + 1, hn⟩ h0) (ix2 p q)).trans ?_
      rw [pay2_apply, pay1_apply, zero_add, blk_prod]
      show blockTerm _ _ _ q ((n + 1) % 8) = _
      rw [h0]
      exact (Finset.sum_range_one _).symm
    · refine (congrFun (accAt_next V c ⟨n + 1, hn⟩ h0) (ix2 p q)).trans ?_
      rw [pay2_apply, blk_prod]
      show (outsAt3 V c n (Nat.lt_of_succ_lt hn)).2 (ix2 p q) + blockTerm _ _ _ q ((n + 1) % 8) = _
      rw [ih (Nat.lt_of_succ_lt hn) p q]
      have hrow : rowAt ⟨n, Nat.lt_of_succ_lt hn⟩ p = rowAt ⟨n + 1, hn⟩ p := Fin.ext (by
        show n / 8 * 1024 + p.val = (n + 1) / 8 * 1024 + p.val
        omega)
      have hk : n % 8 + 1 = (n + 1) % 8 := by omega
      rw [hrow, hk, ← Finset.sum_range_succ]

/-! ## The last stage on a block -/

/-- When the accumulator's row p is row r of the combined product C, the projection and bias blocks are the arrays
    and the noise block's (p, q) is the noise array's (r, q), the last stage at (p, q) is the specification's at (r, q). -/
theorem sample_rows (C : Cert.Spec.Mat 16384 128) (Wp : Cert.Spec.Mat 64 64) (bp : (⟨2, ![1, 64]⟩ : Shape).Idx → EReal)
    (noise : Cert.Spec.Mat 16384 64) (acc : Vec Ideal S1024x128 .f32) (x2 : Vec Ideal S64x64 .f32) (x3 : Vec Ideal S1x64 .f32)
    (x4 : Vec Ideal S1024x64 .f32) (r : Fin 16384) (p : Fin 1024) (q : Fin 64)
    (hacc : ∀ m : Fin 128, acc (ix2 p m) = C (ix2 r m)) (h2 : ∀ l : Fin 64, x2 (ix2 l q) = Wp (ix2 l q))
    (h3 : x3 (ix2 (0 : Fin 1) q) = bp (ix2 (0 : Fin 1) q)) (h4 : x4 (ix2 p q) = noise (ix2 r q)) :
    k3_pay3 (F := Ideal) acc x2 x3 x4 (ix2 p q) = Cert.Spec.sample C Wp bp noise (ix2 r q) := by
  rw [pay3_apply, hacc, h3, h4]
  unfold Cert.Spec.sample
  refine congrArg₂ (· + ·) rfl (congrArg₂ (· + ·) (Finset.sum_congr rfl fun l _ => ?_) rfl)
  rw [hacc, h2 l]

/-! ## From blocks to the array -/

/-- What a writing point writes back is its block of the last stage of A · H with the other three arrays. -/
theorem flushed3_eq (c : Dev nD) (t : Fin cfg3.N) (hf : (cfg3.win 5).flush t = true) :
    (dat3 (F := Ideal) V c).flushed 5 t
      = ((cfg3.win 5).blk t).view.read (Elt Ideal)
          (Cert.Spec.sample (Cert.Spec.mm (V c main_arg1) (V c main_v3)) (V c main_arg5) (V c main_v4) (V c main_arg7)) := by
  have h7 : t.val % 8 = 7 := (flush3_5 t).mp hf
  show (cfg3.win 5).cut (grid3.coords t) ((dat3 V c).after 5 t) = _
  rw [after3_5, outAt_last V c t h7]
  obtain ⟨-, -, -, -, e4, e5, e6, e7⟩ := index_maps3 t
  obtain ⟨w0, w1, w2, w3⟩ := index_maps3_whole t
  have ht := lt_points t
  refine funext fun (j : S1024x64.Idx) => ?_
  obtain ⟨p, q, rfl⟩ : ∃ (p : Fin 1024) (q : Fin 64), j = ix2 p q := ⟨j 0, j 1, eq_ix2 j⟩
  have hp : p.val < 1024 := p.isLt
  -- the result block of point t at (p, q) is the array's entry (1024 (t / 8) + p, q)
  have hr : ((cfg3.win 5).blk t).view.emb (ix2 p q) = ix2 (rowAt t p) q := by
    funext a; apply Fin.ext
    match a with
    | ⟨0, _⟩ => show win3_5.index t (0 : Fin 2) * 1024 + 1 * p.val = t.val / 8 * 1024 + p.val; omega
    | ⟨1, _⟩ => show win3_5.index t (1 : Fin 2) * 64 + 1 * q.val = q.val; omega
  show k3_pay3 (F := Ideal) (outsAt3 V c t.val t.isLt).2 (projBlk V c t) (biasBlk V c t) (noiseBlk V c t) (ix2 p q)
    = Cert.Spec.sample (Cert.Spec.mm (V c main_arg1) (V c main_v3)) (V c main_arg5) (V c main_v4) (V c main_arg7)
        (((cfg3.win 5).blk t).view.emb (ix2 p q))
  rw [hr]
  refine sample_rows _ _ _ _ _ _ _ _ (rowAt t p) p q (fun m => ?_) (fun l => ?_) ?_ ?_
  · -- the accumulator's row p after the last step is row 1024 (t / 8) + p of A · H
    rw [acc_eq V c t.val t.isLt p m, h7, sum_blockTerm]
  · -- the projection block is the projection array
    show V c main_arg5 (((cfg3.win 2).blk t).view.emb (ix2 l q)) = V c main_arg5 (ix2 l q)
    refine congrArg (V c main_arg5) (funext fun a => Fin.ext ?_)
    match a with
    | ⟨0, _⟩ => show win3_2.index t (0 : Fin 2) * 64 + 1 * l.val = l.val; omega
    | ⟨1, _⟩ => show win3_2.index t (1 : Fin 2) * 64 + 1 * q.val = q.val; omega
  · -- the bias block is the bias row
    show V c main_v4 (((cfg3.win 3).blk t).view.emb (ix2 (0 : Fin 1) q)) = V c main_v4 (ix2 (0 : Fin 1) q)
    refine congrArg (V c main_v4) (funext fun a => Fin.ext ?_)
    match a with
    | ⟨0, _⟩ => show win3_3.index t (0 : Fin 2) * 1 + 1 * 0 = 0; omega
    | ⟨1, _⟩ => show win3_3.index t (1 : Fin 2) * 64 + 1 * q.val = q.val; omega
  · -- the noise block at (p, q) is the noise array at (1024 (t / 8) + p, q)
    show V c main_arg7 (((cfg3.win 4).blk t).view.emb (ix2 p q)) = V c main_arg7 (ix2 (rowAt t p) q)
    refine congrArg (V c main_arg7) (funext fun a => Fin.ext ?_)
    match a with
    | ⟨0, _⟩ => show win3_4.index t (0 : Fin 2) * 1024 + 1 * p.val = t.val / 8 * 1024 + p.val; omega
    | ⟨1, _⟩ => show win3_4.index t (1 : Fin 2) * 64 + 1 * q.val = q.val; omega

/-- An index of the result array is in point t's block iff each coordinate is in the block's range on its axis. -/
theorem mem_rows3 (t : Fin cfg3.N) (i : S16384x64.Idx) :
    i ∈ ((cfg3.win 5).blk t).view.set ↔ ∀ a : Fin 2, win3_5.index t a * S1024x64.size a ≤ (i a).val ∧ (i a).val < win3_5.index t a * S1024x64.size a + S1024x64.size a := by
  show i ∈ ((View.whole main_v5).slice (win3_5.rect t)).set ↔ _
  rw [View.set_slice_whole, Rect.mem_set_unit]
  exact Iff.rfl

/-- Row r of the result lies in the block written back at point 8 (r / 1024) + 7. -/
theorem rows_covered3 (i : S16384x64.Idx) :
    ∃ t : Fin cfg3.N, (cfg3.win 5).flush t = true ∧ i ∈ ((cfg3.win 5).blk t).view.set := by
  have hi0 : (i 0).val < 16384 := idx2_lt0 i
  have hi1 : (i 1).val < 64 := idx2_lt1 i
  obtain ⟨t, ht⟩ : ∃ t : Fin cfg3.N, t.val = 8 * ((i 0).val / 1024) + 7 :=
    ⟨⟨8 * ((i 0).val / 1024) + 7, by rw [show cfg3.N = 128 from N_3]; omega⟩, rfl⟩
  obtain ⟨-, -, -, -, -, -, e6, e7⟩ := index_maps3 t
  refine ⟨t, (flush3_5 t).mpr (by omega), ?_⟩
  rw [mem_rows3]
  intro a
  match a with
  | ⟨0, _⟩ => show win3_5.index t (0 : Fin 2) * 1024 ≤ (i 0).val ∧ (i 0).val < win3_5.index t (0 : Fin 2) * 1024 + 1024; omega
  | ⟨1, _⟩ => show win3_5.index t (1 : Fin 2) * 64 ≤ (i 1).val ∧ (i 1).val < win3_5.index t (1 : Fin 2) * 64 + 64; omega

/-- After the sixteen write-backs the result array is the last stage of A · H with the projection, the bias row and the
    noise. -/
theorem final3 (c : Dev nD) :
    (dat3 (F := Ideal) V c).arrAt 5 cfg3.N
      = Cert.Spec.sample (Cert.Spec.mm (V c main_arg1) (V c main_v3)) (V c main_arg5) (V c main_v4) (V c main_arg7) :=
  (dat3 (F := Ideal) V c).arrAt_eq_of_cover 5
    (Cert.Spec.sample (Cert.Spec.mm (V c main_arg1) (V c main_v3)) (V c main_arg5) (V c main_v4) (V c main_arg7))
    (fun t hf => flushed3_eq V c t hf) rows_covered3

end Cert.KernelIdeal.Val.Call3

end
-- ==== Proof.RefValue.lean ====
/-
  The reference program's last stage is the specification's encoder.
  Each host product is the plain sum over the contracted axis, so it is the specification's matrix product of its two
  operands; the maximum with the zero splat is the entrywise maximum with zero. The reference computes the two branches
  adj · (H · Wm) and adj · (H · Ws) apart, the specification as the left and right 64 columns of adj · (H · [Wm | Ws]):
  column by column the two agree, because a column of H · [Wm | Ws] is a column of H · Wm or of H · Ws.
-/
import proofs.«178931_j89567247991228_1_alg».proof.Proof.Gen.ReferenceIdeal.Read
import proofs.«178931_j89567247991228_1_alg».proof.Proof.Spec

noncomputable section

open scoped BigOperators

namespace Cert.ReferenceIdeal.RefValue

open Cert.ReferenceIdeal Cert.ReferenceIdeal.Read Idealize.ShloMosaic Idealize.ShloMosaic.ValueIdx

/-! ## Two products in a row against the side-by-side matrix -/

/-- Column l of P · (H · [A | B]), l below 64, is column l of P · (H · A). -/
theorem mm_mm_sideBySide_left {M K : Nat} (P : Spec.Mat M K) (H : Spec.Mat K 128) (A B : Spec.Mat 128 64) (r : Fin M) (l : Fin 64) :
    Spec.mm P (Spec.mm H (Spec.sideBySide A B)) (ix2 r ⟨l.val, by have := l.isLt; omega⟩) = Spec.mm P (Spec.mm H A) (ix2 r l) := by
  show ∑ k : Fin K, P (ix2 r k) * Spec.mm H (Spec.sideBySide A B) (ix2 k ⟨l.val, by have := l.isLt; omega⟩)
    = ∑ k : Fin K, P (ix2 r k) * Spec.mm H A (ix2 k l)
  exact Finset.sum_congr rfl fun k _ => by rw [Spec.mm_sideBySide_left]

/-- Column 64 + l of P · (H · [A | B]) is column l of P · (H · B). -/
theorem mm_mm_sideBySide_right {M K : Nat} (P : Spec.Mat M K) (H : Spec.Mat K 128) (A B : Spec.Mat 128 64) (r : Fin M) (l : Fin 64) :
    Spec.mm P (Spec.mm H (Spec.sideBySide A B)) (ix2 r ⟨l.val + 64, by have := l.isLt; omega⟩) = Spec.mm P (Spec.mm H B) (ix2 r l) := by
  show ∑ k : Fin K, P (ix2 r k) * Spec.mm H (Spec.sideBySide A B) (ix2 k ⟨l.val + 64, by have := l.isLt; omega⟩)
    = ∑ k : Fin K, P (ix2 r k) * Spec.mm H B (ix2 k l)
  exact Finset.sum_congr rfl fun k _ => by rw [Spec.mm_sideBySide_right]

/-! ## The reference's stages as the specification's operations -/

/-- Stage 0 is the product of its two operands. -/
theorem v0_eq (x0 : (⟨S16384x256, .f32⟩ : BufTy).Contents (Elt Ideal)) (x2 : (⟨S256x128, .f32⟩ : BufTy).Contents (Elt Ideal)) :
    val_main_v0 (F := Ideal) x0 x2 = Spec.mm (M := 16384) (K := 256) (N := 128) (x0) (x2) := by
  funext i
  rw [val_main_v0_apply]
  refine Finset.sum_congr rfl fun k _ => ?_
  have el : lidx_main_v0 i k = ix2 (n0 := 16384) (n1 := 256) (i 0) k := funext fun a => Fin.ext (by match a with | ⟨0, _⟩ => rfl | ⟨1, _⟩ => rfl)
  have er : ridx_main_v0 i k = ix2 (n0 := 256) (n1 := 128) k (i 1) := funext fun a => Fin.ext (by match a with | ⟨0, _⟩ => rfl | ⟨1, _⟩ => rfl)
  rw [el, er]

/-- Stage 1 is the product of its two operands. -/
theorem v1_eq (x0 : (⟨S16384x256, .f32⟩ : BufTy).Contents (Elt Ideal)) (x1 : (⟨S16384x16384, .f32⟩ : BufTy).Contents (Elt Ideal)) (x2 : (⟨S256x128, .f32⟩ : BufTy).Contents (Elt Ideal)) :
    val_main_v1 (F := Ideal) x0 x1 x2 = Spec.mm (M := 16384) (K := 16384) (N := 128) (x1) (val_main_v0 (F := Ideal) x0 x2) := by
  funext i
  rw [val_main_v1_apply]
  refine Finset.sum_congr rfl fun k _ => ?_
  have el : lidx_main_v1 i k = ix2 (n0 := 16384) (n1 := 16384) (i 0) k := funext fun a => Fin.ext (by match a with | ⟨0, _⟩ => rfl | ⟨1, _⟩ => rfl)
  have er : ridx_main_v1 i k = ix2 (n0 := 16384) (n1 := 128) k (i 1) := funext fun a => Fin.ext (by match a with | ⟨0, _⟩ => rfl | ⟨1, _⟩ => rfl)
  rw [el, er]

/-- Stage 2 is the entrywise maximum of stage 1 with zero. -/
theorem v2_eq (x0 : (⟨S16384x256, .f32⟩ : BufTy).Contents (Elt Ideal)) (x1 : (⟨S16384x16384, .f32⟩ : BufTy).Contents (Elt Ideal)) (x2 : (⟨S256x128, .f32⟩ : BufTy).Contents (Elt Ideal)) :
    val_main_v2 (F := Ideal) x0 x1 x2 = Spec.relu (M := 16384) (N := 128) (val_main_v1 (F := Ideal) x0 x1 x2) := by
  funext i
  rw [val_main_v2_apply, val_main_call0_v0_apply, val_main_call0_cst_apply]
  rfl

/-- The hidden layer: relu(adj · (X · W1)). -/
theorem hidden_eq (x0 : (⟨S16384x256, .f32⟩ : BufTy).Contents (Elt Ideal)) (x1 : (⟨S16384x16384, .f32⟩ : BufTy).Contents (Elt Ideal)) (x2 : (⟨S256x128, .f32⟩ : BufTy).Contents (Elt Ideal)) :
    val_main_v2 (F := Ideal) x0 x1 x2
      = Spec.relu (M := 16384) (N := 128) (Spec.mm (M := 16384) (K := 16384) (N := 128) x1 (Spec.mm (M := 16384) (K := 256) (N := 128) x0 x2)) := by
  rw [v2_eq, v1_eq, v0_eq]

/-- Stage 3 is the product of its two operands. -/
theorem v3_eq (x0 : (⟨S16384x256, .f32⟩ : BufTy).Contents (Elt Ideal)) (x1 : (⟨S16384x16384, .f32⟩ : BufTy).Contents (Elt Ideal)) (x2 : (⟨S256x128, .f32⟩ : BufTy).Contents (Elt Ideal)) (x3 : (⟨S128x64, .f32⟩ : BufTy).Contents (Elt Ideal)) :
    val_main_v3 (F := Ideal) x0 x1 x2 x3 = Spec.mm (M := 16384) (K := 128) (N := 64) (val_main_v2 (F := Ideal) x0 x1 x2) (x3) := by
  funext i
  rw [val_main_v3_apply]
  refine Finset.sum_congr rfl fun k _ => ?_
  have el : lidx_main_v3 i k = ix2 (n0 := 16384) (n1 := 128) (i 0) k := funext fun a => Fin.ext (by match a with | ⟨0, _⟩ => rfl | ⟨1, _⟩ => rfl)
  have er : ridx_main_v3 i k = ix2 (n0 := 128) (n1 := 64) k (i 1) := funext fun a => Fin.ext (by match a with | ⟨0, _⟩ => rfl | ⟨1, _⟩ => rfl)
  rw [el, er]

/-- Stage 4 is the product of its two operands. -/
theorem v4_eq (x0 : (⟨S16384x256, .f32⟩ : BufTy).Contents (Elt Ideal)) (x1 : (⟨S16384x16384, .f32⟩ : BufTy).Contents (Elt Ideal)) (x2 : (⟨S256x128, .f32⟩ : BufTy).Contents (Elt Ideal)) (x3 : (⟨S128x64, .f32⟩ : BufTy).Contents (Elt Ideal)) :
    val_main_v4 (F := Ideal) x0 x1 x2 x3 = Spec.mm (M := 16384) (K := 16384) (N := 64) (x1) (val_main_v3 (F := Ideal) x0 x1 x2 x3) := by
  funext i
  rw [val_main_v4_apply]
  refine Finset.sum_congr rfl fun k _ => ?_
  have el : lidx_main_v4 i k = ix2 (n0 := 16384) (n1 := 16384) (i 0) k := funext fun a => Fin.ext (by match a with | ⟨0, _⟩ => rfl | ⟨1, _⟩ => rfl)
  have er : ridx_main_v4 i k = ix2 (n0 := 16384) (n1 := 64) k (i 1) := funext fun a => Fin.ext (by match a with | ⟨0, _⟩ => rfl | ⟨1, _⟩ => rfl)
  rw [el, er]

/-- Stage 5 is the product of its two operands. -/
theorem v5_eq (x0 : (⟨S16384x256, .f32⟩ : BufTy).Contents (Elt Ideal)) (x1 : (⟨S16384x16384, .f32⟩ : BufTy).Contents (Elt Ideal)) (x2 : (⟨S256x128, .f32⟩ : BufTy).Contents (Elt Ideal)) (x3 : (⟨S128x64, .f32⟩ : BufTy).Contents (Elt Ideal)) (x5 : (⟨S64x64, .f32⟩ : BufTy).Contents (Elt Ideal)) :
    val_main_v5 (F := Ideal) x0 x1 x2 x3 x5 = Spec.mm (M := 16384) (K := 64) (N := 64) (val_main_v4 (F := Ideal) x0 x1 x2 x3) (x5) := by
  funext i
  rw [val_main_v5_apply]
  refine Finset.sum_congr rfl fun k _ => ?_
  have el : lidx_main_v5 i k = ix2 (n0 := 16384) (n1 := 64) (i 0) k := funext fun a => Fin.ext (by match a with | ⟨0, _⟩ => rfl | ⟨1, _⟩ => rfl)
  have er : ridx_main_v5 i k = ix2 (n0 := 64) (n1 := 64) k (i 1) := funext fun a => Fin.ext (by match a with | ⟨0, _⟩ => rfl | ⟨1, _⟩ => rfl)
  rw [el, er]

/-- Stage 9 is the product of its two operands. -/
theorem v9_eq (x0 : (⟨S16384x256, .f32⟩ : BufTy).Contents (Elt Ideal)) (x1 : (⟨S16384x16384, .f32⟩ : BufTy).Contents (Elt Ideal)) (x2 : (⟨S256x128, .f32⟩ : BufTy).Contents (Elt Ideal)) (x4 : (⟨S128x64, .f32⟩ : BufTy).Contents (Elt Ideal)) :
    val_main_v9 (F := Ideal) x0 x1 x2 x4 = Spec.mm (M := 16384) (K := 128) (N := 64) (val_main_v2 (F := Ideal) x0 x1 x2) (x4) := by
  funext i
  rw [val_main_v9_apply]
  refine Finset.sum_congr rfl fun k _ => ?_
  have el : lidx_main_v9 i k = ix2 (n0 := 16384) (n1 := 128) (i 0) k := funext fun a => Fin.ext (by match a with | ⟨0, _⟩ => rfl | ⟨1, _⟩ => rfl)
  have er : ridx_main_v9 i k = ix2 (n0 := 128) (n1 := 64) k (i 1) := funext fun a => Fin.ext (by match a with | ⟨0, _⟩ => rfl | ⟨1, _⟩ => rfl)
  rw [el, er]

/-- Stage 10 is the product of its two operands. -/
theorem v10_eq (x0 : (⟨S16384x256, .f32⟩ : BufTy).Contents (Elt Ideal)) (x1 : (⟨S16384x16384, .f32⟩ : BufTy).Contents (Elt Ideal)) (x2 : (⟨S256x128, .f32⟩ : BufTy).Contents (Elt Ideal)) (x4 : (⟨S128x64, .f32⟩ : BufTy).Contents (Elt Ideal)) :
    val_main_v10 (F := Ideal) x0 x1 x2 x4 = Spec.mm (M := 16384) (K := 16384) (N := 64) (x1) (val_main_v9 (F := Ideal) x0 x1 x2 x4) := by
  funext i
  rw [val_main_v10_apply]
  refine Finset.sum_congr rfl fun k _ => ?_
  have el : lidx_main_v10 i k = ix2 (n0 := 16384) (n1 := 16384) (i 0) k := funext fun a => Fin.ext (by match a with | ⟨0, _⟩ => rfl | ⟨1, _⟩ => rfl)
  have er : ridx_main_v10 i k = ix2 (n0 := 16384) (n1 := 64) k (i 1) := funext fun a => Fin.ext (by match a with | ⟨0, _⟩ => rfl | ⟨1, _⟩ => rfl)
  rw [el, er]

/-- The bias row read at an index: the bias at the column. -/
theorem v7_eq (x6 : (⟨S64, .f32⟩ : BufTy).Contents (Elt Ideal)) (i : S16384x64.Idx) :
    val_main_v7 (F := Ideal) x6 i = x6 (ix1 (n := 64) (i 1)) := by
  rw [val_main_v7_apply, val_main_v6_apply]
  exact congrArg x6 (funext fun a => Fin.ext (by match a with | ⟨0, _⟩ => rfl))

/-! ## The reference is the encoder -/

theorem ref_is_encoder (x0 : (⟨S16384x256, .f32⟩ : BufTy).Contents (Elt Ideal)) (x1 : (⟨S16384x16384, .f32⟩ : BufTy).Contents (Elt Ideal)) (x2 : (⟨S256x128, .f32⟩ : BufTy).Contents (Elt Ideal)) (x3 x4 : (⟨S128x64, .f32⟩ : BufTy).Contents (Elt Ideal)) (x5 : (⟨S64x64, .f32⟩ : BufTy).Contents (Elt Ideal)) (x6 : (⟨S64, .f32⟩ : BufTy).Contents (Elt Ideal)) (x7 : (⟨S16384x64, .f32⟩ : BufTy).Contents (Elt Ideal)) :
    val_main_v15 (F := Ideal) x0 x1 x2 x3 x4 x5 x6 x7 = Cert.Spec.encoder x0 x1 x2 x3 x4 x5 (fun i => x6 (ix1 (i 1))) x7 := by
  funext i
  -- the clamped branch: adj · (H · Ws) is the right half of the combined product
  have hL : val_main_v10 (F := Ideal) x0 x1 x2 x4 i
      = Spec.mm (M := 16384) (K := 16384) (N := 128) x1 (Spec.mm (M := 16384) (K := 128) (N := 128)
          (Spec.relu (M := 16384) (N := 128) (Spec.mm (M := 16384) (K := 16384) (N := 128) x1 (Spec.mm (M := 16384) (K := 256) (N := 128) x0 x2)))
          (Spec.sideBySide x3 x4)) (ix2 (n0 := 16384) (n1 := 128) (i 0) ⟨(i 1).val + 64, by have := idx2_lt1 i; omega⟩) := by
    rw [v10_eq, v9_eq, hidden_eq]
    refine (congrArg _ (eq_ix2 i)).trans ?_
    exact (mm_mm_sideBySide_right x1 _ x3 x4 (i 0) (i 1)).symm
  -- the mean branch: adj · (H · Wm) is the left half of the combined product, then times Wp
  have hZ : val_main_v5 (F := Ideal) x0 x1 x2 x3 x5 i
      = ∑ l : Fin 64, Spec.mm (M := 16384) (K := 16384) (N := 128) x1 (Spec.mm (M := 16384) (K := 128) (N := 128)
          (Spec.relu (M := 16384) (N := 128) (Spec.mm (M := 16384) (K := 16384) (N := 128) x1 (Spec.mm (M := 16384) (K := 256) (N := 128) x0 x2)))
          (Spec.sideBySide x3 x4)) (ix2 (n0 := 16384) (n1 := 128) (i 0) ⟨l.val, by have := l.isLt; omega⟩) * x5 (ix2 (n0 := 64) (n1 := 64) l (i 1)) := by
    rw [v5_eq, v4_eq, v3_eq, hidden_eq]
    refine Finset.sum_congr rfl fun l _ => ?_
    exact congrArg (· * x5 (ix2 (n0 := 64) (n1 := 64) l (i 1))) (mm_mm_sideBySide_left x1 _ x3 x4 (i 0) l).symm
  rw [val_main_v15_apply, val_main_v14_apply, val_main_v13_apply, val_main_v12_apply, val_main_v11_apply, val_main_cst_apply,
    val_main_v8_apply, hL, hZ, v7_eq]
  simp only [Ideal.addf_def, Ideal.mulf_def, Ideal.minimumf_def, Ideal.hostUnary_exp_def, Ideal.ofBits_def]
  unfold Spec.encoder Spec.sample
  rfl

end Cert.ReferenceIdeal.RefValue

end
-- ==== Proof.lean ====
/-
  The encoder certificate.  The kernel computes  noise · exp(min(L, 10)) + (Z · Wp + bp)  with
  [Z | L] = adj · (relu(adj · (X · W1)) · [Wm | Ws])  in four pallas_calls: two plain row-blocked
  products and two products accumulated over eight blocks of the contracted axis in a scratch
  accumulator; the reference computes Z and L by separate products.  Over the extended reals both are
  one function of the eight argument arrays (`Cert.Spec.encoder`): a product accumulated block by
  block from zero is the whole sum, and the two halves of a product with [Wm | Ws] are the products
  with Wm and with Ws.  No step moves a factor across a sum, so finiteness of the inputs is not used.

  The three frames: the word-level kernel's and the idealized kernel's are the same run of @main's six
  segments, proved once for every float instance; the reference's is its host run with the result dropped.
  The idealization rewrote nothing, so that conjunct is trivial.
-/
import proofs.«178931_j89567247991228_1_alg».proof.Defs
import proofs.«178931_j89567247991228_1_alg».proof.Proof.Gen.Kernel
import proofs.«178931_j89567247991228_1_alg».proof.Proof.Gen.KernelIdeal
import proofs.«178931_j89567247991228_1_alg».proof.Proof.Gen.ReferenceIdeal
import proofs.«178931_j89567247991228_1_alg».proof.Proof.Gen.Pre_finite_inputs
import proofs.«178931_j89567247991228_1_alg».proof.Proof.Gen.ReferenceIdeal.Run
import proofs.«178931_j89567247991228_1_alg».proof.Proof.Args
import proofs.«178931_j89567247991228_1_alg».proof.Proof.Bits.Args
import proofs.«178931_j89567247991228_1_alg».proof.Proof.KernelValue
import proofs.«178931_j89567247991228_1_alg».proof.Proof.ValR1
import proofs.«178931_j89567247991228_1_alg».proof.Proof.ValR3
import proofs.«178931_j89567247991228_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Frame.frame m ρ

theorem frame_kernelIdeal : Cert.frame_KernelIdeal := fun m ρ _ => Cert.KernelIdeal.Frame.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Frame in
/-- Both programs end with the result array at the encoder's value of the launched argument arrays. -/
theorem algebraic : Cert.algebraic_KernelIdeal_ReferenceIdeal := by
  intro m ρ m' ρ' _ hagree
  refine ⟨fun c => Cert.Spec.encoder (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (fun i => (m ((c.tc : Thread Cert.KernelIdeal.nD Cert.KernelIdeal.τ).loc Cert.KernelIdeal.main_arg6)) (Idealize.ShloMosaic.ValueIdx.ix1 (i 1))) (m ((c.tc : Thread Cert.KernelIdeal.nD Cert.KernelIdeal.τ).loc Cert.KernelIdeal.main_arg7)), ?_, ?_⟩
  · exact (θ_run Cert.KernelIdeal.defs _ _).mono (fun r h c =>
      ⟨(h c _ (mem_uc main_v5 (by decide))).trans
          (Cert.KernelIdeal.Val.result_eq m ρ Cert.KernelIdeal.Val.Call1.final1 Cert.KernelIdeal.Val.Call3.final3 c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩) (Cert.KernelIdeal.Frame.run m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    rw [e0, e1, e2, e3, e4, e5, e6, e7]
    exact (Cert.ReferenceIdeal.Read.val_main_v15_eq _ _ _ _ _ _ _ _).trans
      (Cert.ReferenceIdeal.RefValue.ref_is_encoder _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
